-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v107)) (v1 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_v97) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_v159) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part6 {F : FTy → Type} [FloatOps F] (main_arg23 : FVec F S32 .f32) (main_v98 : IVec S_ 1) (main_v101 : IVec S32x64 1) (main_c_39 : IVec S_ 1) : IVec S_ 1 :=
  let main_v102 : IVec S_ 1 := (fun x v => Host.reduce IntOp.andi x v reducesTo_S32x64_S_d0_1 h_S_) main_v101 main_c_39
  let main_v103 : IVec S_ 1 := andi main_v98 main_v102
  let main_v104 : FVec F S32 .f32 := Host.absf main_arg23
  let main_cst_40 : FVec F S_ .f32 := constant S_ .f32 0x7F800000#32
  let main_v105 : FVec F S32 .f32 := broadcastInDim S32 ![] bcast_S_S32 main_cst_40
  let main_v106 : IVec S32 1 := cmpf .olt main_v104 main_v105
  let main_c_41 : IVec S_ 1 := constantI S_ 1 1#1
  let main_v107 : IVec S_ 1 := (fun x v => Host.reduce IntOp.andi x v reducesTo_S32_S_d0 h_S_) main_v106 main_c_41
  let main_v108 : IVec S_ 1 := andi main_v103 main_v107
  main_v108

def fn_part5 {F : FTy → Type} [FloatOps F] (main_arg20 : FVec F S32x64 .f32) (main_arg21 : FVec F S32 .f32) (main_arg22 : FVec F S32x64 .f32) (main_arg23 : FVec F S32 .f32) (main_v83 : IVec S_ 1) (main_v84 : FVec F S64x64 .f32) (main_cst_32 : FVec F S_ .f32) : IVec S_ 1 :=
  let main_v85 : FVec F S64x64 .f32 := broadcastInDim S64x64 ![] bcast_S_S64x64 main_cst_32
  let main_v86 : IVec S64x64 1 := cmpf .olt main_v84 main_v85
  let main_c_33 : IVec S_ 1 := constantI S_ 1 1#1
  let main_v87 : IVec S_ 1 := (fun x v => Host.reduce IntOp.andi x v reducesTo_S64x64_S_d0_1 h_S_) main_v86 main_c_33
  let main_v88 : IVec S_ 1 := andi main_v83 main_v87
  let main_v89 : FVec F S32x64 .f32 := Host.absf main_arg20
  let main_cst_34 : FVec F S_ .f32 := constant S_ .f32 0x7F800000#32
  let main_v90 : FVec F S32x64 .f32 := broadcastInDim S32x64 ![] bcast_S_S32x64 main_cst_34
  let main_v91 : IVec S32x64 1 := cmpf .olt main_v89 main_v90
  let main_c_35 : IVec S_ 1 := constantI S_ 1 1#1
  let main_v92 : IVec S_ 1 := (fun x v => Host.reduce IntOp.andi x v reducesTo_S32x64_S_d0_1 h_S_) main_v91 main_c_35
  let main_v93 : IVec S_ 1 := andi main_v88 main_v92
  let main_v94 : FVec F S32 .f32 := Host.absf main_arg21
  let main_cst_36 : FVec F S_ .f32 := constant S_ .f32 0x7F800000#32
  let main_v95 : FVec F S32 .f32 := broadcastInDim S32 ![] bcast_S_S32 main_cst_36
  let main_v96 : IVec S32 1 := cmpf .olt main_v94 main_v95
  let main_c_37 : IVec S_ 1 := constantI S_ 1 1#1
  let main_v97 : IVec S_ 1 := (fun x v => Host.reduce IntOp.andi x v reducesTo_S32_S_d0 h_S_) main_v96 main_c_37
  let main_v98 : IVec S_ 1 := andi main_v93 main_v97
  let main_v99 : FVec F S32x64 .f32 := Host.absf main_arg22
  let main_cst_38 : FVec F S_ .f32 := constant S_ .f32 0x7F800000#32
  let main_v100 : FVec F S32x64 .f32 := broadcastInDim S32x64 ![] bcast_S_S32x64 main_cst_38
  let main_v101 : IVec S32x64 1 := cmpf .olt main_v99 main_v100
  let main_c_39 : IVec S_ 1 := constantI S_ 1 1#1
  fn_part6 (F := F) main_arg23 main_v98 main_v101 main_c_39

def fn_part4 {F : FTy → Type} [FloatOps F] (main_arg16 : FVec F S64x64 .f32) (main_arg17 : FVec F S64x64 .f32) (main_arg18 : FVec F S64 .f32) (main_arg19 : FVec F S64x64 .f32) (main_arg20 : FVec F S32x64 .f32) (main_arg21 : FVec F S32 .f32) (main_arg22 : FVec F S32x64 .f32) (main_arg23 : FVec F S32 .f32) (main_v63 : IVec S_ 1) (main_v67 : IVec S_ 1) : IVec S_ 1 :=
  let main_v68 : IVec S_ 1 := andi main_v63 main_v67
  let main_v69 : FVec F S64x64 .f32 := Host.absf main_arg16
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64x64 .f32 := Host.absf main_arg17
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x64 .f32 := Host.absf main_arg19
  let main_cst_32 : FVec F S_ .f32 := constant S_ .f32 0x7F800000#32
  fn_part5 (F := F) main_arg20 main_arg21 main_arg22 main_arg23 main_v83 main_v84 main_cst_32

def fn_part3 {F : FTy → Type} [FloatOps F] (main_arg13 : FVec F S64x64 .f32) (main_arg14 : FVec F S64x64 .f32) (main_arg15 : FVec F S64 .f32) (main_arg16 : FVec F S64x64 .f32) (main_arg17 : FVec F S64x64 .f32) (main_arg18 : FVec F S64 .f32) (main_arg19 : FVec F S64x64 .f32) (main_arg20 : FVec F S32x64 .f32) (main_arg21 : FVec F S32 .f32) (main_arg22 : FVec F S32x64 .f32) (main_arg23 : FVec F S32 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64x64 .f32 := Host.absf main_arg14
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_arg19 main_arg20 main_arg21 main_arg22 main_arg23 main_v63 main_v67

def fn_part2 {F : FTy → Type} [FloatOps F] (main_arg9 : FVec F S64 .f32) (main_arg10 : FVec F S64x64 .f32) (main_arg11 : FVec F S64x64 .f32) (main_arg12 : FVec F S64 .f32) (main_arg13 : FVec F S64x64 .f32) (main_arg14 : FVec F S64x64 .f32) (main_arg15 : FVec F S64 .f32) (main_arg16 : FVec F S64x64 .f32) (main_arg17 : FVec F S64x64 .f32) (main_arg18 : FVec F S64 .f32) (main_arg19 : FVec F S64x64 .f32) (main_arg20 : FVec F S32x64 .f32) (main_arg21 : FVec F S32 .f32) (main_arg22 : FVec F S32x64 .f32) (main_arg23 : FVec F S32 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_arg21 main_arg22 main_arg23 main_v48 main_v49 main_v50

def fn_part1 {F : FTy → Type} [FloatOps F] (main_arg6 : FVec F S64x64 .f32) (main_arg7 : FVec F S64 .f32) (main_arg8 : FVec F S64x64 .f32) (main_arg9 : FVec F S64 .f32) (main_arg10 : FVec F S64x64 .f32) (main_arg11 : FVec F S64x64 .f32) (main_arg12 : FVec F S64 .f32) (main_arg13 : FVec F S64x64 .f32) (main_arg14 : FVec F S64x64 .f32) (main_arg15 : FVec F S64 .f32) (main_arg16 : FVec F S64x64 .f32) (main_arg17 : FVec F S64x64 .f32) (main_arg18 : FVec F S64 .f32) (main_arg19 : FVec F S64x64 .f32) (main_arg20 : FVec F S32x64 .f32) (main_arg21 : FVec F S32 .f32) (main_arg22 : FVec F S32x64 .f32) (main_arg23 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S200000x64 .f32) (main_arg1 : FVec F S100000x64 .f32) (main_arg2 : IVec S2x1000000 32) (main_arg3 : IVec S2x1000000 32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64x64 .f32) (main_arg12 : FVec F S64 .f32) (main_arg13 : FVec F S64x64 .f32) (main_arg14 : FVec F S64x64 .f32) (main_arg15 : FVec F S64 .f32) (main_arg16 : FVec F S64x64 .f32) (main_arg17 : FVec F S64x64 .f32) (main_arg18 : FVec F S64 .f32) (main_arg19 : FVec F S64x64 .f32) (main_arg20 : FVec F S32x64 .f32) (main_arg21 : FVec F S32 .f32) (main_arg22 : FVec F S32x64 .f32) (main_arg23 : FVec F S32 .f32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S200000x64 : Shape := ⟨2, ![200000, 64]⟩
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x64 : Shape := ⟨2, ![1, 64]⟩
abbrev S10000x64 : Shape := ⟨2, ![10000, 64]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S200000 : Shape := ⟨1, ![200000]⟩
abbrev S100000x1 : Shape := ⟨2, ![100000, 1]⟩
abbrev S200000x1 : Shape := ⟨2, ![200000, 1]⟩
abbrev S1000000x64 : Shape := ⟨2, ![1000000, 64]⟩
abbrev S5000x64 : Shape := ⟨2, ![5000, 64]⟩
abbrev S5000x1 : Shape := ⟨2, ![5000, 1]⟩
abbrev S1x32 : Shape := ⟨2, ![1, 32]⟩
abbrev S100000x32 : Shape := ⟨2, ![100000, 32]⟩
abbrev S5000x32 : Shape := ⟨2, ![5000, 32]⟩
abbrev S200000x32 : Shape := ⟨2, ![200000, 32]⟩

abbrev nBuf : Space → Nat
  | .hbm => 156
  | .vmem => 60
  | .smem => 0
  | _ => 0

abbrev hbmTy0_0 (i : Nat) : BufTy := match i % 128 with
  | 0 => ⟨S200000x64, .f32⟩
  | 1 => ⟨S100000x64, .f32⟩
  | 2 => ⟨S2x1000000, .i32⟩
  | 3 => ⟨S2x1000000, .i32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64x64, .f32⟩
  | 12 => ⟨S64, .f32⟩
  | 13 => ⟨S64x64, .f32⟩
  | 14 => ⟨S64x64, .f32⟩
  | 15 => ⟨S64, .f32⟩
  | 16 => ⟨S64x64, .f32⟩
  | 17 => ⟨S64x64, .f32⟩
  | 18 => ⟨S64, .f32⟩
  | 19 => ⟨S64x64, .f32⟩
  | 20 => ⟨S32x64, .f32⟩
  | 21 => ⟨S32, .f32⟩
  | 22 => ⟨S32x64, .f32⟩
  | 23 => ⟨S32, .f32⟩
  | 24 => ⟨S1x64, .f32⟩
  | 25 => ⟨S200000x64, .f32⟩
  | 26 => ⟨S1x64, .f32⟩
  | 27 => ⟨S100000x64, .f32⟩
  | 28 => ⟨S1x1000000, .i32⟩
  | 29 => ⟨S1000000, .i32⟩
  | 30 => ⟨S1x1000000, .i32⟩
  | 31 => ⟨S1000000, .i32⟩
  | 32 => ⟨S1x1000000, .i32⟩
  | 33 => ⟨S1000000, .i32⟩
  | 34 => ⟨S1x1000000, .i32⟩
  | 35 => ⟨S1000000, .i32⟩
  | 36 => ⟨S_, .f32⟩
  | 37 => ⟨S1000000, .f32⟩
  | 38 => ⟨S_, .f32⟩
  | 39 => ⟨S1000000, .f32⟩
  | 40 => ⟨S_, .f32⟩
  | 41 => ⟨S100000, .f32⟩
  | 42 => ⟨S1000000x1, .i32⟩
  | 43 => ⟨S100000, .f32⟩
  | 44 => ⟨S_, .f32⟩
  | 45 => ⟨S200000, .f32⟩
  | 46 => ⟨S1000000x1, .i32⟩
  | 47 => ⟨S200000, .f32⟩
  | 48 => ⟨S_, .f32⟩
  | 49 => ⟨S100000, .f32⟩
  | 50 => ⟨S100000, .f32⟩
  | 51 => ⟨S_, .f32⟩
  | 52 => ⟨S100000, .f32⟩
  | 53 => ⟨S100000, .f32⟩
  | 54 => ⟨S100000x1, .f32⟩
  | 55 => ⟨S_, .f32⟩
  | 56 => ⟨S200000, .f32⟩
  | 57 => ⟨S200000, .f32⟩
  | 58 => ⟨S_, .f32⟩
  | 59 => ⟨S200000, .f32⟩
  | 60 => ⟨S200000, .f32⟩
  | 61 => ⟨S200000x1, .f32⟩
  | 62 => ⟨S_, .i32⟩
  | 63 => ⟨S1000000, .i32⟩
  | 64 => ⟨S1000000, .i1⟩
  | 65 => ⟨S_, .i32⟩
  | 66 => ⟨S1000000, .i32⟩
  | 67 => ⟨S1000000, .i32⟩
  | 68 => ⟨S1000000, .i32⟩
  | 69 => ⟨S1000000x1, .i32⟩
  | 70 => ⟨S1000000x64, .f32⟩
  | 71 => ⟨S_, .f32⟩
  | 72 => ⟨S100000x64, .f32⟩
  | 73 => ⟨S1000000x1, .i32⟩
  | 74 => ⟨S100000x64, .f32⟩
  | 75 => ⟨S_, .i32⟩
  | 76 => ⟨S1000000, .i32⟩
  | 77 => ⟨S1000000, .i1⟩
  | 78 => ⟨S_, .i32⟩
  | 79 => ⟨S1000000, .i32⟩
  | 80 => ⟨S1000000, .i32⟩
  | 81 => ⟨S1000000, .i32⟩
  | 82 => ⟨S1000000x1, .i32⟩
  | 83 => ⟨S1000000x64, .f32⟩
  | 84 => ⟨S_, .f32⟩
  | 85 => ⟨S200000x64, .f32⟩
  | 86 => ⟨S1000000x1, .i32⟩
  | 87 => ⟨S200000x64, .f32⟩
  | 88 => ⟨S1x64, .f32⟩
  | 89 => ⟨S64x64, .i32⟩
  | 90 => ⟨S64x64, .i32⟩
  | 91 => ⟨S_, .i32⟩
  | 92 => ⟨S64x64, .i32⟩
  | 93 => ⟨S64x64, .i32⟩
  | 94 => ⟨S64x64, .i1⟩
  | 95 => ⟨S64x64, .f32⟩
  | 96 => ⟨S64x64, .f32⟩
  | 97 => ⟨S100000x64, .f32⟩
  | 98 => ⟨S1x64, .f32⟩
  | 99 => ⟨S64x64, .i32⟩
  | 100 => ⟨S64x64, .i32⟩
  | 101 => ⟨S_, .i32⟩
  | 102 => ⟨S64x64, .i32⟩
  | 103 => ⟨S64x64, .i32⟩
  | 104 => ⟨S64x64, .i1⟩
  | 105 => ⟨S64x64, .f32⟩
  | 106 => ⟨S64x64, .f32⟩
  | 107 => ⟨S200000x64, .f32⟩
  | 108 => ⟨S_, .i32⟩
  | 109 => ⟨S1000000, .i32⟩
  | 110 => ⟨S1000000, .i1⟩
  | 111 => ⟨S_, .i32⟩
  | 112 => ⟨S1000000, .i32⟩
  | 113 => ⟨S1000000, .i32⟩
  | 114 => ⟨S1000000, .i32⟩
  | 115 => ⟨S1000000x1, .i32⟩
  | 116 => ⟨S1000000x64, .f32⟩
  | 117 => ⟨S_, .f32⟩
  | 118 => ⟨S100000x64, .f32⟩
  | 119 => ⟨S1000000x1, .i32⟩
  | 120 => ⟨S100000x64, .f32⟩
  | 121 => ⟨S_, .i32⟩
  | 122 => ⟨S1000000, .i32⟩
  | 123 => ⟨S1000000, .i1⟩
  | 124 => ⟨S_, .i32⟩
  | 125 => ⟨S1000000, .i32⟩
  | 126 => ⟨S1000000, .i32⟩
  | 127 => ⟨S1000000, .i32⟩
  | _ => ⟨S200000x64, .f32⟩

abbrev hbmTy0_1 (i : Nat) : BufTy := match i % 128 with
  | 0 => ⟨S1000000x1, .i32⟩
  | 1 => ⟨S1000000x64, .f32⟩
  | 2 => ⟨S_, .f32⟩
  | 3 => ⟨S200000x64, .f32⟩
  | 4 => ⟨S1000000x1, .i32⟩
  | 5 => ⟨S200000x64, .f32⟩
  | 6 => ⟨S1x64, .f32⟩
  | 7 => ⟨S1x32, .f32⟩
  | 8 => ⟨S64x64, .i32⟩
  | 9 => ⟨S64x64, .i32⟩
  | 10 => ⟨S_, .i32⟩
  | 11 => ⟨S64x64, .i32⟩
  | 12 => ⟨S64x64, .i32⟩
  | 13 => ⟨S64x64, .i1⟩
  | 14 => ⟨S64x64, .f32⟩
  | 15 => ⟨S64x64, .f32⟩
  | 16 => ⟨S100000x32, .f32⟩
  | 17 => ⟨S1x64, .f32⟩
  | 18 => ⟨S1x32, .f32⟩
  | 19 => ⟨S64x64, .i32⟩
  | 20 => ⟨S64x64, .i32⟩
  | 21 => ⟨S_, .i32⟩
  | 22 => ⟨S64x64, .i32⟩
  | 23 => ⟨S64x64, .i32⟩
  | 24 => ⟨S64x64, .i1⟩
  | 25 => ⟨S64x64, .f32⟩
  | 26 => ⟨S64x64, .f32⟩
  | 27 => ⟨S200000x32, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S5000x64, .f32⟩
  | .local _ .vmem, ⟨13, _⟩ => ⟨S5000x64, .f32⟩
  | .local _ .vmem, ⟨14, _⟩ => ⟨S5000x1, .f32⟩
  | .local _ .vmem, ⟨15, _⟩ => ⟨S5000x1, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S1x64, .f32⟩
  | .local _ .vmem, ⟨20, _⟩ => ⟨S64x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x1, .f32⟩
  | .local _ .vmem, ⟨26, _⟩ => ⟨S5000x1, .f32⟩
  | .local _ .vmem, ⟨27, _⟩ => ⟨S5000x64, .f32⟩
  | .local _ .vmem, ⟨28, _⟩ => ⟨S5000x64, .f32⟩
  | .local _ .vmem, ⟨29, _⟩ => ⟨S64x64, .f32⟩
  | .local _ .vmem, ⟨30, _⟩ => ⟨S1x64, .f32⟩
  | .local _ .vmem, ⟨31, _⟩ => ⟨S64x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x1, .f32⟩
  | .local _ .vmem, ⟨37, _⟩ => ⟨S5000x1, .f32⟩
  | .local _ .vmem, ⟨38, _⟩ => ⟨S5000x64, .f32⟩
  | .local _ .vmem, ⟨39, _⟩ => ⟨S5000x64, .f32⟩
  | .local _ .vmem, ⟨40, _⟩ => ⟨S64x64, .f32⟩
  | .local _ .vmem, ⟨41, _⟩ => ⟨S1x64, .f32⟩
  | .local _ .vmem, ⟨42, _⟩ => ⟨S64x64, .f32⟩
  | .local _ .vmem, ⟨43, _⟩ => ⟨S32x64, .f32⟩
  | .local _ .vmem, ⟨44, _⟩ => ⟨S1x32, .f32⟩
  | .local _ .vmem, ⟨45, _⟩ => ⟨S5000x32, .f32⟩
  | .local _ .vmem, ⟨46, _⟩ => ⟨S5000x32, .f32⟩
  | .local _ .vmem, ⟨47, _⟩ => ⟨S5000x64, .f32⟩
  | .local _ .vmem, ⟨48, _⟩ => ⟨S5000x64, .f32⟩
  | .local _ .vmem, ⟨49, _⟩ => ⟨S5000x1, .f32⟩
  | .local _ .vmem, ⟨50, _⟩ => ⟨S5000x1, .f32⟩
  | .local _ .vmem, ⟨51, _⟩ => ⟨S5000x64, .f32⟩
  | .local _ .vmem, ⟨52, _⟩ => ⟨S5000x64, .f32⟩
  | .local _ .vmem, ⟨53, _⟩ => ⟨S64x64, .f32⟩
  | .local _ .vmem, ⟨54, _⟩ => ⟨S1x64, .f32⟩
  | .local _ .vmem, ⟨55, _⟩ => ⟨S64x64, .f32⟩
  | .local _ .vmem, ⟨56, _⟩ => ⟨S32x64, .f32⟩
  | .local _ .vmem, ⟨57, _⟩ => ⟨S1x32, .f32⟩
  | .local _ .vmem, ⟨58, _⟩ => ⟨S5000x32, .f32⟩
  | .local _ .vmem, ⟨59, _⟩ => ⟨S5000x32, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst : Ref sig .tc := ⟨.hbm, 36, rfl⟩
abbrev main_v12 : Ref sig .tc := ⟨.hbm, 37, rfl⟩
abbrev main_cst_0 : Ref sig .tc := ⟨.hbm, 38, rfl⟩
abbrev main_v13 : Ref sig .tc := ⟨.hbm, 39, rfl⟩
abbrev main_cst_1 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst_2 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_3 : Ref sig .tc := ⟨.hbm, 48, rfl⟩
abbrev main_v20 : Ref sig .tc := ⟨.hbm, 49, rfl⟩
abbrev main_v21 : Ref sig .tc := ⟨.hbm, 50, rfl⟩
abbrev main_cst_4 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst_5 : Ref sig .tc := ⟨.hbm, 55, rfl⟩
abbrev main_v25 : Ref sig .tc := ⟨.hbm, 56, rfl⟩
abbrev main_v26 : Ref sig .tc := ⟨.hbm, 57, rfl⟩
abbrev main_cst_6 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_c : Ref sig .tc := ⟨.hbm, 62, rfl⟩
abbrev main_v30 : Ref sig .tc := ⟨.hbm, 63, rfl⟩
abbrev main_v31 : Ref sig .tc := ⟨.hbm, 64, rfl⟩
abbrev main_c_7 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_cst_8 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_c_9 : Ref sig .tc := ⟨.hbm, 75, rfl⟩
abbrev main_v40 : Ref sig .tc := ⟨.hbm, 76, rfl⟩
abbrev main_v41 : Ref sig .tc := ⟨.hbm, 77, rfl⟩
abbrev main_c_10 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_cst_11 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_c_12 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_c_13 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_c_14 : Ref sig .tc := ⟨.hbm, 108, rfl⟩
abbrev main_v68 : Ref sig .tc := ⟨.hbm, 109, rfl⟩
abbrev main_v69 : Ref sig .tc := ⟨.hbm, 110, rfl⟩
abbrev main_c_15 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_cst_16 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_c_17 : Ref sig .tc := ⟨.hbm, 121, rfl⟩
abbrev main_v78 : Ref sig .tc := ⟨.hbm, 122, rfl⟩
abbrev main_v79 : Ref sig .tc := ⟨.hbm, 123, rfl⟩
abbrev main_c_18 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_cst_19 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_c_20 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_c_21 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg6_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg6_0 : Ref sig .tc := ⟨.vmem, 43, rfl⟩
abbrev cc4_stg7_0 : Ref sig .tc := ⟨.vmem, 44, rfl⟩
abbrev cc4_stg8_0 : Ref sig .tc := ⟨.vmem, 45, rfl⟩
abbrev cc4_stg8_1 : Ref sig .tc := ⟨.vmem, 46, rfl⟩
abbrev cc5_stg0_0 : Ref sig .tc := ⟨.vmem, 47, rfl⟩
abbrev cc5_stg0_1 : Ref sig .tc := ⟨.vmem, 48, rfl⟩
abbrev cc5_stg1_0 : Ref sig .tc := ⟨.vmem, 49, rfl⟩
abbrev cc5_stg1_1 : Ref sig .tc := ⟨.vmem, 50, rfl⟩
abbrev cc5_stg2_0 : Ref sig .tc := ⟨.vmem, 51, rfl⟩
abbrev cc5_stg2_1 : Ref sig .tc := ⟨.vmem, 52, rfl⟩
abbrev cc5_stg3_0 : Ref sig .tc := ⟨.vmem, 53, rfl⟩
abbrev cc5_stg4_0 : Ref sig .tc := ⟨.vmem, 54, rfl⟩
abbrev cc5_stg5_0 : Ref sig .tc := ⟨.vmem, 55, rfl⟩
abbrev cc5_stg6_0 : Ref sig .tc := ⟨.vmem, 56, rfl⟩
abbrev cc5_stg7_0 : Ref sig .tc := ⟨.vmem, 57, rfl⟩
abbrev cc5_stg8_0 : Ref sig .tc := ⟨.vmem, 58, rfl⟩
abbrev cc5_stg8_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem6_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem6_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc4_sem3_0 : DmaSem sig := 40
abbrev cc4_sem4_0 : DmaSem sig := 41
abbrev cc4_sem5_0 : DmaSem sig := 42
abbrev cc4_sem6_0 : DmaSem sig := 43
abbrev cc4_sem7_0 : DmaSem sig := 44
abbrev cc4_sem8_0 : DmaSem sig := 45
abbrev cc4_sem8_1 : DmaSem sig := 46
abbrev cc5_sem0_0 : DmaSem sig := 47
abbrev cc5_sem0_1 : DmaSem sig := 48
abbrev cc5_sem1_0 : DmaSem sig := 49
abbrev cc5_sem1_1 : DmaSem sig := 50
abbrev cc5_sem2_0 : DmaSem sig := 51
abbrev cc5_sem2_1 : DmaSem sig := 52
abbrev cc5_sem3_0 : DmaSem sig := 53
abbrev cc5_sem4_0 : DmaSem sig := 54
abbrev cc5_sem5_0 : DmaSem sig := 55
abbrev cc5_sem6_0 : DmaSem sig := 56
abbrev cc5_sem7_0 : DmaSem sig := 57
abbrev cc5_sem8_0 : DmaSem sig := 58
abbrev cc5_sem8_1 : DmaSem sig := 59

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S32x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x32 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S5000x32 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![40], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S32x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x32 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S5000x32 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

class Facts₀ : Prop where
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S_S200000 : S_.BroadcastsInDim S200000 (![] : Fin 0 → Fin S200000.rank)
  bcast_S100000_S100000x1_0 : S100000.BroadcastsInDim S100000x1 (![0] : Fin 1 → Fin S100000x1.rank)
  bcast_S200000_S200000x1_0 : S200000.BroadcastsInDim S200000x1 (![0] : Fin 1 → Fin S200000x1.rank)
  bcast_S_S100000x64 : S_.BroadcastsInDim S100000x64 (![] : Fin 0 → Fin S100000x64.rank)
  bcast_S_S200000x64 : S_.BroadcastsInDim S200000x64 (![] : Fin 0 → Fin S200000x64.rank)
  bcast_S_S64x64 : S_.BroadcastsInDim S64x64 (![] : Fin 0 → Fin S64x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  broadcasts_S1x64_S5000x64 : S1x64.Broadcasts S5000x64
  shapeCasts_S64x64_S64x64 : S64x64.ShapeCasts S64x64
  shapeCasts_S32_S1x32 : S32.ShapeCasts S1x32
  inb_S32x64_S32x64_0_0 : ∀ a, (![0, 0] : Fin 2 → Nat) a + S32x64.size a ≤ S32x64.size a
  h_S32x64 : 0 < S32x64.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  dot_S10000x64_S64x64_S10000x64_1_1_0_0_n_n_wf : DotDims.WF S10000x64 S64x64 S10000x64 [1] [1] [0] [0] [] []
  scatter_S100000_S1000000x1_S1000000_n_0_0_1_wf : ScatterDims.WF S100000 S1000000x1 S1000000 [] [0] [0] 1
  scatter_S200000_S1000000x1_S1000000_n_0_0_1_wf : ScatterDims.WF S200000 S1000000x1 S1000000 [] [0] [0] 1
  gather_S200000x64_S1000000x1_S1000000x64_1_0_n_n_0_1_164_wf : GatherDims.WF S200000x64 S1000000x1 S1000000x64 [1] [0] [] [0] [] 1 ![1, 64]
  scatter_S100000x64_S1000000x1_S1000000x64_1_0_0_1_wf : ScatterDims.WF S100000x64 S1000000x1 S1000000x64 [1] [0] [0] 1
  gather_S100000x64_S1000000x1_S1000000x64_1_0_n_n_0_1_164_wf : GatherDims.WF S100000x64 S1000000x1 S1000000x64 [1] [0] [] [0] [] 1 ![1, 64]
  scatter_S200000x64_S1000000x1_S1000000x64_1_0_0_1_wf : ScatterDims.WF S200000x64 S1000000x1 S1000000x64 [1] [0] [0] 1
  dot_S5000x64_S64x64_S5000x64_1_1_0_0_n_n_wf : DotDims.WF S5000x64 S64x64 S5000x64 [1] [1] [0] [0] [] []
  dot_S5000x64_S32x64_S5000x32_1_1_0_0_n_n_wf : DotDims.WF S5000x64 S32x64 S5000x32 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S200000x64.size a
  hwx0_0 : ∀ i : grid0.Coords, EltTy.bits .f32 = 32 ∨ (Rect.block (s := S200000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S200000x64.size a
  hwx0_3 : ∀ i : grid0.Coords, EltTy.bits .f32 = 32 ∨ (Rect.block (s := S200000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S200000x64.size a
  hwx3_0 : ∀ i : grid3.Coords, EltTy.bits .f32 = 32 ∨ (Rect.block (s := S200000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S200000x1.size a
  hwx3_1 : ∀ i : grid3.Coords, EltTy.bits .f32 = 32 ∨ (Rect.block (s := S200000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S200000x64.size a
  hwx3_2 : ∀ i : grid3.Coords, EltTy.bits .f32 = 32 ∨ (Rect.block (s := S200000x64) S5000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S200000x64.size a
  hwx3_6 : ∀ i : grid3.Coords, EltTy.bits .f32 = 32 ∨ (Rect.block (s := S200000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S32x64.size a ≤ S32x64.size a
  hwx4_6 : ∀ i : grid4.Coords, EltTy.bits .f32 = 32 ∨ (Rect.block (s := S32x64) S32x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x32.size a ≤ S1x32.size a
  hwx4_7 : ∀ i : grid4.Coords, EltTy.bits .f32 = 32 ∨ (Rect.block (s := S1x32) S1x32.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S5000x32.size a ≤ S100000x32.size a
  hwx4_8 : ∀ i : grid4.Coords, EltTy.bits .f32 = 32 ∨ (Rect.block (s := S100000x32) S5000x32.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S200000x64.size a
  hwx5_0 : ∀ i : grid5.Coords, EltTy.bits .f32 = 32 ∨ (Rect.block (s := S200000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S200000x1.size a
  hwx5_1 : ∀ i : grid5.Coords, EltTy.bits .f32 = 32 ∨ (Rect.block (s := S200000x1) S5000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S200000x64.size a
  hwx5_2 : ∀ i : grid5.Coords, EltTy.bits .f32 = 32 ∨ (Rect.block (s := S200000x64) S5000x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x64.size a ≤ S64x64.size a
  hwx5_5 : ∀ i : grid5.Coords, EltTy.bits .f32 = 32 ∨ (Rect.block (s := S64x64) S64x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S32x64.size a ≤ S32x64.size a
  hwx5_6 : ∀ i : grid5.Coords, EltTy.bits .f32 = 32 ∨ (Rect.block (s := S32x64) S32x64.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x32.size a ≤ S1x32.size a
  hwx5_7 : ∀ i : grid5.Coords, EltTy.bits .f32 = 32 ∨ (Rect.block (s := S1x32) S1x32.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S5000x32.size a ≤ S200000x32.size a
  hwx5_8 : ∀ i : grid5.Coords, EltTy.bits .f32 = 32 ∨ (Rect.block (s := S200000x32) S5000x32.size (cc5_transform_8 i) (hinb5_8 i)).WholeWords (EltTy.packing .f32)

variable [Facts₀]

def dot_S10000x64_S64x64_S10000x64_1_1_0_0_n_n : DotDims S10000x64 S64x64 S10000x64 where
  lhsContracting := [1]
  rhsContracting := [1]
  lhsNonContracting := [0]
  rhsNonContracting := [0]
  lhsBatch := []
  rhsBatch := []
  wf := dot_S10000x64_S64x64_S10000x64_1_1_0_0_n_n_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf
def dot_S5000x64_S64x64_S5000x64_1_1_0_0_n_n : DotDims S5000x64 S64x64 S5000x64 where
  lhsContracting := [1]
  rhsContracting := [1]
  lhsNonContracting := [0]
  rhsNonContracting := [0]
  lhsBatch := []
  rhsBatch := []
  wf := dot_S5000x64_S64x64_S5000x64_1_1_0_0_n_n_wf
def dot_S5000x64_S32x64_S5000x32_1_1_0_0_n_n : DotDims S5000x64 S32x64 S5000x32 where
  lhsContracting := [1]
  rhsContracting := [1]
  lhsNonContracting := [0]
  rhsNonContracting := [0]
  lhsBatch := []
  rhsBatch := []
  wf := dot_S5000x64_S32x64_S5000x32_1_1_0_0_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v39) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v50) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v58) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v49) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v1) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v66) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v67) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v77) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v24) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v58) S5000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg14) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v88) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v96) S64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg22) S32x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v89) S1x32.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v97) S5000x32.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v87) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v29) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v67) S5000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg17) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v98) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v106) S64x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg20) S32x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v99) S1x32.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v107) S5000x32.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

class Facts : Prop extends Facts₀ where

variable [Facts]
-- ==== ReferenceIdeal.lean ====
abbrev S200000x64 : Shape := ⟨2, ![200000, 64]⟩
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x64 : Shape := ⟨2, ![1, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S200000 : Shape := ⟨1, ![200000]⟩
abbrev S200000x1 : Shape := ⟨2, ![200000, 1]⟩
abbrev S64x32 : Shape := ⟨2, ![64, 32]⟩
abbrev S200000x32 : Shape := ⟨2, ![200000, 32]⟩
abbrev S1x32 : Shape := ⟨2, ![1, 32]⟩
abbrev S100000x32 : Shape := ⟨2, ![100000, 32]⟩

abbrev nBuf : Space → Nat
  | .hbm => 216
  | .vmem => 0
  | .smem => 0
  | _ => 0

abbrev hbmTy0_0 (i : Nat) : BufTy := match i % 128 with
  | 0 => ⟨S200000x64, .f32⟩
  | 1 => ⟨S100000x64, .f32⟩
  | 2 => ⟨S2x1000000, .i32⟩
  | 3 => ⟨S2x1000000, .i32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64x64, .f32⟩
  | 12 => ⟨S64, .f32⟩
  | 13 => ⟨S64x64, .f32⟩
  | 14 => ⟨S64x64, .f32⟩
  | 15 => ⟨S64, .f32⟩
  | 16 => ⟨S64x64, .f32⟩
  | 17 => ⟨S64x64, .f32⟩
  | 18 => ⟨S64, .f32⟩
  | 19 => ⟨S64x64, .f32⟩
  | 20 => ⟨S32x64, .f32⟩
  | 21 => ⟨S32, .f32⟩
  | 22 => ⟨S32x64, .f32⟩
  | 23 => ⟨S32, .f32⟩
  | 24 => ⟨S64x64, .f32⟩
  | 25 => ⟨S200000x64, .f32⟩
  | 26 => ⟨S1x64, .f32⟩
  | 27 => ⟨S200000x64, .f32⟩
  | 28 => ⟨S200000x64, .f32⟩
  | 29 => ⟨S64x64, .f32⟩
  | 30 => ⟨S100000x64, .f32⟩
  | 31 => ⟨S1x64, .f32⟩
  | 32 => ⟨S100000x64, .f32⟩
  | 33 => ⟨S100000x64, .f32⟩
  | 34 => ⟨S1x1000000, .i32⟩
  | 35 => ⟨S1000000, .i32⟩
  | 36 => ⟨S_, .i32⟩
  | 37 => ⟨S1000000, .i32⟩
  | 38 => ⟨S1000000, .i1⟩
  | 39 => ⟨S_, .i32⟩
  | 40 => ⟨S1000000, .i32⟩
  | 41 => ⟨S1000000, .i32⟩
  | 42 => ⟨S1000000, .i32⟩
  | 43 => ⟨S1000000x1, .i32⟩
  | 44 => ⟨S1000000x64, .f32⟩
  | 45 => ⟨S1x1000000, .i32⟩
  | 46 => ⟨S1000000, .i32⟩
  | 47 => ⟨S_, .f32⟩
  | 48 => ⟨S100000x64, .f32⟩
  | 49 => ⟨S1000000x1, .i32⟩
  | 50 => ⟨S100000x64, .f32⟩
  | 51 => ⟨S_, .f32⟩
  | 52 => ⟨S1000000, .f32⟩
  | 53 => ⟨S1x1000000, .i32⟩
  | 54 => ⟨S1000000, .i32⟩
  | 55 => ⟨S_, .f32⟩
  | 56 => ⟨S100000, .f32⟩
  | 57 => ⟨S1000000x1, .i32⟩
  | 58 => ⟨S100000, .f32⟩
  | 59 => ⟨S_, .f32⟩
  | 60 => ⟨S100000, .f32⟩
  | 61 => ⟨S100000, .f32⟩
  | 62 => ⟨S100000x1, .f32⟩
  | 63 => ⟨S100000x64, .f32⟩
  | 64 => ⟨S100000x64, .f32⟩
  | 65 => ⟨S64x64, .f32⟩
  | 66 => ⟨S100000x64, .f32⟩
  | 67 => ⟨S1x64, .f32⟩
  | 68 => ⟨S100000x64, .f32⟩
  | 69 => ⟨S100000x64, .f32⟩
  | 70 => ⟨S64x64, .f32⟩
  | 71 => ⟨S100000x64, .f32⟩
  | 72 => ⟨S100000x64, .f32⟩
  | 73 => ⟨S1x1000000, .i32⟩
  | 74 => ⟨S1000000, .i32⟩
  | 75 => ⟨S_, .i32⟩
  | 76 => ⟨S1000000, .i32⟩
  | 77 => ⟨S1000000, .i1⟩
  | 78 => ⟨S_, .i32⟩
  | 79 => ⟨S1000000, .i32⟩
  | 80 => ⟨S1000000, .i32⟩
  | 81 => ⟨S1000000, .i32⟩
  | 82 => ⟨S1000000x1, .i32⟩
  | 83 => ⟨S1000000x64, .f32⟩
  | 84 => ⟨S1x1000000, .i32⟩
  | 85 => ⟨S1000000, .i32⟩
  | 86 => ⟨S_, .f32⟩
  | 87 => ⟨S200000x64, .f32⟩
  | 88 => ⟨S1000000x1, .i32⟩
  | 89 => ⟨S200000x64, .f32⟩
  | 90 => ⟨S_, .f32⟩
  | 91 => ⟨S1000000, .f32⟩
  | 92 => ⟨S1x1000000, .i32⟩
  | 93 => ⟨S1000000, .i32⟩
  | 94 => ⟨S_, .f32⟩
  | 95 => ⟨S200000, .f32⟩
  | 96 => ⟨S1000000x1, .i32⟩
  | 97 => ⟨S200000, .f32⟩
  | 98 => ⟨S_, .f32⟩
  | 99 => ⟨S200000, .f32⟩
  | 100 => ⟨S200000, .f32⟩
  | 101 => ⟨S200000x1, .f32⟩
  | 102 => ⟨S200000x64, .f32⟩
  | 103 => ⟨S200000x64, .f32⟩
  | 104 => ⟨S64x64, .f32⟩
  | 105 => ⟨S200000x64, .f32⟩
  | 106 => ⟨S1x64, .f32⟩
  | 107 => ⟨S200000x64, .f32⟩
  | 108 => ⟨S200000x64, .f32⟩
  | 109 => ⟨S64x64, .f32⟩
  | 110 => ⟨S200000x64, .f32⟩
  | 111 => ⟨S200000x64, .f32⟩
  | 112 => ⟨S200000x64, .f32⟩
  | 113 => ⟨S_, .f32⟩
  | 114 => ⟨S200000x64, .f32⟩
  | 115 => ⟨S200000x64, .f32⟩
  | 116 => ⟨S100000x64, .f32⟩
  | 117 => ⟨S_, .f32⟩
  | 118 => ⟨S100000x64, .f32⟩
  | 119 => ⟨S100000x64, .f32⟩
  | 120 => ⟨S1x1000000, .i32⟩
  | 121 => ⟨S1000000, .i32⟩
  | 122 => ⟨S_, .i32⟩
  | 123 => ⟨S1000000, .i32⟩
  | 124 => ⟨S1000000, .i1⟩
  | 125 => ⟨S_, .i32⟩
  | 126 => ⟨S1000000, .i32⟩
  | 127 => ⟨S1000000, .i32⟩
  | _ => ⟨S200000x64, .f32⟩

abbrev hbmTy0_1 (i : Nat) : BufTy := match i % 128 with
  | 0 => ⟨S1000000, .i32⟩
  | 1 => ⟨S1000000x1, .i32⟩
  | 2 => ⟨S1000000x64, .f32⟩
  | 3 => ⟨S1x1000000, .i32⟩
  | 4 => ⟨S1000000, .i32⟩
  | 5 => ⟨S_, .f32⟩
  | 6 => ⟨S100000x64, .f32⟩
  | 7 => ⟨S1000000x1, .i32⟩
  | 8 => ⟨S100000x64, .f32⟩
  | 9 => ⟨S_, .f32⟩
  | 10 => ⟨S1000000, .f32⟩
  | 11 => ⟨S1x1000000, .i32⟩
  | 12 => ⟨S1000000, .i32⟩
  | 13 => ⟨S_, .f32⟩
  | 14 => ⟨S100000, .f32⟩
  | 15 => ⟨S1000000x1, .i32⟩
  | 16 => ⟨S100000, .f32⟩
  | 17 => ⟨S_, .f32⟩
  | 18 => ⟨S100000, .f32⟩
  | 19 => ⟨S100000, .f32⟩
  | 20 => ⟨S100000x1, .f32⟩
  | 21 => ⟨S100000x64, .f32⟩
  | 22 => ⟨S100000x64, .f32⟩
  | 23 => ⟨S64x64, .f32⟩
  | 24 => ⟨S100000x64, .f32⟩
  | 25 => ⟨S1x64, .f32⟩
  | 26 => ⟨S100000x64, .f32⟩
  | 27 => ⟨S100000x64, .f32⟩
  | 28 => ⟨S64x64, .f32⟩
  | 29 => ⟨S100000x64, .f32⟩
  | 30 => ⟨S100000x64, .f32⟩
  | 31 => ⟨S1x1000000, .i32⟩
  | 32 => ⟨S1000000, .i32⟩
  | 33 => ⟨S_, .i32⟩
  | 34 => ⟨S1000000, .i32⟩
  | 35 => ⟨S1000000, .i1⟩
  | 36 => ⟨S_, .i32⟩
  | 37 => ⟨S1000000, .i32⟩
  | 38 => ⟨S1000000, .i32⟩
  | 39 => ⟨S1000000, .i32⟩
  | 40 => ⟨S1000000x1, .i32⟩
  | 41 => ⟨S1000000x64, .f32⟩
  | 42 => ⟨S1x1000000, .i32⟩
  | 43 => ⟨S1000000, .i32⟩
  | 44 => ⟨S_, .f32⟩
  | 45 => ⟨S200000x64, .f32⟩
  | 46 => ⟨S1000000x1, .i32⟩
  | 47 => ⟨S200000x64, .f32⟩
  | 48 => ⟨S_, .f32⟩
  | 49 => ⟨S1000000, .f32⟩
  | 50 => ⟨S1x1000000, .i32⟩
  | 51 => ⟨S1000000, .i32⟩
  | 52 => ⟨S_, .f32⟩
  | 53 => ⟨S200000, .f32⟩
  | 54 => ⟨S1000000x1, .i32⟩
  | 55 => ⟨S200000, .f32⟩
  | 56 => ⟨S_, .f32⟩
  | 57 => ⟨S200000, .f32⟩
  | 58 => ⟨S200000, .f32⟩
  | 59 => ⟨S200000x1, .f32⟩
  | 60 => ⟨S200000x64, .f32⟩
  | 61 => ⟨S200000x64, .f32⟩
  | 62 => ⟨S64x64, .f32⟩
  | 63 => ⟨S200000x64, .f32⟩
  | 64 => ⟨S1x64, .f32⟩
  | 65 => ⟨S200000x64, .f32⟩
  | 66 => ⟨S200000x64, .f32⟩
  | 67 => ⟨S64x64, .f32⟩
  | 68 => ⟨S200000x64, .f32⟩
  | 69 => ⟨S200000x64, .f32⟩
  | 70 => ⟨S200000x64, .f32⟩
  | 71 => ⟨S_, .f32⟩
  | 72 => ⟨S200000x64, .f32⟩
  | 73 => ⟨S200000x64, .f32⟩
  | 74 => ⟨S100000x64, .f32⟩
  | 75 => ⟨S_, .f32⟩
  | 76 => ⟨S100000x64, .f32⟩
  | 77 => ⟨S100000x64, .f32⟩
  | 78 => ⟨S64x32, .f32⟩
  | 79 => ⟨S200000x32, .f32⟩
  | 80 => ⟨S1x32, .f32⟩
  | 81 => ⟨S200000x32, .f32⟩
  | 82 => ⟨S200000x32, .f32⟩
  | 83 => ⟨S64x32, .f32⟩
  | 84 => ⟨S100000x32, .f32⟩
  | 85 => ⟨S1x32, .f32⟩
  | 86 => ⟨S100000x32, .f32⟩
  | 87 => ⟨S100000x32, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_c : Ref sig .tc := ⟨.hbm, 36, rfl⟩
abbrev main_v12 : Ref sig .tc := ⟨.hbm, 37, rfl⟩
abbrev main_v13 : Ref sig .tc := ⟨.hbm, 38, rfl⟩
abbrev main_c_0 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_1 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_2 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_3 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_c_4 : Ref sig .tc := ⟨.hbm, 75, rfl⟩
abbrev main_v45 : Ref sig .tc := ⟨.hbm, 76, rfl⟩
abbrev main_v46 : Ref sig .tc := ⟨.hbm, 77, rfl⟩
abbrev main_c_5 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_6 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_7 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_8 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_9 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_call0_cst : Ref sig .tc := ⟨.hbm, 113, rfl⟩
abbrev main_call0_v0 : Ref sig .tc := ⟨.hbm, 114, rfl⟩
abbrev main_v77 : Ref sig .tc := ⟨.hbm, 115, rfl⟩
abbrev main_v78 : Ref sig .tc := ⟨.hbm, 116, rfl⟩
abbrev main_call1_cst : Ref sig .tc := ⟨.hbm, 117, rfl⟩
abbrev main_call1_v0 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_c_10 : Ref sig .tc := ⟨.hbm, 122, rfl⟩
abbrev main_v82 : Ref sig .tc := ⟨.hbm, 123, rfl⟩
abbrev main_v83 : Ref sig .tc := ⟨.hbm, 124, rfl⟩
abbrev main_c_11 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_12 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_cst_13 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_14 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_15 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_c_16 : Ref sig .tc := ⟨.hbm, 161, rfl⟩
abbrev main_v115 : Ref sig .tc := ⟨.hbm, 162, rfl⟩
abbrev main_v116 : Ref sig .tc := ⟨.hbm, 163, rfl⟩
abbrev main_c_17 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_cst_18 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_cst_19 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_cst_20 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_cst_21 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_call2_cst : Ref sig .tc := ⟨.hbm, 199, rfl⟩
abbrev main_call2_v0 : Ref sig .tc := ⟨.hbm, 200, rfl⟩
abbrev main_v147 : Ref sig .tc := ⟨.hbm, 201, rfl⟩
abbrev main_v148 : Ref sig .tc := ⟨.hbm, 202, rfl⟩
abbrev main_call3_cst : Ref sig .tc := ⟨.hbm, 203, rfl⟩
abbrev main_call3_v0 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S1x64_S100000x64_0_1 : S1x64.BroadcastsInDim S100000x64 (![0, 1] : Fin 2 → Fin S100000x64.rank)
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S200000x64 : S_.BroadcastsInDim S200000x64 (![] : Fin 0 → Fin S200000x64.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  transposes_S32x64_S64x32_1_0 : S32x64.Transposes [1, 0] S64x32
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  bcast_S1x32_S100000x32_0_1 : S1x32.BroadcastsInDim S100000x32 (![0, 1] : Fin 2 → Fin S100000x32.rank)
  dot_S200000x64_S64x64_S200000x64_1_0_0_1_n_n_wf : DotDims.WF S200000x64 S64x64 S200000x64 [1] [0] [0] [1] [] []
  dot_S100000x64_S64x64_S100000x64_1_0_0_1_n_n_wf : DotDims.WF S100000x64 S64x64 S100000x64 [1] [0] [0] [1] [] []
  gather_S200000x64_S1000000x1_S1000000x64_1_0_n_n_0_1_164_wf : GatherDims.WF S200000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S200000x64_S1000000x1_S1000000x64_1_0_0_1_wf : ScatterDims.WF S200000x64 S1000000x1 S1000000x64 [1] [0] [0] 1
  scatter_S200000_S1000000x1_S1000000_n_0_0_1_wf : ScatterDims.WF S200000 S1000000x1 S1000000 [] [0] [0] 1
  dot_S200000x64_S64x32_S200000x32_1_0_0_1_n_n_wf : DotDims.WF S200000x64 S64x32 S200000x32 [1] [0] [0] [1] [] []
  dot_S100000x64_S64x32_S100000x32_1_0_0_1_n_n_wf : DotDims.WF S100000x64 S64x32 S100000x32 [1] [0] [0] [1] [] []

variable [Facts₀]

def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def dot_S200000x64_S64x32_S200000x32_1_0_0_1_n_n : DotDims S200000x64 S64x32 S200000x32 where
  lhsContracting := [1]
  rhsContracting := [0]
  lhsNonContracting := [0]
  rhsNonContracting := [1]
  lhsBatch := []
  rhsBatch := []
  wf := dot_S200000x64_S64x32_S200000x32_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.Pay.lean ====
/-
  The arithmetic of each kernel body read at one element of its output block, over the extended reals.
  A body multiplies a block of rows by a transposed weight matrix on the matrix unit (a sum over the 64
  features), adds a bias row, and, in the convolution bodies, first scales each row by a per-row factor,
  adds a second such product and clamps at zero; the last body multiplies the clamped rows by one more
  transposed matrix and adds one more bias row.
-/
import proofs.«413055_j9929964388947_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx
open scoped BigOperators

/-! ### The matrix product of record `dot_S10000x64_S64x64_S10000x64_1_1_0_0_n_n`: both operands contract their axis 1 -/

private theorem lhsA_0 (i : S10000x64.Idx) (q : dot_S10000x64_S64x64_S10000x64_1_1_0_0_n_n.contr.Idx) :
    (dot_S10000x64_S64x64_S10000x64_1_1_0_0_n_n.lhsIdx i q 0).val = (i 0).val := by
  unfold DotDims.lhsIdx
  rw [dif_neg (show ¬(0 : Fin S10000x64.rank) ∈ dot_S10000x64_S64x64_S10000x64_1_1_0_0_n_n.lhsBatch by decide), dif_pos (show (0 : Fin S10000x64.rank) ∈ dot_S10000x64_S64x64_S10000x64_1_1_0_0_n_n.lhsNonContracting by decide)]
  rfl
private theorem lhsA_1 (i : S10000x64.Idx) (q : dot_S10000x64_S64x64_S10000x64_1_1_0_0_n_n.contr.Idx) :
    (dot_S10000x64_S64x64_S10000x64_1_1_0_0_n_n.lhsIdx i q 1).val = (q ⟨0, by decide⟩).val :=
  dot_S10000x64_S64x64_S10000x64_1_1_0_0_n_n.lhsIdx_val_of_single rfl i q
private theorem rhsA_0 (i : S10000x64.Idx) (q : dot_S10000x64_S64x64_S10000x64_1_1_0_0_n_n.contr.Idx) :
    (dot_S10000x64_S64x64_S10000x64_1_1_0_0_n_n.rhsIdx i q 0).val = (i 1).val := by
  unfold DotDims.rhsIdx
  rw [dif_neg (show ¬(0 : Fin S64x64.rank) ∈ dot_S10000x64_S64x64_S10000x64_1_1_0_0_n_n.rhsBatch by decide), dif_pos (show (0 : Fin S64x64.rank) ∈ dot_S10000x64_S64x64_S10000x64_1_1_0_0_n_n.rhsNonContracting by decide)]
  rfl
private theorem rhsA_1 (i : S10000x64.Idx) (q : dot_S10000x64_S64x64_S10000x64_1_1_0_0_n_n.contr.Idx) :
    (dot_S10000x64_S64x64_S10000x64_1_1_0_0_n_n.rhsIdx i q 1).val = (q ⟨0, by decide⟩).val :=
  dot_S10000x64_S64x64_S10000x64_1_1_0_0_n_n.rhsIdx_val_of_single rfl i q

/-- The product into a zero accumulator at row `p`, column `q`: the sum over the 64 features of the left
    operand's row `p` against the right operand's row `q`. -/
private theorem mmA (l : FVec Ideal S10000x64 .f32) (r : FVec Ideal S64x64 .f32) (p : Fin 10000) (q : Fin 64) :
    matmul (F := Ideal) dot_S10000x64_S64x64_S10000x64_1_1_0_0_n_n none l r (constant (F := Ideal) S10000x64 .f32 0x00000000#32) (ix2 p q)
      = ∑ k : Fin 64, l (ix2 p k) * r (ix2 q k) := by
  show FloatOps.matmul dot_S10000x64_S64x64_S10000x64_1_1_0_0_n_n none l r (constant (F := Ideal) S10000x64 .f32 0x00000000#32) (ix2 p q) = _
  rw [Ideal.matmul_constant_zero_apply, ← Equiv.sum_comp (ValueIdx.contrEquiv1 dot_S10000x64_S64x64_S10000x64_1_1_0_0_n_n 64 rfl rfl).symm]
  refine Finset.sum_congr rfl fun k _ => ?_
  have hk := ValueIdx.contrEquiv1_symm_val dot_S10000x64_S64x64_S10000x64_1_1_0_0_n_n 64 rfl rfl k
  have el : dot_S10000x64_S64x64_S10000x64_1_1_0_0_n_n.lhsIdx (ix2 p q) ((ValueIdx.contrEquiv1 dot_S10000x64_S64x64_S10000x64_1_1_0_0_n_n 64 rfl rfl).symm k) = ix2 p k := funext fun a => Fin.ext (by
    match a with
    | ⟨0, _⟩ => exact lhsA_0 _ _
    | ⟨1, _⟩ => exact (lhsA_1 _ _).trans hk)
  have er : dot_S10000x64_S64x64_S10000x64_1_1_0_0_n_n.rhsIdx (ix2 p q) ((ValueIdx.contrEquiv1 dot_S10000x64_S64x64_S10000x64_1_1_0_0_n_n 64 rfl rfl).symm k) = ix2 q k := funext fun a => Fin.ext (by
    match a with
    | ⟨0, _⟩ => exact rhsA_0 _ _
    | ⟨1, _⟩ => exact (rhsA_1 _ _).trans hk)
  rw [el, er]

/-! ### The matrix product of record `dot_S5000x64_S64x64_S5000x64_1_1_0_0_n_n`: both operands contract their axis 1 -/

private theorem lhsB_0 (i : S5000x64.Idx) (q : dot_S5000x64_S64x64_S5000x64_1_1_0_0_n_n.contr.Idx) :
    (dot_S5000x64_S64x64_S5000x64_1_1_0_0_n_n.lhsIdx i q 0).val = (i 0).val := by
  unfold DotDims.lhsIdx
  rw [dif_neg (show ¬(0 : Fin S5000x64.rank) ∈ dot_S5000x64_S64x64_S5000x64_1_1_0_0_n_n.lhsBatch by decide), dif_pos (show (0 : Fin S5000x64.rank) ∈ dot_S5000x64_S64x64_S5000x64_1_1_0_0_n_n.lhsNonContracting by decide)]
  rfl
private theorem lhsB_1 (i : S5000x64.Idx) (q : dot_S5000x64_S64x64_S5000x64_1_1_0_0_n_n.contr.Idx) :
    (dot_S5000x64_S64x64_S5000x64_1_1_0_0_n_n.lhsIdx i q 1).val = (q ⟨0, by decide⟩).val :=
  dot_S5000x64_S64x64_S5000x64_1_1_0_0_n_n.lhsIdx_val_of_single rfl i q
private theorem rhsB_0 (i : S5000x64.Idx) (q : dot_S5000x64_S64x64_S5000x64_1_1_0_0_n_n.contr.Idx) :
    (dot_S5000x64_S64x64_S5000x64_1_1_0_0_n_n.rhsIdx i q 0).val = (i 1).val := by
  unfold DotDims.rhsIdx
  rw [dif_neg (show ¬(0 : Fin S64x64.rank) ∈ dot_S5000x64_S64x64_S5000x64_1_1_0_0_n_n.rhsBatch by decide), dif_pos (show (0 : Fin S64x64.rank) ∈ dot_S5000x64_S64x64_S5000x64_1_1_0_0_n_n.rhsNonContracting by decide)]
  rfl
private theorem rhsB_1 (i : S5000x64.Idx) (q : dot_S5000x64_S64x64_S5000x64_1_1_0_0_n_n.contr.Idx) :
    (dot_S5000x64_S64x64_S5000x64_1_1_0_0_n_n.rhsIdx i q 1).val = (q ⟨0, by decide⟩).val :=
  dot_S5000x64_S64x64_S5000x64_1_1_0_0_n_n.rhsIdx_val_of_single rfl i q

/-- The product into a zero accumulator at row `p`, column `q`: the sum over the 64 features of the left
    operand's row `p` against the right operand's row `q`. -/
private theorem mmB (l : FVec Ideal S5000x64 .f32) (r : FVec Ideal S64x64 .f32) (p : Fin 5000) (q : Fin 64) :
    matmul (F := Ideal) dot_S5000x64_S64x64_S5000x64_1_1_0_0_n_n none l r (constant (F := Ideal) S5000x64 .f32 0x00000000#32) (ix2 p q)
      = ∑ k : Fin 64, l (ix2 p k) * r (ix2 q k) := by
  show FloatOps.matmul dot_S5000x64_S64x64_S5000x64_1_1_0_0_n_n none l r (constant (F := Ideal) S5000x64 .f32 0x00000000#32) (ix2 p q) = _
  rw [Ideal.matmul_constant_zero_apply, ← Equiv.sum_comp (ValueIdx.contrEquiv1 dot_S5000x64_S64x64_S5000x64_1_1_0_0_n_n 64 rfl rfl).symm]
  refine Finset.sum_congr rfl fun k _ => ?_
  have hk := ValueIdx.contrEquiv1_symm_val dot_S5000x64_S64x64_S5000x64_1_1_0_0_n_n 64 rfl rfl k
  have el : dot_S5000x64_S64x64_S5000x64_1_1_0_0_n_n.lhsIdx (ix2 p q) ((ValueIdx.contrEquiv1 dot_S5000x64_S64x64_S5000x64_1_1_0_0_n_n 64 rfl rfl).symm k) = ix2 p k := funext fun a => Fin.ext (by
    match a with
    | ⟨0, _⟩ => exact lhsB_0 _ _
    | ⟨1, _⟩ => exact (lhsB_1 _ _).trans hk)
  have er : dot_S5000x64_S64x64_S5000x64_1_1_0_0_n_n.rhsIdx (ix2 p q) ((ValueIdx.contrEquiv1 dot_S5000x64_S64x64_S5000x64_1_1_0_0_n_n 64 rfl rfl).symm k) = ix2 q k := funext fun a => Fin.ext (by
    match a with
    | ⟨0, _⟩ => exact rhsB_0 _ _
    | ⟨1, _⟩ => exact (rhsB_1 _ _).trans hk)
  rw [el, er]

/-! ### The matrix product of record `dot_S5000x64_S32x64_S5000x32_1_1_0_0_n_n`: both operands contract their axis 1 -/

private theorem lhsC_0 (i : S5000x32.Idx) (q : dot_S5000x64_S32x64_S5000x32_1_1_0_0_n_n.contr.Idx) :
    (dot_S5000x64_S32x64_S5000x32_1_1_0_0_n_n.lhsIdx i q 0).val = (i 0).val := by
  unfold DotDims.lhsIdx
  rw [dif_neg (show ¬(0 : Fin S5000x64.rank) ∈ dot_S5000x64_S32x64_S5000x32_1_1_0_0_n_n.lhsBatch by decide), dif_pos (show (0 : Fin S5000x64.rank) ∈ dot_S5000x64_S32x64_S5000x32_1_1_0_0_n_n.lhsNonContracting by decide)]
  rfl
private theorem lhsC_1 (i : S5000x32.Idx) (q : dot_S5000x64_S32x64_S5000x32_1_1_0_0_n_n.contr.Idx) :
    (dot_S5000x64_S32x64_S5000x32_1_1_0_0_n_n.lhsIdx i q 1).val = (q ⟨0, by decide⟩).val :=
  dot_S5000x64_S32x64_S5000x32_1_1_0_0_n_n.lhsIdx_val_of_single rfl i q
private theorem rhsC_0 (i : S5000x32.Idx) (q : dot_S5000x64_S32x64_S5000x32_1_1_0_0_n_n.contr.Idx) :
    (dot_S5000x64_S32x64_S5000x32_1_1_0_0_n_n.rhsIdx i q 0).val = (i 1).val := by
  unfold DotDims.rhsIdx
  rw [dif_neg (show ¬(0 : Fin S32x64.rank) ∈ dot_S5000x64_S32x64_S5000x32_1_1_0_0_n_n.rhsBatch by decide), dif_pos (show (0 : Fin S32x64.rank) ∈ dot_S5000x64_S32x64_S5000x32_1_1_0_0_n_n.rhsNonContracting by decide)]
  rfl
private theorem rhsC_1 (i : S5000x32.Idx) (q : dot_S5000x64_S32x64_S5000x32_1_1_0_0_n_n.contr.Idx) :
    (dot_S5000x64_S32x64_S5000x32_1_1_0_0_n_n.rhsIdx i q 1).val = (q ⟨0, by decide⟩).val :=
  dot_S5000x64_S32x64_S5000x32_1_1_0_0_n_n.rhsIdx_val_of_single rfl i q

/-- The product into a zero accumulator at row `p`, column `q`: the sum over the 64 features of the left
    operand's row `p` against the right operand's row `q`. -/
private theorem mmC (l : FVec Ideal S5000x64 .f32) (r : FVec Ideal S32x64 .f32) (p : Fin 5000) (q : Fin 32) :
    matmul (F := Ideal) dot_S5000x64_S32x64_S5000x32_1_1_0_0_n_n none l r (constant (F := Ideal) S5000x32 .f32 0x00000000#32) (ix2 p q)
      = ∑ k : Fin 64, l (ix2 p k) * r (ix2 q k) := by
  show FloatOps.matmul dot_S5000x64_S32x64_S5000x32_1_1_0_0_n_n none l r (constant (F := Ideal) S5000x32 .f32 0x00000000#32) (ix2 p q) = _
  rw [Ideal.matmul_constant_zero_apply, ← Equiv.sum_comp (ValueIdx.contrEquiv1 dot_S5000x64_S32x64_S5000x32_1_1_0_0_n_n 64 rfl rfl).symm]
  refine Finset.sum_congr rfl fun k _ => ?_
  have hk := ValueIdx.contrEquiv1_symm_val dot_S5000x64_S32x64_S5000x32_1_1_0_0_n_n 64 rfl rfl k
  have el : dot_S5000x64_S32x64_S5000x32_1_1_0_0_n_n.lhsIdx (ix2 p q) ((ValueIdx.contrEquiv1 dot_S5000x64_S32x64_S5000x32_1_1_0_0_n_n 64 rfl rfl).symm k) = ix2 p k := funext fun a => Fin.ext (by
    match a with
    | ⟨0, _⟩ => exact lhsC_0 _ _
    | ⟨1, _⟩ => exact (lhsC_1 _ _).trans hk)
  have er : dot_S5000x64_S32x64_S5000x32_1_1_0_0_n_n.rhsIdx (ix2 p q) ((ValueIdx.contrEquiv1 dot_S5000x64_S32x64_S5000x32_1_1_0_0_n_n 64 rfl rfl).symm k) = ix2 q k := funext fun a => Fin.ext (by
    match a with
    | ⟨0, _⟩ => exact rhsC_0 _ _
    | ⟨1, _⟩ => exact (rhsC_1 _ _).trans hk)
  rw [el, er]

/-! ### The two broadcasts of a body: a bias row down the rows, a per-row factor across the columns -/

/-- A one-row matrix broadcast down `N` rows, at row `p`, column `q`: the row's entry `q`. -/
private theorem bcast_row {α : Type} {N M : Nat} (x : (⟨2, ![1, M]⟩ : Shape).Idx → α)
    (h : (⟨2, ![1, M]⟩ : Shape).Broadcasts ⟨2, ![N, M]⟩) (p : Fin N) (q : Fin M) :
    broadcastTo ⟨2, ![N, M]⟩ x h (ix2 p q) = x (ix2 0 q) :=
  broadcastTo_apply x h (ix2 p q) (ix2 0 q) (fun a => match a with
    | ⟨0, _⟩ => by show 0 = if (1 : Nat) = 1 then 0 else _; rw [if_pos rfl]
    | ⟨1, _⟩ => by
        show q.val = if M = 1 then 0 else q.val
        split
        · have := q.isLt; omega
        · rfl)

/-- A one-column matrix broadcast across `M` columns, at row `p`, column `q`: the column's entry `p`. -/
private theorem bcast_col {α : Type} {N M : Nat} (x : (⟨2, ![N, 1]⟩ : Shape).Idx → α)
    (h : (⟨2, ![N, 1]⟩ : Shape).Broadcasts ⟨2, ![N, M]⟩) (p : Fin N) (q : Fin M) :
    broadcastTo ⟨2, ![N, M]⟩ x h (ix2 p q) = x (ix2 p 0) :=
  broadcastTo_apply x h (ix2 p q) (ix2 p 0) (fun a => match a with
    | ⟨0, _⟩ => by
        show p.val = if N = 1 then 0 else p.val
        split
        · have := p.isLt; omega
        · rfl
    | ⟨1, _⟩ => by show 0 = if (1 : Nat) = 1 then 0 else _; rw [if_pos rfl])

/-- The zero word of the 32-bit format is the number zero. -/
private theorem zero_word : (Scalar.ofBits (F := Ideal) .f32 0x00000000#32 : Ideal .f32) = 0 :=
  Ideal.ofBits_zero_f32

/-- One element of the linear body's block: a row against a weight row, plus the bias entry. -/
theorem pay_lin0 (x0 : Vec Ideal S10000x64 .f32) (x1 : Vec Ideal S64x64 .f32) (x2 : Vec Ideal S1x64 .f32)
    (p : Fin 10000) (q : Fin 64) :
    k0_pay1 (F := Ideal) x0 x1 x2 (ix2 p q) = (∑ k : Fin 64, x0 (ix2 p k) * x1 (ix2 q k)) + x2 (ix2 0 q) := by
  unfold k0_pay1
  rw [addf_apply, mmA, shapeCast_self, bcast_row]

theorem pay_lin1 (x0 : Vec Ideal S10000x64 .f32) (x1 : Vec Ideal S64x64 .f32) (x2 : Vec Ideal S1x64 .f32)
    (p : Fin 10000) (q : Fin 64) :
    k1_pay1 (F := Ideal) x0 x1 x2 (ix2 p q) = (∑ k : Fin 64, x0 (ix2 p k) * x1 (ix2 q k)) + x2 (ix2 0 q) := by
  unfold k1_pay1
  rw [addf_apply, mmA, shapeCast_self, bcast_row]

/-- One element of the convolution body's block. -/
theorem pay_conv2 (v0 : Vec Ideal S5000x64 .f32) (v2 : Vec Ideal S5000x1 .f32) (v6 : Vec Ideal S64x64 .f32)
    (v8 : Vec Ideal S1x64 .f32) (v12 : Vec Ideal S5000x64 .f32) (v14 : Vec Ideal S64x64 .f32) (p : Fin 5000) (q : Fin 64) :
    k2_pay1 (F := Ideal) v0 v2 v6 v8 v12 v14 (ix2 p q)
      = max (((∑ k : Fin 64, (v0 (ix2 p k) * v2 (ix2 p 0)) * v6 (ix2 q k)) + v8 (ix2 0 q))
          + ∑ k : Fin 64, v12 (ix2 p k) * v14 (ix2 q k)) 0 := by
  unfold k2_pay1
  rw [maximumf_apply, addf_apply, addf_apply, mmB, mmB, broadcast_apply, zero_word]
  simp only [shapeCast_self, mulf_apply, bcast_row, bcast_col]

theorem pay_conv3 (v0 : Vec Ideal S5000x64 .f32) (v2 : Vec Ideal S5000x1 .f32) (v6 : Vec Ideal S64x64 .f32)
    (v8 : Vec Ideal S1x64 .f32) (v12 : Vec Ideal S5000x64 .f32) (v14 : Vec Ideal S64x64 .f32) (p : Fin 5000) (q : Fin 64) :
    k3_pay1 (F := Ideal) v0 v2 v6 v8 v12 v14 (ix2 p q)
      = max (((∑ k : Fin 64, (v0 (ix2 p k) * v2 (ix2 p 0)) * v6 (ix2 q k)) + v8 (ix2 0 q))
          + ∑ k : Fin 64, v12 (ix2 p k) * v14 (ix2 q k)) 0 := by
  unfold k3_pay1
  rw [maximumf_apply, addf_apply, addf_apply, mmB, mmB, broadcast_apply, zero_word]
  simp only [shapeCast_self, mulf_apply, bcast_row, bcast_col]

/-- One element of the last body's block: the clamped convolution row against an output weight row, plus the
    output bias entry. -/
theorem pay_post4 (v0 : Vec Ideal S5000x64 .f32) (v2 : Vec Ideal S5000x1 .f32) (v6 : Vec Ideal S64x64 .f32)
    (v8 : Vec Ideal S1x64 .f32) (v12 : Vec Ideal S5000x64 .f32) (v14 : Vec Ideal S64x64 .f32)
    (v20 : Vec Ideal S32x64 .f32) (v22 : Vec Ideal S1x32 .f32) (p : Fin 5000) (q : Fin 32) :
    k4_pay1 (F := Ideal) v0 v2 v6 v8 v12 v14 v20 v22 (ix2 p q)
      = (∑ l : Fin 64, (max (((∑ k : Fin 64, (v0 (ix2 p k) * v2 (ix2 p 0)) * v6 (ix2 l k)) + v8 (ix2 0 l))
          + ∑ k : Fin 64, v12 (ix2 p k) * v14 (ix2 l k)) 0) * v20 (ix2 q l)) + v22 (ix2 0 q) := by
  unfold k4_pay1
  rw [addf_apply, mmC, shapeCast_self, bcast_row]
  simp only [maximumf_apply, addf_apply, mmB, broadcast_apply, zero_word, shapeCast_self, mulf_apply, bcast_row, bcast_col]

theorem pay_post5 (v0 : Vec Ideal S5000x64 .f32) (v2 : Vec Ideal S5000x1 .f32) (v6 : Vec Ideal S64x64 .f32)
    (v8 : Vec Ideal S1x64 .f32) (v12 : Vec Ideal S5000x64 .f32) (v14 : Vec Ideal S64x64 .f32)
    (v20 : Vec Ideal S32x64 .f32) (v22 : Vec Ideal S1x32 .f32) (p : Fin 5000) (q : Fin 32) :
    k5_pay1 (F := Ideal) v0 v2 v6 v8 v12 v14 v20 v22 (ix2 p q)
      = (∑ l : Fin 64, (max (((∑ k : Fin 64, (v0 (ix2 p k) * v2 (ix2 p 0)) * v6 (ix2 l k)) + v8 (ix2 0 l))
          + ∑ k : Fin 64, v12 (ix2 p k) * v14 (ix2 l k)) 0) * v20 (ix2 q l)) + v22 (ix2 0 q) := by
  unfold k5_pay1
  rw [addf_apply, mmC, shapeCast_self, bcast_row]
  simp only [maximumf_apply, addf_apply, mmB, broadcast_apply, zero_word, shapeCast_self, mulf_apply, bcast_row, bcast_col]

end Cert.KernelIdeal.Pay

end
-- ==== Proof.LibReal.lean ====
/-
  Finite reals among the extended reals. At the ideal float instance a value is an extended real;
  the laws of real arithmetic (a variance as a mean of squares minus the squared mean, say) hold
  of the FINITE ones only. This module names the predicate "is the coercion of a real", shows it
  closed under the ideal operations a kernel and its reference are built from (sum, difference,
  product, finite sums, quotient by a nonzero real, exponential, maximum and its folds), and reads
  the four f32 words a program spells for 0, 524288, +∞ and -∞.
-/
import Idealize.ShloMosaic.PureOps.Ideal
import Idealize.ShloMosaic.PureOps.Ideal.Laws
import Mathlib.Data.EReal.Operations
import Mathlib.Data.EReal.Inv
import Mathlib.Data.Finset.Fold
import Mathlib.Algebra.BigOperators.Group.Finset.Basic
import Mathlib.Analysis.SpecialFunctions.Exp

noncomputable section

namespace Cert.LibReal

open Idealize.ShloMosaic
open scoped BigOperators

/-- `x` is a finite real: the image of some `r : ℝ` in the extended reals. -/
def IsReal (x : EReal) : Prop := ∃ r : ℝ, x = (r : EReal)

/-- `x` is a positive finite real. -/
def IsPosReal (x : EReal) : Prop := ∃ r : ℝ, 0 < r ∧ x = (r : EReal)

/-! ## The predicate -/

/-- The image of a real is a finite real. -/
theorem isReal_coe (r : ℝ) : IsReal (r : EReal) := ⟨r, rfl⟩

/-- Zero is a finite real. -/
theorem isReal_zero : IsReal 0 := ⟨0, EReal.coe_zero.symm⟩

/-- One is a finite real. -/
theorem isReal_one : IsReal 1 := ⟨1, EReal.coe_one.symm⟩

/-- A finite real is not `-∞`. -/
theorem IsReal.ne_bot {x : EReal} (hx : IsReal x) : x ≠ ⊥ := by
  obtain ⟨r, rfl⟩ := hx; exact EReal.coe_ne_bot r

/-- A finite real is not `+∞`. -/
theorem IsReal.ne_top {x : EReal} (hx : IsReal x) : x ≠ ⊤ := by
  obtain ⟨r, rfl⟩ := hx; exact EReal.coe_ne_top r

/-- The finite reals are exactly the extended reals other than the two infinities. -/
theorem isReal_iff {x : EReal} : IsReal x ↔ x ≠ ⊥ ∧ x ≠ ⊤ := by
  constructor
  · intro hx; exact ⟨hx.ne_bot, hx.ne_top⟩
  · rintro ⟨hb, ht⟩
    induction x using EReal.rec with
    | bot => exact absurd rfl hb
    | top => exact absurd rfl ht
    | coe r => exact ⟨r, rfl⟩

/-- A positive finite real is a finite real. -/
theorem IsPosReal.isReal {x : EReal} (hx : IsPosReal x) : IsReal x := by
  obtain ⟨r, _, rfl⟩ := hx; exact ⟨r, rfl⟩

/-- A positive finite real is above zero in the order of the extended reals. -/
theorem IsPosReal.pos {x : EReal} (hx : IsPosReal x) : 0 < x := by
  obtain ⟨r, hr, rfl⟩ := hx; exact EReal.coe_pos.mpr hr

/-- A positive finite real is not zero. -/
theorem IsPosReal.ne_zero {x : EReal} (hx : IsPosReal x) : x ≠ 0 := hx.pos.ne'

/-- The image of a positive real is a positive finite real. -/
theorem isPosReal_coe {r : ℝ} (hr : 0 < r) : IsPosReal (r : EReal) := ⟨r, hr, rfl⟩

/-! ## Sum, difference, product, negation -/

/-- The sum of two finite reals is a finite real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two finite reals is a finite real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two finite reals is a finite real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a finite real is a finite real. -/
theorem IsReal.neg {x : EReal} (hx : IsReal x) : IsReal (-x) := by
  obtain ⟨a, rfl⟩ := hx; exact ⟨-a, (EReal.coe_neg a).symm⟩

/-- The sum of two positive finite reals is a positive finite real. -/
theorem IsPosReal.add {x y : EReal} (hx : IsPosReal x) (hy : IsPosReal y) : IsPosReal (x + y) := by
  obtain ⟨a, ha, rfl⟩ := hx; obtain ⟨b, hb, rfl⟩ := hy
  exact ⟨a + b, add_pos ha hb, (EReal.coe_add a b).symm⟩

/-- The product of two positive finite reals is a positive finite real. -/
theorem IsPosReal.mul {x y : EReal} (hx : IsPosReal x) (hy : IsPosReal y) : IsPosReal (x * y) := by
  obtain ⟨a, ha, rfl⟩ := hx; obtain ⟨b, hb, rfl⟩ := hy
  exact ⟨a * b, mul_pos ha hb, (EReal.coe_mul a b).symm⟩

/-! ## Finite sums -/

/-- The coercion of the reals into the extended reals commutes with a finite sum. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A finite sum of extended reals that are termwise the images of reals is the image of the real sum. -/
theorem sum_eq_coe_sum {ι : Type*} (s : Finset ι) (f : ι → EReal) (g : ι → ℝ)
    (h : ∀ i ∈ s, f i = (g i : EReal)) : ∑ i ∈ s, f i = ((∑ i ∈ s, g i : ℝ) : EReal) := by
  rw [coe_finset_sum]; exact Finset.sum_congr rfl h

/-- A finite sum of finite reals is a finite real. -/
theorem IsReal.sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A sum over a finite type of finite reals is a finite real. -/
theorem IsReal.sum_univ {ι : Type*} [Fintype ι] (f : ι → EReal) (h : ∀ i, IsReal (f i)) :
    IsReal (∑ i, f i) :=
  IsReal.sum Finset.univ f fun i _ => h i

/-- A finite sum, over a nonempty index set, of positive finite reals is a positive finite real. -/
theorem IsPosReal.sum {ι : Type*} (s : Finset ι) (hs : s.Nonempty) (f : ι → EReal)
    (h : ∀ i ∈ s, IsPosReal (f i)) : IsPosReal (∑ i ∈ s, f i) := by
  classical
  induction s using Finset.induction_on with
  | empty => exact absurd hs Finset.not_nonempty_empty
  | insert a s ha ih =>
    rw [Finset.sum_insert ha]
    rcases s.eq_empty_or_nonempty with rfl | hne
    · rw [Finset.sum_empty, add_zero]; exact h a (Finset.mem_insert_self _ _)
    · exact (h a (Finset.mem_insert_self _ _)).add (ih hne fun i hi => h i (Finset.mem_insert_of_mem hi))

/-- A sum over a nonempty finite type of positive finite reals is a positive finite real, hence not zero. -/
theorem IsPosReal.sum_univ {ι : Type*} [Fintype ι] [Nonempty ι] (f : ι → EReal) (h : ∀ i, IsPosReal (f i)) :
    IsPosReal (∑ i, f i) :=
  IsPosReal.sum Finset.univ Finset.univ_nonempty f fun i _ => h i

/-! ## The ideal quotient -/

/-- The ideal quotient of two reals with a nonzero divisor is the real quotient. -/
theorem div_coe_coe (a : ℝ) {b : ℝ} (hb : b ≠ 0) :
    Ideal.div (a : EReal) (b : EReal) = ((a / b : ℝ) : EReal) := by
  rw [Ideal.div_coe hb, ← EReal.coe_mul, mul_one_div]

/-- The ideal quotient of a finite real by a nonzero real is a finite real. -/
theorem IsReal.div_coe {x : EReal} (hx : IsReal x) {b : ℝ} (hb : b ≠ 0) : IsReal (Ideal.div x (b : EReal)) := by
  obtain ⟨a, rfl⟩ := hx; exact ⟨a / b, div_coe_coe a hb⟩

/-- The ideal quotient of a finite real by a nonzero finite real is a finite real. -/
theorem IsReal.div {x y : EReal} (hx : IsReal x) (hy : IsReal y) (hy0 : y ≠ 0) : IsReal (Ideal.div x y) := by
  obtain ⟨b, rfl⟩ := hy
  exact hx.div_coe (EReal.coe_ne_zero.mp hy0)

/-- The ideal quotient of a finite real by a positive finite real is a finite real. -/
theorem IsReal.div_pos {x y : EReal} (hx : IsReal x) (hy : IsPosReal y) : IsReal (Ideal.div x y) :=
  hx.div hy.isReal hy.ne_zero

/-! ## The ideal exponential -/

/-- The ideal exponential of a finite real is a positive finite real. -/
theorem IsReal.exp_pos {x : EReal} (hx : IsReal x) : IsPosReal (Ideal.exp x) := by
  obtain ⟨a, rfl⟩ := hx; exact ⟨Real.exp a, Real.exp_pos a, Ideal.exp_coe a⟩

/-- The ideal exponential of a finite real is a finite real. -/
theorem IsReal.exp {x : EReal} (hx : IsReal x) : IsReal (Ideal.exp x) := hx.exp_pos.isReal

/-! ## Maximum, minimum, and a fold of the maximum from `-∞` -/

/-- The maximum of two finite reals is a finite real. -/
theorem IsReal.max {x y : EReal} (hx : IsReal x) (hy : IsReal y) : IsReal (max x y) := by
  rcases max_choice x y with h | h <;> rw [h] <;> assumption

/-- The minimum of two finite reals is a finite real. -/
theorem IsReal.min {x y : EReal} (hx : IsReal x) (hy : IsReal y) : IsReal (min x y) := by
  rcases min_choice x y with h | h <;> rw [h] <;> assumption

/-- A fold of the maximum from `-∞` over finite reals is `-∞` or a finite real, and a finite real as soon as
    the index set is nonempty. The operation is any one that IS the maximum (the order's `max`, or the ideal
    instance's `maximumf`, which carry different commutativity and associativity witnesses). -/
theorem fold_max_bot_aux {ι : Type*} (op : EReal → EReal → EReal) [Std.Commutative op] [Std.Associative op]
    (hop : ∀ x y, op x y = Max.max x y) (f : ι → EReal) (s : Finset ι) (h : ∀ i ∈ s, IsReal (f i)) :
    (s.fold op ⊥ f = ⊥ ∨ IsReal (s.fold op ⊥ f)) ∧ (s.Nonempty → IsReal (s.fold op ⊥ f)) := by
  classical
  induction s using Finset.induction_on with
  | empty => exact ⟨Or.inl Finset.fold_empty, fun hne => absurd hne Finset.not_nonempty_empty⟩
  | insert a s ha ih =>
    have hr : IsReal ((insert a s).fold op ⊥ f) := by
      rw [Finset.fold_insert ha, hop]
      rcases (ih fun i hi => h i (Finset.mem_insert_of_mem hi)).1 with hb | hb
      · rw [hb, max_eq_left bot_le]; exact h a (Finset.mem_insert_self _ _)
      · exact (h a (Finset.mem_insert_self _ _)).max hb
    exact ⟨Or.inr hr, fun _ => hr⟩

/-- The maximum of a nonempty finite family of finite reals, folded from `-∞`, is a finite real. -/
theorem IsReal.fold_max_bot {ι : Type*} (op : EReal → EReal → EReal) [Std.Commutative op] [Std.Associative op]
    (hop : ∀ x y, op x y = Max.max x y) (s : Finset ι) (hs : s.Nonempty) (f : ι → EReal)
    (h : ∀ i ∈ s, IsReal (f i)) : IsReal (s.fold op ⊥ f) :=
  (fold_max_bot_aux op hop f s h).2 hs

/-- The same for the order's own `max`. -/
theorem IsReal.fold_max {ι : Type*} (s : Finset ι) (hs : s.Nonempty) (f : ι → EReal)
    (h : ∀ i ∈ s, IsReal (f i)) : IsReal (s.fold Max.max ⊥ f) :=
  IsReal.fold_max_bot Max.max (fun _ _ => rfl) s hs f h

/-- The same for the ideal instance's `maximumf`, at any format. -/
theorem IsReal.fold_maximumf {φ : FTy} {ι : Type*} (s : Finset ι) (hs : s.Nonempty) (f : ι → Ideal φ)
    (h : ∀ i ∈ s, IsReal (f i)) :
    IsReal (s.fold (FloatOps.maximumf (F := Ideal) (φ := φ)) (⊥ : EReal) f) :=
  IsReal.fold_max_bot (FloatOps.maximumf (F := Ideal) (φ := φ)) (fun _ _ => rfl) s hs f h

/-- A fold of the maximum from a finite real over finite reals is a finite real, whatever the index set. -/
theorem IsReal.fold_max_of_isReal {ι : Type*} (op : EReal → EReal → EReal) [Std.Commutative op] [Std.Associative op]
    (hop : ∀ x y, op x y = Max.max x y) (s : Finset ι) (f : ι → EReal) {b : EReal} (hb : IsReal b)
    (h : ∀ i ∈ s, IsReal (f i)) : IsReal (s.fold op b f) := by
  classical
  induction s using Finset.induction_on with
  | empty => rw [Finset.fold_empty]; exact hb
  | insert a s ha ih =>
    rw [Finset.fold_insert ha, hop]
    exact (h a (Finset.mem_insert_self _ _)).max (ih fun i hi => h i (Finset.mem_insert_of_mem hi))

/-- Every member of the family is at most the fold of the maximum over it. -/
theorem le_fold_max {ι : Type*} (op : EReal → EReal → EReal) [Std.Commutative op] [Std.Associative op]
    (hop : ∀ x y, op x y = Max.max x y) (s : Finset ι) (f : ι → EReal) (b : EReal) {i : ι} (hi : i ∈ s) :
    f i ≤ s.fold op b f := by
  classical
  induction s using Finset.induction_on with
  | empty => exact absurd hi (Finset.notMem_empty i)
  | insert a s ha ih =>
    rw [Finset.fold_insert ha, hop]
    rcases Finset.mem_insert.mp hi with rfl | hi'
    · exact le_max_left _ _
    · exact (ih hi').trans (le_max_right _ _)

/-! ## Absolute value below `+∞` -/

/-- An extended real whose absolute value `max x (-x)` is below `+∞` is a finite real. -/
theorem isReal_of_abs_lt_top {x : EReal} (h : Max.max x (-x) < ⊤) : IsReal x := by
  induction x using EReal.rec with
  | bot => rw [EReal.neg_bot, max_eq_right bot_le] at h; exact absurd h (lt_irrefl _)
  | top => rw [max_eq_left le_top] at h; exact absurd h (lt_irrefl _)
  | coe r => exact ⟨r, rfl⟩

/-! ## Four f32 words -/

/-- The f32 word `0x00000000` denotes the real `0`. -/
theorem ofBits_zero : Ideal.ofBits .f32 0x00000000#32 = ((0 : ℝ) : EReal) := by
  rw [Ideal.ofBits_zero_f32, EReal.coe_zero]

/-- The f32 word `0x00000000` denotes a finite real. -/
theorem isReal_ofBits_zero : IsReal (Ideal.ofBits .f32 0x00000000#32) := ⟨0, ofBits_zero⟩

/-- The f32 word `0x49000000` denotes the real `524288 = 2^19`. -/
theorem ofBits_524288 : Ideal.ofBits .f32 0x49000000#32 = ((524288 : ℝ) : EReal) := by
  simp [Ideal.ofBits, Ideal.ieee, -EReal.coe_mul]; norm_num

/-- The real `524288` is not zero. -/
theorem real_524288_ne_zero : (524288 : ℝ) ≠ 0 := by norm_num

/-- The f32 word `0x7F800000` denotes `+∞`. -/
theorem ofBits_pos_inf : Ideal.ofBits .f32 0x7F800000#32 = ⊤ := by
  simp [Ideal.ofBits, Ideal.ieee]

/-- The f32 word `0xFF800000` denotes `-∞`. -/
theorem ofBits_neg_inf : Ideal.ofBits .f32 0xFF800000#32 = ⊥ := by
  simp [Ideal.ofBits, Ideal.ieee]

end Cert.LibReal

end
-- ==== Proof.Spec.lean ====
/-
  The mathematics both programs compute, stated once over the extended reals, with no program in sight.

  A two-layer heterogeneous graph convolution. Three row-wise maps make it up:
    * `lin`  : a row times a transposed weight matrix plus a bias, `y[i,j] = (∑ₖ x[i,k]·w[j,k]) + b[j]`;
    * `convK`: the convolution step the way the kernel spells it, with the mean taken as a PRODUCT with a
                reciprocal column and the residual folded into the root weights `w + I`;
    * `convR`: the same step the way the reference spells it, with the mean taken as a QUOTIENT by
                `max(deg, 1)` and the residual added after the two products.
  The two spellings agree wherever the destination features, the root weights and the degrees are finite
  reals (`convK_eq_convR`): distributing a row over `w + I` needs finiteness, and dividing by a real
  `d ≥ 1` is multiplying by `1/d`. Every map sends finite reals to finite reals.
-/
import Idealize.ShloMosaic.PureOps.Ideal
import Idealize.ShloMosaic.PureOps.Ideal.Laws
import Idealize.ShloMosaic.Lib.ValueIdx
import proofs.«413055_j9929964388947_3_alg».proof.Proof.LibReal

noncomputable section

namespace Cert.Spec

open Idealize.ShloMosaic Idealize.ShloMosaic.ValueIdx Cert.LibReal
open scoped BigOperators

/-- A rank-2 array of extended reals. -/
abbrev A2 (n0 n1 : ℕ) : Type := (⟨2, ![n0, n1]⟩ : Shape).Idx → EReal
/-- A rank-1 array of extended reals. -/
abbrev A1 (n : ℕ) : Type := (⟨1, ![n]⟩ : Shape).Idx → EReal

/-- Every entry is a finite real. -/
def AllReal {ι : Type} (x : ι → EReal) : Prop := ∀ i, IsReal (x i)

/-! ## The linear layer -/

/-- `y[i,j] = (∑ₖ x[i,k]·w[j,k]) + b[j]`. -/
def lin (N D : ℕ) (x : A2 N 64) (w : A2 D 64) (b : Fin D → EReal) : A2 N D :=
  fun i => (∑ k : Fin 64, x (ix2 (i 0) k) * w (ix2 (i 1) k)) + b (i 1)

/-- The linear layer at explicit coordinates. -/
theorem lin_apply (N D : ℕ) (x : A2 N 64) (w : A2 D 64) (b : Fin D → EReal) (p : Fin N) (q : Fin D) :
    lin N D x w b (ix2 p q) = (∑ k : Fin 64, x (ix2 p k) * w (ix2 q k)) + b q := rfl

theorem lin_allReal {N D : ℕ} {x : A2 N 64} {w : A2 D 64} {b : Fin D → EReal}
    (hx : AllReal x) (hw : AllReal w) (hb : AllReal b) : AllReal (lin N D x w b) := fun i => by
  obtain ⟨p, q, rfl⟩ : ∃ (p : Fin N) (q : Fin D), i = ix2 p q := ⟨i 0, i 1, eq_ix2 i⟩
  rw [lin_apply]
  exact (IsReal.sum_univ _ fun k => (hx _).mul (hw _)).add (hb _)

/-! ## The convolution step, two spellings -/

/-- The kernel's spelling: `max(((∑ₖ (ms[i,k]·inv[i,0])·wrel[j,k]) + brel[j]) + ∑ₖ xd[i,k]·wra[j,k], 0)`. -/
def convK (N : ℕ) (ms : A2 N 64) (inv : A2 N 1) (xd : A2 N 64) (wrel : A2 64 64) (brel : Fin 64 → EReal)
    (wra : A2 64 64) : A2 N 64 :=
  fun i => max (((∑ k : Fin 64, (ms (ix2 (i 0) k) * inv (ix2 (i 0) 0)) * wrel (ix2 (i 1) k)) + brel (i 1))
    + ∑ k : Fin 64, xd (ix2 (i 0) k) * wra (ix2 (i 1) k)) 0

/-- The reference's spelling:
    `max(((((∑ₖ (ms[i,k] / max(dg[i],1))·wrel[j,k]) + brel[j]) + ∑ₖ xd[i,k]·wroot[j,k]) + xd[i,j]), 0)`. -/
def convR (N : ℕ) (ms : A2 N 64) (dg : A1 N) (xd : A2 N 64) (wrel : A2 64 64) (brel : Fin 64 → EReal)
    (wroot : A2 64 64) : A2 N 64 :=
  fun i => max (((((∑ k : Fin 64, Ideal.div (ms (ix2 (i 0) k)) (max (dg (ix1 (i 0))) 1) * wrel (ix2 (i 1) k)) + brel (i 1))
    + ∑ k : Fin 64, xd (ix2 (i 0) k) * wroot (ix2 (i 1) k)) + xd (ix2 (i 0) (i 1)))) 0

/-- The kernel's spelling at explicit coordinates. -/
theorem convK_apply (N : ℕ) (ms : A2 N 64) (inv : A2 N 1) (xd : A2 N 64) (wrel : A2 64 64) (brel : Fin 64 → EReal)
    (wra : A2 64 64) (p : Fin N) (q : Fin 64) :
    convK N ms inv xd wrel brel wra (ix2 p q)
      = max (((∑ k : Fin 64, (ms (ix2 p k) * inv (ix2 p 0)) * wrel (ix2 q k)) + brel q)
          + ∑ k : Fin 64, xd (ix2 p k) * wra (ix2 q k)) 0 := rfl

/-- The reference's spelling at explicit coordinates. -/
theorem convR_apply (N : ℕ) (ms : A2 N 64) (dg : A1 N) (xd : A2 N 64) (wrel : A2 64 64) (brel : Fin 64 → EReal)
    (wroot : A2 64 64) (p : Fin N) (q : Fin 64) :
    convR N ms dg xd wrel brel wroot (ix2 p q)
      = max (((((∑ k : Fin 64, Ideal.div (ms (ix2 p k)) (max (dg (ix1 p)) 1) * wrel (ix2 q k)) + brel q)
          + ∑ k : Fin 64, xd (ix2 p k) * wroot (ix2 q k)) + xd (ix2 p q))) 0 := rfl

/-- The maximum of a finite real and one is a real that is at least one. -/
theorem max_one_real {d : EReal} (hd : IsReal d) : ∃ r : ℝ, 1 ≤ r ∧ max d 1 = (r : EReal) := by
  obtain ⟨a, rfl⟩ := hd
  rcases le_total a 1 with h | h
  · exact ⟨1, le_refl 1, by
      rw [max_eq_right (by rw [← EReal.coe_one]; exact EReal.coe_le_coe_iff.mpr h), EReal.coe_one]⟩
  · exact ⟨a, h, max_eq_left (by rw [← EReal.coe_one]; exact EReal.coe_le_coe_iff.mpr h)⟩

/-- A row against `w + I` is the row against `w` plus the row's own entry, over finite reals. -/
theorem sum_mul_add_eye (a w : Fin 64 → ℝ) (j : Fin 64) :
    ∑ k : Fin 64, a k * (w k + (if j = k then (1 : ℝ) else 0)) = (∑ k : Fin 64, a k * w k) + a j := by
  simp only [mul_add, Finset.sum_add_distrib, mul_ite, mul_one, mul_zero, Finset.sum_ite_eq, Finset.mem_univ, if_true]

/-- The same on the extended reals, for rows and weights that are finite. -/
theorem esum_mul_add_eye (x w e : Fin 64 → EReal) (j : Fin 64) (hx : AllReal x) (hw : AllReal w)
    (he : ∀ k, e k = w k + (if j = k then (1 : EReal) else 0)) :
    ∑ k : Fin 64, x k * e k = (∑ k : Fin 64, x k * w k) + x j := by
  choose a ha using hx
  choose v hv using hw
  have h1 : ∀ k ∈ (Finset.univ : Finset (Fin 64)), x k * e k = ((a k * (v k + (if j = k then (1 : ℝ) else 0)) : ℝ) : EReal) := by
    intro k _
    rw [he k, ha k, hv k]
    by_cases hjk : j = k
    · rw [if_pos hjk, if_pos hjk, ← EReal.coe_one, ← EReal.coe_add, ← EReal.coe_mul]
    · rw [if_neg hjk, if_neg hjk, ← EReal.coe_zero, ← EReal.coe_add, ← EReal.coe_mul]
  have h2 : ∀ k ∈ (Finset.univ : Finset (Fin 64)), x k * w k = ((a k * v k : ℝ) : EReal) := by
    intro k _
    rw [ha k, hv k, ← EReal.coe_mul]
  rw [sum_eq_coe_sum _ _ _ h1, sum_eq_coe_sum _ _ _ h2, ha j, ← EReal.coe_add, sum_mul_add_eye]

/-- THE LAW that joins the two programs: with finite degrees, destination features and root weights, a reciprocal
    column `inv = 1 / max(dg, 1)` and augmented root weights `wra = wroot + I`, the kernel's spelling of the
    convolution step is the reference's. -/
theorem convK_eq_convR {N : ℕ} (ms : A2 N 64) (inv : A2 N 1) (dg : A1 N) (xd : A2 N 64) (wrel : A2 64 64)
    (brel : Fin 64 → EReal) (wra wroot : A2 64 64)
    (hinv : ∀ r : Fin N, inv (ix2 r 0) = Ideal.div 1 (max (dg (ix1 r)) 1))
    (hwra : ∀ j k : Fin 64, wra (ix2 j k) = wroot (ix2 j k) + (if j = k then (1 : EReal) else 0))
    (hdg : AllReal dg) (hxd : AllReal xd) (hwroot : AllReal wroot) :
    convK N ms inv xd wrel brel wra = convR N ms dg xd wrel brel wroot := by
  funext i
  obtain ⟨p, q, rfl⟩ : ∃ (p : Fin N) (q : Fin 64), i = ix2 p q := ⟨i 0, i 1, eq_ix2 i⟩
  rw [convK_apply, convR_apply]
  obtain ⟨d, hd1, hd⟩ := max_one_real (hdg (ix1 p))
  have hd0 : d ≠ 0 := by intro h; rw [h] at hd1; norm_num at hd1
  have e1 : ∀ k : Fin 64, ms (ix2 p k) * inv (ix2 p 0) = Ideal.div (ms (ix2 p k)) (max (dg (ix1 p)) 1) := by
    intro k
    rw [hinv, hd, Ideal.div_coe hd0, Ideal.div_coe hd0, one_mul]
  have e2 : ∑ k : Fin 64, xd (ix2 p k) * wra (ix2 q k)
      = (∑ k : Fin 64, xd (ix2 p k) * wroot (ix2 q k)) + xd (ix2 p q) :=
    esum_mul_add_eye (fun k => xd (ix2 p k)) (fun k => wroot (ix2 q k)) (fun k => wra (ix2 q k)) q
      (fun k => hxd _) (fun k => hwroot _) (fun k => hwra q k)
  rw [e2, ← add_assoc]
  simp only [e1]

/-- The reference's spelling sends finite reals to finite reals. -/
theorem convR_allReal {N : ℕ} {ms : A2 N 64} {dg : A1 N} {xd : A2 N 64} {wrel : A2 64 64} {brel : Fin 64 → EReal}
    {wroot : A2 64 64} (hms : AllReal ms) (hdg : AllReal dg) (hxd : AllReal xd) (hwrel : AllReal wrel)
    (hbrel : AllReal brel) (hwroot : AllReal wroot) : AllReal (convR N ms dg xd wrel brel wroot) := by
  intro i
  obtain ⟨p, q, rfl⟩ : ∃ (p : Fin N) (q : Fin 64), i = ix2 p q := ⟨i 0, i 1, eq_ix2 i⟩
  rw [convR_apply]
  obtain ⟨d, hd1, hd⟩ := max_one_real (hdg (ix1 p))
  have hd0 : d ≠ 0 := by intro h; rw [h] at hd1; norm_num at hd1
  refine IsReal.max ?_ isReal_zero
  refine (((IsReal.sum_univ _ fun k => ?_).add (hbrel _)).add (IsReal.sum_univ _ fun k => (hxd _).mul (hwroot _))).add (hxd _)
  rw [hd]
  exact ((hms _).div_coe hd0).mul (hwrel _)

end Cert.Spec

end
-- ==== Proof.Reg0.lean ====
/-
  Pallas call 0 read as one whole-array function: every grid point writes back one tile of rows, the tiles
  fill the output array, and a row of the output depends on the same row of the row-tiled operands and on
  the whole weight and bias operands.
-/
import proofs.«413055_j9929964388947_3_alg».proof.Proof.Gen.KernelIdeal.Frame
import proofs.«413055_j9929964388947_3_alg».proof.Proof.Pay
import proofs.«413055_j9929964388947_3_alg».proof.Proof.Spec
import Idealize.ShloMosaic.Lib.Pipeline.Value

set_option maxRecDepth 16384

noncomputable section

namespace Cert.KernelIdeal.Reg0

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-- The zero offset of a whole-block access. -/
theorem hz : (![0, 0] : Fin 2 → Nat) = fun _ => 0 := funext fun a => by fin_cases a <;> rfl

/-- The grid has twenty points. -/
theorem t_lt (t : Fin cfg0.N) : t.val < 20 := lt_of_lt_of_eq t.isLt N_0

/-- The index maps over the grid: the row-tiled windows sit at row block `t`, the weight and bias windows at
    block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the row-tiled operand's block at point `t` is row `10000 t + p` of the operand. -/
theorem iblk_x (c : Dev nD) (t : Fin cfg0.N) (p : Fin 10000) (k : Fin 64) (h : t.val * 10000 + p.val < 200000) :
    (iblk0 V c 0 t : Vec Ideal S10000x64 .f32) (ix2 p k)
      = (V c main_arg0 : S200000x64.Idx → EReal) (ix2 ⟨t.val * 10000 + p.val, h⟩ k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 10000 + 1 * p.val = t.val * 10000 + p.val; rw [e0]; omega
  | ⟨1, _⟩ => show win0_0.index t (1 : Fin 2) * 64 + 1 * k.val = k.val; rw [e1]; omega

/-- The weight operand's block is the operand. -/
theorem iblk_w (c : Dev nD) (t : Fin cfg0.N) (q k : Fin 64) :
    (iblk0 V c 1 t : Vec Ideal S64x64 .f32) (ix2 q k) = (V c main_arg4 : S64x64.Idx → EReal) (ix2 q k) := by
  obtain ⟨-, -, e0, e1, -⟩ := idx_facts t
  unfold iblk0
  rw [View.read_apply]
  show V c main_arg4 _ = V c main_arg4 _
  congr 1
  funext a
  apply Fin.ext
  match a with
  | ⟨0, _⟩ => show win0_1.index t (0 : Fin 2) * 64 + 1 * q.val = q.val; rw [e0]; omega
  | ⟨1, _⟩ => show win0_1.index t (1 : Fin 2) * 64 + 1 * k.val = k.val; rw [e1]; omega

/-- The bias operand's block is the operand. -/
theorem iblk_b (c : Dev nD) (t : Fin cfg0.N) (q : Fin 64) :
    (iblk0 V c 2 t : Vec Ideal S1x64 .f32) (ix2 0 q) = (V c main_v0 : S1x64.Idx → EReal) (ix2 0 q) := by
  obtain ⟨-, -, -, -, e0, e1, -⟩ := idx_facts t
  unfold iblk0
  rw [View.read_apply]
  show V c main_v0 _ = V c main_v0 _
  congr 1
  funext a
  apply Fin.ext
  match a with
  | ⟨0, _⟩ => show win0_2.index t (0 : Fin 2) * 1 + 1 * 0 = 0; rw [e0]
  | ⟨1, _⟩ => show win0_2.index t (1 : Fin 2) * 64 + 1 * q.val = q.val; rw [e1]; omega

/-- Where element (p, q) of the output's block at point `t` sits in the output array. -/
theorem emb_out (t : Fin cfg0.N) (p : Fin 10000) (q : Fin 64) (h : t.val * 10000 + p.val < 200000) :
    (((cfg0.win 3).blk t).view.emb (ix2 p q) : S200000x64.Idx) = ix2 ⟨t.val * 10000 + p.val, h⟩ q := by
  obtain ⟨-, -, -, -, -, -, e0, e1⟩ := idx_facts t
  funext a
  apply Fin.ext
  match a with
  | ⟨0, _⟩ => show win0_3.index t (0 : Fin 2) * 10000 + 1 * p.val = t.val * 10000 + p.val; rw [e0]; omega
  | ⟨1, _⟩ => show win0_3.index t (1 : Fin 2) * 64 + 1 * q.val = q.val; rw [e1]; omega

/-- The linear layer at an explicit row and column. -/
theorem lin_apply (N D : ℕ) (x : Cert.Spec.A2 N 64) (w : Cert.Spec.A2 D 64) (b : Fin D → EReal) (r : Fin N) (q : Fin D) :
    Cert.Spec.lin N D x w b (ix2 r q) = (∑ k : Fin 64, x (ix2 r k) * w (ix2 q k)) + b q := rfl

/-- What point `t` writes back is block `t` of the linear layer of the operand arrays. -/
theorem flushed_eq (c : Dev nD) (t : Fin cfg0.N) :
    (dat0 V c).flushed 3 t = ((cfg0.win 3).blk t).view.read (Elt Ideal)
      (Cert.Spec.lin 200000 64 (V c main_arg0) (V c main_arg4) (fun j => V c main_v0 (ix2 0 j))) := by
  show (cfg0.win 3).cut (grid0.coords t) ((dat0 V c).after 3 t) = _
  rw [after0_3]
  unfold out0_3
  rw [View.canon_unit_zero hz]
  simp only [View.ld_unit_zero (S := S10000x64) hz, View.ld_unit_zero (S := S64x64) hz, View.ld_unit_zero (S := S1x64) hz]
  refine funext fun (j : S10000x64.Idx) => ?_
  obtain ⟨p, q, rfl⟩ : ∃ (p : Fin 10000) (q : Fin 64), j = ix2 p q := ⟨j 0, j 1, eq_ix2 j⟩
  have hp : t.val * 10000 + p.val < 200000 := by have := t_lt t; omega
  rw [View.read_apply, emb_out t p q hp]
  show k0_pay1 (F := Ideal) (iblk0 V c 0 t) (iblk0 V c 1 t) (iblk0 V c 2 t) (ix2 p q) = _
  rw [Pay.pay_lin0]
  rw [lin_apply, iblk_b V c t q]
  congr 1
  exact Finset.sum_congr rfl fun k _ => by rw [iblk_x V c t p k hp, iblk_w V c t q k]

/-- An index of the output array is in point `t`'s block iff each coordinate is in the block's range. -/
theorem mem_blk (t : Fin cfg0.N) (i : S200000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v1).slice (win0_3.rect t)).set ↔ _
  rw [View.set_slice_whole, Rect.mem_set_unit]
  exact Iff.rfl

/-- Row `r` of the output array lies in the block of point `r / 10000`. -/
theorem cover (i : S200000x64.Idx) :
    ∃ t : Fin cfg0.N, (cfg0.win 3).flush t = true ∧ i ∈ ((cfg0.win 3).blk t).view.set := by
  have hi0 : (i 0).val < 200000 := (i 0).isLt
  have hi1 : (i 1).val < 64 := (i 1).isLt
  have hN : grid0.N = 20 := N_0
  let t : Fin cfg0.N := ⟨(i 0).val / 10000, by show (i 0).val / 10000 < grid0.N; rw [hN]; omega⟩
  have htv : t.val = (i 0).val / 10000 := rfl
  obtain ⟨-, -, -, -, -, -, e0, e1⟩ := idx_facts t
  refine ⟨t, flush0_3 t, ?_⟩
  rw [mem_blk]
  intro a
  match a with
  | ⟨0, _⟩ =>
    show win0_3.index t (0 : Fin 2) * 10000 ≤ (i 0).val ∧ (i 0).val < win0_3.index t (0 : Fin 2) * 10000 + 10000
    rw [e0, htv]; omega
  | ⟨1, _⟩ =>
    show win0_3.index t (1 : Fin 2) * 64 ≤ (i 1).val ∧ (i 1).val < win0_3.index t (1 : Fin 2) * 64 + 64
    rw [e1]; omega

/-- After the last grid point the output array of pallas call 0 holds the whole-array function of the
    operand arrays as the call found them. -/
theorem final0 (c : Dev nD) :
    (dat0 V c).arrAt 3 cfg0.N
      = Cert.Spec.lin 200000 64 (V c main_arg0) (V c main_arg4) (fun j => V c main_v0 (ix2 0 j)) :=
  (dat0 V c).arrAt_eq_of_cover 3 _ (fun t _ => flushed_eq V c t) (cover)

end Cert.KernelIdeal.Reg0

end
-- ==== Proof.Reg1.lean ====
/-
  Pallas call 1 read as one whole-array function: every grid point writes back one tile of rows, the tiles
  fill the output array, and a row of the output depends on the same row of the row-tiled operands and on
  the whole weight and bias operands.
-/
import proofs.«413055_j9929964388947_3_alg».proof.Proof.Gen.KernelIdeal.Frame
import proofs.«413055_j9929964388947_3_alg».proof.Proof.Pay
import proofs.«413055_j9929964388947_3_alg».proof.Proof.Spec
import Idealize.ShloMosaic.Lib.Pipeline.Value

set_option maxRecDepth 16384

noncomputable section

namespace Cert.KernelIdeal.Reg1

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-- The zero offset of a whole-block access. -/
theorem hz : (![0, 0] : Fin 2 → Nat) = fun _ => 0 := funext fun a => by fin_cases a <;> rfl

/-- The grid has ten points. -/
theorem t_lt (t : Fin cfg1.N) : t.val < 10 := lt_of_lt_of_eq t.isLt N_1

/-- The index maps over the grid: the row-tiled windows sit at row block `t`, the weight and bias windows at
    block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of the row-tiled operand's block at point `t` is row `10000 t + p` of the operand. -/
theorem iblk_x (c : Dev nD) (t : Fin cfg1.N) (p : Fin 10000) (k : Fin 64) (h : t.val * 10000 + p.val < 100000) :
    (iblk1 V c 0 t : Vec Ideal S10000x64 .f32) (ix2 p k)
      = (V c main_arg1 : S100000x64.Idx → EReal) (ix2 ⟨t.val * 10000 + p.val, h⟩ k) := by
  obtain ⟨e0, e1, -⟩ := idx_facts t
  unfold iblk1
  rw [View.read_apply]
  show V c main_arg1 _ = V c main_arg1 _
  congr 1
  funext a
  apply Fin.ext
  match a with
  | ⟨0, _⟩ => show win1_0.index t (0 : Fin 2) * 10000 + 1 * p.val = t.val * 10000 + p.val; rw [e0]; omega
  | ⟨1, _⟩ => show win1_0.index t (1 : Fin 2) * 64 + 1 * k.val = k.val; rw [e1]; omega

/-- The weight operand's block is the operand. -/
theorem iblk_w (c : Dev nD) (t : Fin cfg1.N) (q k : Fin 64) :
    (iblk1 V c 1 t : Vec Ideal S64x64 .f32) (ix2 q k) = (V c main_arg6 : S64x64.Idx → EReal) (ix2 q k) := by
  obtain ⟨-, -, e0, e1, -⟩ := idx_facts t
  unfold iblk1
  rw [View.read_apply]
  show V c main_arg6 _ = V c main_arg6 _
  congr 1
  funext a
  apply Fin.ext
  match a with
  | ⟨0, _⟩ => show win1_1.index t (0 : Fin 2) * 64 + 1 * q.val = q.val; rw [e0]; omega
  | ⟨1, _⟩ => show win1_1.index t (1 : Fin 2) * 64 + 1 * k.val = k.val; rw [e1]; omega

/-- The bias operand's block is the operand. -/
theorem iblk_b (c : Dev nD) (t : Fin cfg1.N) (q : Fin 64) :
    (iblk1 V c 2 t : Vec Ideal S1x64 .f32) (ix2 0 q) = (V c main_v2 : S1x64.Idx → EReal) (ix2 0 q) := by
  obtain ⟨-, -, -, -, e0, e1, -⟩ := idx_facts t
  unfold iblk1
  rw [View.read_apply]
  show V c main_v2 _ = V c main_v2 _
  congr 1
  funext a
  apply Fin.ext
  match a with
  | ⟨0, _⟩ => show win1_2.index t (0 : Fin 2) * 1 + 1 * 0 = 0; rw [e0]
  | ⟨1, _⟩ => show win1_2.index t (1 : Fin 2) * 64 + 1 * q.val = q.val; rw [e1]; omega

/-- Where element (p, q) of the output's block at point `t` sits in the output array. -/
theorem emb_out (t : Fin cfg1.N) (p : Fin 10000) (q : Fin 64) (h : t.val * 10000 + p.val < 100000) :
    (((cfg1.win 3).blk t).view.emb (ix2 p q) : S100000x64.Idx) = ix2 ⟨t.val * 10000 + p.val, h⟩ q := by
  obtain ⟨-, -, -, -, -, -, e0, e1⟩ := idx_facts t
  funext a
  apply Fin.ext
  match a with
  | ⟨0, _⟩ => show win1_3.index t (0 : Fin 2) * 10000 + 1 * p.val = t.val * 10000 + p.val; rw [e0]; omega
  | ⟨1, _⟩ => show win1_3.index t (1 : Fin 2) * 64 + 1 * q.val = q.val; rw [e1]; omega

/-- The linear layer at an explicit row and column. -/
theorem lin_apply (N D : ℕ) (x : Cert.Spec.A2 N 64) (w : Cert.Spec.A2 D 64) (b : Fin D → EReal) (r : Fin N) (q : Fin D) :
    Cert.Spec.lin N D x w b (ix2 r q) = (∑ k : Fin 64, x (ix2 r k) * w (ix2 q k)) + b q := rfl

/-- What point `t` writes back is block `t` of the linear layer of the operand arrays. -/
theorem flushed_eq (c : Dev nD) (t : Fin cfg1.N) :
    (dat1 V c).flushed 3 t = ((cfg1.win 3).blk t).view.read (Elt Ideal)
      (Cert.Spec.lin 100000 64 (V c main_arg1) (V c main_arg6) (fun j => V c main_v2 (ix2 0 j))) := by
  show (cfg1.win 3).cut (grid1.coords t) ((dat1 V c).after 3 t) = _
  rw [after1_3]
  unfold out1_3
  rw [View.canon_unit_zero hz]
  simp only [View.ld_unit_zero (S := S10000x64) hz, View.ld_unit_zero (S := S64x64) hz, View.ld_unit_zero (S := S1x64) hz]
  refine funext fun (j : S10000x64.Idx) => ?_
  obtain ⟨p, q, rfl⟩ : ∃ (p : Fin 10000) (q : Fin 64), j = ix2 p q := ⟨j 0, j 1, eq_ix2 j⟩
  have hp : t.val * 10000 + p.val < 100000 := by have := t_lt t; omega
  rw [View.read_apply, emb_out t p q hp]
  show k1_pay1 (F := Ideal) (iblk1 V c 0 t) (iblk1 V c 1 t) (iblk1 V c 2 t) (ix2 p q) = _
  rw [Pay.pay_lin1]
  rw [lin_apply, iblk_b V c t q]
  congr 1
  exact Finset.sum_congr rfl fun k _ => by rw [iblk_x V c t p k hp, iblk_w V c t q k]

/-- An index of the output array is in point `t`'s block iff each coordinate is in the block's range. -/
theorem mem_blk (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v3).slice (win1_3.rect t)).set ↔ _
  rw [View.set_slice_whole, Rect.mem_set_unit]
  exact Iff.rfl

/-- Row `r` of the output array lies in the block of point `r / 10000`. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : grid1.N = 10 := N_1
  let t : Fin cfg1.N := ⟨(i 0).val / 10000, by show (i 0).val / 10000 < grid1.N; rw [hN]; omega⟩
  have htv : t.val = (i 0).val / 10000 := rfl
  obtain ⟨-, -, -, -, -, -, e0, e1⟩ := idx_facts t
  refine ⟨t, flush1_3 t, ?_⟩
  rw [mem_blk]
  intro a
  match a with
  | ⟨0, _⟩ =>
    show win1_3.index t (0 : Fin 2) * 10000 ≤ (i 0).val ∧ (i 0).val < win1_3.index t (0 : Fin 2) * 10000 + 10000
    rw [e0, htv]; omega
  | ⟨1, _⟩ =>
    show win1_3.index t (1 : Fin 2) * 64 ≤ (i 1).val ∧ (i 1).val < win1_3.index t (1 : Fin 2) * 64 + 64
    rw [e1]; omega

/-- After the last grid point the output array of pallas call 1 holds the whole-array function of the
    operand arrays as the call found them. -/
theorem final1 (c : Dev nD) :
    (dat1 V c).arrAt 3 cfg1.N
      = Cert.Spec.lin 100000 64 (V c main_arg1) (V c main_arg6) (fun j => V c main_v2 (ix2 0 j)) :=
  (dat1 V c).arrAt_eq_of_cover 3 _ (fun t _ => flushed_eq V c t) (cover)

end Cert.KernelIdeal.Reg1

end
-- ==== Proof.Reg2.lean ====
/-
  Pallas call 2 read as one whole-array function: every grid point writes back one tile of rows, the tiles
  fill the output array, and a row of the output depends on the same row of the row-tiled operands and on
  the whole weight and bias operands.
-/
import proofs.«413055_j9929964388947_3_alg».proof.Proof.Gen.KernelIdeal.Frame
import proofs.«413055_j9929964388947_3_alg».proof.Proof.Pay
import proofs.«413055_j9929964388947_3_alg».proof.Proof.Spec
import Idealize.ShloMosaic.Lib.Pipeline.Value

set_option maxRecDepth 16384

noncomputable section

namespace Cert.KernelIdeal.Reg2

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-! ## The grid and the index maps -/

/-- The two zero offsets, however spelt. -/
theorem hz : (![0, 0] : Fin 2 → Nat) = fun _ => 0 := funext fun a => by fin_cases a <;> rfl

/-- The grid has twenty points. -/
theorem point_lt (t : Fin cfg2.N) : t.val < 20 := lt_of_lt_of_eq t.isLt N_2

/-- Row `p` of the tile of point `t` is row `5000 t + p` of the array. -/
theorem row_lt (t : Fin cfg2.N) (p : Fin 5000) : t.val * 5000 + p.val < 100000 := by
  have h1 := point_lt t
  have h2 := p.isLt
  omega

/-- That row, as a row index of the array. -/
abbrev row (t : Fin cfg2.N) (p : Fin 5000) : Fin 100000 := ⟨t.val * 5000 + p.val, row_lt t p⟩

/-- The index maps, decided once over the grid: the row-tiled windows (the three row operands and the output) sit
    at row block `t`, column block 0; the weight and bias windows sit at block (0, 0). -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 0) :=
  (by decide +kernel : ∀ t : Fin grid2.N, _)

/-! ## Each input window's block, read off its array -/

/-- The message-sum tile at point `t` is rows `5000 t …` of the message sums. -/
theorem blk0_apply (c : Dev nD) (t : Fin cfg2.N) (p : Fin 5000) (k : Fin 64) :
    (iblk2 V c 0 t : Vec Ideal S5000x64 .f32) (ix2 p k) = (V c main_v39 : S100000x64.Idx → EReal) (ix2 (row t p) k) := by
  obtain ⟨⟨e0, e1⟩, -⟩ := idx_facts t
  unfold iblk2
  rw [View.read_apply]
  show V c main_v39 _ = V c main_v39 _
  congr 1
  funext a
  apply Fin.ext
  match a with
  | ⟨0, _⟩ => show win2_0.index t 0 * 5000 + 1 * p.val = t.val * 5000 + p.val; rw [e0]; omega
  | ⟨1, _⟩ => show win2_0.index t 1 * 64 + 1 * k.val = k.val; rw [e1]; omega

/-- The reciprocal-degree tile at point `t` is rows `5000 t …` of the reciprocal column. -/
theorem blk1_apply (c : Dev nD) (t : Fin cfg2.N) (p : Fin 5000) (k : Fin 1) :
    (iblk2 V c 1 t : Vec Ideal S5000x1 .f32) (ix2 p k) = (V c main_v24 : S100000x1.Idx → EReal) (ix2 (row t p) k) := by
  obtain ⟨-, ⟨e0, e1⟩, -⟩ := idx_facts t
  unfold iblk2
  rw [View.read_apply]
  show V c main_v24 _ = V c main_v24 _
  congr 1
  funext a
  apply Fin.ext
  match a with
  | ⟨0, _⟩ => show win2_1.index t 0 * 5000 + 1 * p.val = t.val * 5000 + p.val; rw [e0]; omega
  | ⟨1, _⟩ => show win2_1.index t 1 * 1 + 1 * k.val = k.val; rw [e1]; omega

/-- The destination-feature tile at point `t` is rows `5000 t …` of the destination features. -/
theorem blk2_apply (c : Dev nD) (t : Fin cfg2.N) (p : Fin 5000) (k : Fin 64) :
    (iblk2 V c 2 t : Vec Ideal S5000x64 .f32) (ix2 p k) = (V c main_v3 : S100000x64.Idx → EReal) (ix2 (row t p) k) := by
  obtain ⟨-, -, ⟨e0, e1⟩, -⟩ := idx_facts t
  unfold iblk2
  rw [View.read_apply]
  show V c main_v3 _ = V c main_v3 _
  congr 1
  funext a
  apply Fin.ext
  match a with
  | ⟨0, _⟩ => show win2_2.index t 0 * 5000 + 1 * p.val = t.val * 5000 + p.val; rw [e0]; omega
  | ⟨1, _⟩ => show win2_2.index t 1 * 64 + 1 * k.val = k.val; rw [e1]; omega

/-- The relation-weight window is the whole weight matrix at every point. -/
theorem blk3_apply (c : Dev nD) (t : Fin cfg2.N) (q : Fin 64) (k : Fin 64) :
    (iblk2 V c 3 t : Vec Ideal S64x64 .f32) (ix2 q k) = (V c main_arg8 : S64x64.Idx → EReal) (ix2 q k) := by
  obtain ⟨-, -, -, ⟨e0, e1⟩, -⟩ := idx_facts t
  unfold iblk2
  rw [View.read_apply]
  show V c main_arg8 _ = V c main_arg8 _
  congr 1
  funext a
  apply Fin.ext
  match a with
  | ⟨0, _⟩ => show win2_3.index t 0 * 64 + 1 * q.val = q.val; rw [e0]; omega
  | ⟨1, _⟩ => show win2_3.index t 1 * 64 + 1 * k.val = k.val; rw [e1]; omega

/-- The bias window is the whole bias row at every point. -/
theorem blk4_apply (c : Dev nD) (t : Fin cfg2.N) (z : Fin 1) (q : Fin 64) :
    (iblk2 V c 4 t : Vec Ideal S1x64 .f32) (ix2 z q) = (V c main_v50 : S1x64.Idx → EReal) (ix2 z q) := by
  obtain ⟨-, -, -, -, ⟨e0, e1⟩, -⟩ := idx_facts t
  unfold iblk2
  rw [View.read_apply]
  show V c main_v50 _ = V c main_v50 _
  congr 1
  funext a
  apply Fin.ext
  match a with
  | ⟨0, _⟩ => show win2_4.index t 0 * 1 + 1 * z.val = z.val; rw [e0]; omega
  | ⟨1, _⟩ => show win2_4.index t 1 * 64 + 1 * q.val = q.val; rw [e1]; omega

/-- The augmented root-weight window is the whole matrix at every point. -/
theorem blk5_apply (c : Dev nD) (t : Fin cfg2.N) (q : Fin 64) (k : Fin 64) :
    (iblk2 V c 5 t : Vec Ideal S64x64 .f32) (ix2 q k) = (V c main_v57 : S64x64.Idx → EReal) (ix2 q k) := by
  obtain ⟨-, -, -, -, -, ⟨e0, e1⟩, -⟩ := idx_facts t
  unfold iblk2
  rw [View.read_apply]
  show V c main_v57 _ = V c main_v57 _
  congr 1
  funext a
  apply Fin.ext
  match a with
  | ⟨0, _⟩ => show win2_5.index t 0 * 64 + 1 * q.val = q.val; rw [e0]; omega
  | ⟨1, _⟩ => show win2_5.index t 1 * 64 + 1 * k.val = k.val; rw [e1]; omega

/-- Element `(p, q)` of the output tile of point `t` sits at `(5000 t + p, q)` of the output array. -/
theorem emb6_apply (t : Fin cfg2.N) (p : Fin 5000) (q : Fin 64) :
    ((cfg2.win 6).blk t).view.emb (ix2 p q) = (ix2 (row t p) q : S100000x64.Idx) := by
  obtain ⟨-, -, -, -, -, -, ⟨e0, e1⟩⟩ := idx_facts t
  funext a
  apply Fin.ext
  match a with
  | ⟨0, _⟩ => show win2_6.index t 0 * 5000 + 1 * p.val = t.val * 5000 + p.val; rw [e0]; omega
  | ⟨1, _⟩ => show win2_6.index t 1 * 64 + 1 * q.val = q.val; rw [e1]; omega

/-! ## One element of the body's tile is one element of the whole-array function -/

/-- The body's arithmetic at element `(p, q)` of a tile, over blocks that hold row `r` of the row operands and the
    whole weight and bias operands, is the convolution step at `(r, q)`. -/
theorem point_eq (x0 : Vec Ideal S5000x64 .f32) (x1 : Vec Ideal S5000x1 .f32) (x2 : Vec Ideal S5000x64 .f32)
    (x3 : Vec Ideal S64x64 .f32) (x4 : Vec Ideal S1x64 .f32) (x5 : Vec Ideal S64x64 .f32)
    (ms : Cert.Spec.A2 100000 64) (inv : Cert.Spec.A2 100000 1) (xd : Cert.Spec.A2 100000 64)
    (wrel : Cert.Spec.A2 64 64) (brel : Cert.Spec.A2 1 64) (wra : Cert.Spec.A2 64 64)
    (r : Fin 100000) (p : Fin 5000) (q : Fin 64)
    (h0 : ∀ k : Fin 64, x0 (ix2 p k) = ms (ix2 r k)) (h1 : x1 (ix2 p 0) = inv (ix2 r 0))
    (h2 : ∀ k : Fin 64, x2 (ix2 p k) = xd (ix2 r k)) (h3 : ∀ k : Fin 64, x3 (ix2 q k) = wrel (ix2 q k))
    (h4 : x4 (ix2 0 q) = brel (ix2 0 q)) (h5 : ∀ k : Fin 64, x5 (ix2 q k) = wra (ix2 q k)) :
    k2_pay1 (F := Ideal) x0 x1 x3 x4 x2 x5 (ix2 p q)
      = Cert.Spec.convK 100000 ms inv xd wrel (fun j => brel (ix2 0 j)) wra (ix2 r q) := by
  refine (Cert.KernelIdeal.Pay.pay_conv2 x0 x1 x3 x4 x2 x5 p q).trans ?_
  show _ = max (((∑ k : Fin 64, (ms (ix2 r k) * inv (ix2 r 0)) * wrel (ix2 q k)) + brel (ix2 0 q))
    + ∑ k : Fin 64, xd (ix2 r k) * wra (ix2 q k)) 0
  simp only [h0, h1, h2, h3, h4, h5]

/-! ## What a point writes back, the cover, the array -/

/-- WHAT POINT `t` WRITES BACK is tile `t` of the convolution step of the operand arrays. -/
theorem flushed_eq (c : Dev nD) (t : Fin cfg2.N) :
    (dat2 V c).flushed 6 t = ((cfg2.win 6).blk t).view.read (Elt Ideal)
      (Cert.Spec.convK 100000 (V c main_v39) (V c main_v24) (V c main_v3) (V c main_arg8) (fun j => V c main_v50 (ix2 0 j)) (V c main_v57)) := by
  show (cfg2.win 6).cut (grid2.coords t) ((dat2 V c).after 6 t) = _
  rw [after2_6]
  unfold out2_6
  rw [View.canon_unit_zero hz]
  simp only [View.ld_unit_zero (S := S5000x64) hz, View.ld_unit_zero (S := S5000x1) hz,
    View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  rw [View.read_apply, emb6_apply]
  exact point_eq (iblk2 V c 0 t) (iblk2 V c 1 t) (iblk2 V c 2 t) (iblk2 V c 3 t) (iblk2 V c 4 t) (iblk2 V c 5 t)
    (V c main_v39) (V c main_v24) (V c main_v3) (V c main_arg8) (V c main_v50) (V c main_v57) (row t p) p q
    (fun k => blk0_apply V c t p k) (blk1_apply V c t p 0) (fun k => blk2_apply V c t p k)
    (fun k => blk3_apply V c t q k) (blk4_apply V c t 0 q) (fun k => blk5_apply V c t q k)

/-- An index of the array is in point `t`'s tile iff each coordinate is in the tile's range on its axis. -/
theorem mem_blk (t : Fin cfg2.N) (i : S100000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v58).slice (win2_6.rect t)).set ↔ _
  rw [View.set_slice_whole, Rect.mem_set_unit]
  exact Iff.rfl

/-- Row `r` of the array lies in the tile of point `⌊r / 5000⌋`: the tiles cover the array. -/
theorem cover (i : S100000x64.Idx) :
    ∃ t : Fin cfg2.N, (cfg2.win 6).flush t = true ∧ i ∈ ((cfg2.win 6).blk t).view.set := by
  have hi0 : (i 0).val < 100000 := (i 0).isLt
  have hi1 : (i 1).val < 64 := (i 1).isLt
  have hN : cfg2.N = 20 := N_2
  have ht : (i 0).val / 5000 < cfg2.N := by rw [hN]; omega
  obtain ⟨-, -, -, -, -, -, ⟨e0, e1⟩⟩ := idx_facts ⟨(i 0).val / 5000, ht⟩
  refine ⟨⟨(i 0).val / 5000, ht⟩, flush2_6 _, ?_⟩
  rw [mem_blk]
  intro a
  match a with
  | ⟨0, _⟩ =>
    show win2_6.index ⟨(i 0).val / 5000, ht⟩ 0 * 5000 ≤ (i 0).val ∧ (i 0).val < win2_6.index ⟨(i 0).val / 5000, ht⟩ 0 * 5000 + 5000
    rw [e0]
    show (i 0).val / 5000 * 5000 ≤ (i 0).val ∧ (i 0).val < (i 0).val / 5000 * 5000 + 5000
    omega
  | ⟨1, _⟩ =>
    show win2_6.index ⟨(i 0).val / 5000, ht⟩ 1 * 64 ≤ (i 1).val ∧ (i 1).val < win2_6.index ⟨(i 0).val / 5000, ht⟩ 1 * 64 + 64
    rw [e1]
    omega

/-- After the last grid point the output array of pallas call 2 holds the whole-array function of the
    operand arrays as the call found them. -/
theorem final2 (c : Dev nD) :
    (dat2 V c).arrAt 6 cfg2.N
      = Cert.Spec.convK 100000 (V c main_v39) (V c main_v24) (V c main_v3) (V c main_arg8) (fun j => V c main_v50 (ix2 0 j)) (V c main_v57) := by
  exact (dat2 V c).arrAt_eq_of_cover 6 _ (fun t _ => flushed_eq V c t) cover

end Cert.KernelIdeal.Reg2

end
-- ==== Proof.Reg3.lean ====
/-
  Pallas call 3 read as one whole-array function: every grid point writes back one tile of rows, the tiles
  fill the output array, and a row of the output depends on the same row of the row-tiled operands and on
  the whole weight and bias operands.
-/
import proofs.«413055_j9929964388947_3_alg».proof.Proof.Gen.KernelIdeal.Frame
import proofs.«413055_j9929964388947_3_alg».proof.Proof.Pay
import proofs.«413055_j9929964388947_3_alg».proof.Proof.Spec
import Idealize.ShloMosaic.Lib.Pipeline.Value

set_option maxRecDepth 16384

noncomputable section

namespace Cert.KernelIdeal.Reg3

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-! ## The grid and the index maps -/

/-- The two zero offsets, however spelt. -/
theorem hz : (![0, 0] : Fin 2 → Nat) = fun _ => 0 := funext fun a => by fin_cases a <;> rfl

/-- The grid has forty points. -/
theorem point_lt (t : Fin cfg3.N) : t.val < 40 := lt_of_lt_of_eq t.isLt N_3

/-- Row `p` of the tile of point `t` is row `5000 t + p` of the array. -/
theorem row_lt (t : Fin cfg3.N) (p : Fin 5000) : t.val * 5000 + p.val < 200000 := by
  have h1 := point_lt t
  have h2 := p.isLt
  omega

/-- That row, as a row index of the array. -/
abbrev row (t : Fin cfg3.N) (p : Fin 5000) : Fin 200000 := ⟨t.val * 5000 + p.val, row_lt t p⟩

/-- The index maps, decided once over the grid: the row-tiled windows (the three row operands and the output) sit
    at row block `t`, column block 0; the weight and bias windows sit at block (0, 0). -/
theorem idx_facts : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = t.val ∧ win3_6.index t (1 : Fin 2) = 0) :=
  (by decide +kernel : ∀ t : Fin grid3.N, _)

/-! ## Each input window's block, read off its array -/

/-- The message-sum tile at point `t` is rows `5000 t …` of the message sums. -/
theorem blk0_apply (c : Dev nD) (t : Fin cfg3.N) (p : Fin 5000) (k : Fin 64) :
    (iblk3 V c 0 t : Vec Ideal S5000x64 .f32) (ix2 p k) = (V c main_v49 : S200000x64.Idx → EReal) (ix2 (row t p) k) := by
  obtain ⟨⟨e0, e1⟩, -⟩ := idx_facts t
  unfold iblk3
  rw [View.read_apply]
  show V c main_v49 _ = V c main_v49 _
  congr 1
  funext a
  apply Fin.ext
  match a with
  | ⟨0, _⟩ => show win3_0.index t 0 * 5000 + 1 * p.val = t.val * 5000 + p.val; rw [e0]; omega
  | ⟨1, _⟩ => show win3_0.index t 1 * 64 + 1 * k.val = k.val; rw [e1]; omega

/-- The reciprocal-degree tile at point `t` is rows `5000 t …` of the reciprocal column. -/
theorem blk1_apply (c : Dev nD) (t : Fin cfg3.N) (p : Fin 5000) (k : Fin 1) :
    (iblk3 V c 1 t : Vec Ideal S5000x1 .f32) (ix2 p k) = (V c main_v29 : S200000x1.Idx → EReal) (ix2 (row t p) k) := by
  obtain ⟨-, ⟨e0, e1⟩, -⟩ := idx_facts t
  unfold iblk3
  rw [View.read_apply]
  show V c main_v29 _ = V c main_v29 _
  congr 1
  funext a
  apply Fin.ext
  match a with
  | ⟨0, _⟩ => show win3_1.index t 0 * 5000 + 1 * p.val = t.val * 5000 + p.val; rw [e0]; omega
  | ⟨1, _⟩ => show win3_1.index t 1 * 1 + 1 * k.val = k.val; rw [e1]; omega

/-- The destination-feature tile at point `t` is rows `5000 t …` of the destination features. -/
theorem blk2_apply (c : Dev nD) (t : Fin cfg3.N) (p : Fin 5000) (k : Fin 64) :
    (iblk3 V c 2 t : Vec Ideal S5000x64 .f32) (ix2 p k) = (V c main_v1 : S200000x64.Idx → EReal) (ix2 (row t p) k) := by
  obtain ⟨-, -, ⟨e0, e1⟩, -⟩ := idx_facts t
  unfold iblk3
  rw [View.read_apply]
  show V c main_v1 _ = V c main_v1 _
  congr 1
  funext a
  apply Fin.ext
  match a with
  | ⟨0, _⟩ => show win3_2.index t 0 * 5000 + 1 * p.val = t.val * 5000 + p.val; rw [e0]; omega
  | ⟨1, _⟩ => show win3_2.index t 1 * 64 + 1 * k.val = k.val; rw [e1]; omega

/-- The relation-weight window is the whole weight matrix at every point. -/
theorem blk3_apply (c : Dev nD) (t : Fin cfg3.N) (q : Fin 64) (k : Fin 64) :
    (iblk3 V c 3 t : Vec Ideal S64x64 .f32) (ix2 q k) = (V c main_arg11 : S64x64.Idx → EReal) (ix2 q k) := by
  obtain ⟨-, -, -, ⟨e0, e1⟩, -⟩ := idx_facts t
  unfold iblk3
  rw [View.read_apply]
  show V c main_arg11 _ = V c main_arg11 _
  congr 1
  funext a
  apply Fin.ext
  match a with
  | ⟨0, _⟩ => show win3_3.index t 0 * 64 + 1 * q.val = q.val; rw [e0]; omega
  | ⟨1, _⟩ => show win3_3.index t 1 * 64 + 1 * k.val = k.val; rw [e1]; omega

/-- The bias window is the whole bias row at every point. -/
theorem blk4_apply (c : Dev nD) (t : Fin cfg3.N) (z : Fin 1) (q : Fin 64) :
    (iblk3 V c 4 t : Vec Ideal S1x64 .f32) (ix2 z q) = (V c main_v59 : S1x64.Idx → EReal) (ix2 z q) := by
  obtain ⟨-, -, -, -, ⟨e0, e1⟩, -⟩ := idx_facts t
  unfold iblk3
  rw [View.read_apply]
  show V c main_v59 _ = V c main_v59 _
  congr 1
  funext a
  apply Fin.ext
  match a with
  | ⟨0, _⟩ => show win3_4.index t 0 * 1 + 1 * z.val = z.val; rw [e0]; omega
  | ⟨1, _⟩ => show win3_4.index t 1 * 64 + 1 * q.val = q.val; rw [e1]; omega

/-- The augmented root-weight window is the whole matrix at every point. -/
theorem blk5_apply (c : Dev nD) (t : Fin cfg3.N) (q : Fin 64) (k : Fin 64) :
    (iblk3 V c 5 t : Vec Ideal S64x64 .f32) (ix2 q k) = (V c main_v66 : S64x64.Idx → EReal) (ix2 q k) := by
  obtain ⟨-, -, -, -, -, ⟨e0, e1⟩, -⟩ := idx_facts t
  unfold iblk3
  rw [View.read_apply]
  show V c main_v66 _ = V c main_v66 _
  congr 1
  funext a
  apply Fin.ext
  match a with
  | ⟨0, _⟩ => show win3_5.index t 0 * 64 + 1 * q.val = q.val; rw [e0]; omega
  | ⟨1, _⟩ => show win3_5.index t 1 * 64 + 1 * k.val = k.val; rw [e1]; omega

/-- Element `(p, q)` of the output tile of point `t` sits at `(5000 t + p, q)` of the output array. -/
theorem emb6_apply (t : Fin cfg3.N) (p : Fin 5000) (q : Fin 64) :
    ((cfg3.win 6).blk t).view.emb (ix2 p q) = (ix2 (row t p) q : S200000x64.Idx) := by
  obtain ⟨-, -, -, -, -, -, ⟨e0, e1⟩⟩ := idx_facts t
  funext a
  apply Fin.ext
  match a with
  | ⟨0, _⟩ => show win3_6.index t 0 * 5000 + 1 * p.val = t.val * 5000 + p.val; rw [e0]; omega
  | ⟨1, _⟩ => show win3_6.index t 1 * 64 + 1 * q.val = q.val; rw [e1]; omega

/-! ## One element of the body's tile is one element of the whole-array function -/

/-- The body's arithmetic at element `(p, q)` of a tile, over blocks that hold row `r` of the row operands and the
    whole weight and bias operands, is the convolution step at `(r, q)`. -/
theorem point_eq (x0 : Vec Ideal S5000x64 .f32) (x1 : Vec Ideal S5000x1 .f32) (x2 : Vec Ideal S5000x64 .f32)
    (x3 : Vec Ideal S64x64 .f32) (x4 : Vec Ideal S1x64 .f32) (x5 : Vec Ideal S64x64 .f32)
    (ms : Cert.Spec.A2 200000 64) (inv : Cert.Spec.A2 200000 1) (xd : Cert.Spec.A2 200000 64)
    (wrel : Cert.Spec.A2 64 64) (brel : Cert.Spec.A2 1 64) (wra : Cert.Spec.A2 64 64)
    (r : Fin 200000) (p : Fin 5000) (q : Fin 64)
    (h0 : ∀ k : Fin 64, x0 (ix2 p k) = ms (ix2 r k)) (h1 : x1 (ix2 p 0) = inv (ix2 r 0))
    (h2 : ∀ k : Fin 64, x2 (ix2 p k) = xd (ix2 r k)) (h3 : ∀ k : Fin 64, x3 (ix2 q k) = wrel (ix2 q k))
    (h4 : x4 (ix2 0 q) = brel (ix2 0 q)) (h5 : ∀ k : Fin 64, x5 (ix2 q k) = wra (ix2 q k)) :
    k3_pay1 (F := Ideal) x0 x1 x3 x4 x2 x5 (ix2 p q)
      = Cert.Spec.convK 200000 ms inv xd wrel (fun j => brel (ix2 0 j)) wra (ix2 r q) := by
  refine (Cert.KernelIdeal.Pay.pay_conv3 x0 x1 x3 x4 x2 x5 p q).trans ?_
  show _ = max (((∑ k : Fin 64, (ms (ix2 r k) * inv (ix2 r 0)) * wrel (ix2 q k)) + brel (ix2 0 q))
    + ∑ k : Fin 64, xd (ix2 r k) * wra (ix2 q k)) 0
  simp only [h0, h1, h2, h3, h4, h5]

/-! ## What a point writes back, the cover, the array -/

/-- WHAT POINT `t` WRITES BACK is tile `t` of the convolution step of the operand arrays. -/
theorem flushed_eq (c : Dev nD) (t : Fin cfg3.N) :
    (dat3 V c).flushed 6 t = ((cfg3.win 6).blk t).view.read (Elt Ideal)
      (Cert.Spec.convK 200000 (V c main_v49) (V c main_v29) (V c main_v1) (V c main_arg11) (fun j => V c main_v59 (ix2 0 j)) (V c main_v66)) := by
  show (cfg3.win 6).cut (grid3.coords t) ((dat3 V c).after 6 t) = _
  rw [after3_6]
  unfold out3_6
  rw [View.canon_unit_zero hz]
  simp only [View.ld_unit_zero (S := S5000x64) hz, View.ld_unit_zero (S := S5000x1) hz,
    View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  rw [View.read_apply, emb6_apply]
  exact point_eq (iblk3 V c 0 t) (iblk3 V c 1 t) (iblk3 V c 2 t) (iblk3 V c 3 t) (iblk3 V c 4 t) (iblk3 V c 5 t)
    (V c main_v49) (V c main_v29) (V c main_v1) (V c main_arg11) (V c main_v59) (V c main_v66) (row t p) p q
    (fun k => blk0_apply V c t p k) (blk1_apply V c t p 0) (fun k => blk2_apply V c t p k)
    (fun k => blk3_apply V c t q k) (blk4_apply V c t 0 q) (fun k => blk5_apply V c t q k)

/-- An index of the array is in point `t`'s tile iff each coordinate is in the tile's range on its axis. -/
theorem mem_blk (t : Fin cfg3.N) (i : S200000x64.Idx) :
    i ∈ ((cfg3.win 6).blk t).view.set ↔ ∀ a : Fin 2, win3_6.index t a * S5000x64.size a ≤ (i a).val ∧ (i a).val < win3_6.index t a * S5000x64.size a + S5000x64.size a := by
  show i ∈ ((View.whole main_v67).slice (win3_6.rect t)).set ↔ _
  rw [View.set_slice_whole, Rect.mem_set_unit]
  exact Iff.rfl

/-- Row `r` of the array lies in the tile of point `⌊r / 5000⌋`: the tiles cover the array. -/
theorem cover (i : S200000x64.Idx) :
    ∃ t : Fin cfg3.N, (cfg3.win 6).flush t = true ∧ i ∈ ((cfg3.win 6).blk t).view.set := by
  have hi0 : (i 0).val < 200000 := (i 0).isLt
  have hi1 : (i 1).val < 64 := (i 1).isLt
  have hN : cfg3.N = 40 := N_3
  have ht : (i 0).val / 5000 < cfg3.N := by rw [hN]; omega
  obtain ⟨-, -, -, -, -, -, ⟨e0, e1⟩⟩ := idx_facts ⟨(i 0).val / 5000, ht⟩
  refine ⟨⟨(i 0).val / 5000, ht⟩, flush3_6 _, ?_⟩
  rw [mem_blk]
  intro a
  match a with
  | ⟨0, _⟩ =>
    show win3_6.index ⟨(i 0).val / 5000, ht⟩ 0 * 5000 ≤ (i 0).val ∧ (i 0).val < win3_6.index ⟨(i 0).val / 5000, ht⟩ 0 * 5000 + 5000
    rw [e0]
    show (i 0).val / 5000 * 5000 ≤ (i 0).val ∧ (i 0).val < (i 0).val / 5000 * 5000 + 5000
    omega
  | ⟨1, _⟩ =>
    show win3_6.index ⟨(i 0).val / 5000, ht⟩ 1 * 64 ≤ (i 1).val ∧ (i 1).val < win3_6.index ⟨(i 0).val / 5000, ht⟩ 1 * 64 + 64
    rw [e1]
    omega

/-- After the last grid point the output array of pallas call 3 holds the whole-array function of the
    operand arrays as the call found them. -/
theorem final3 (c : Dev nD) :
    (dat3 V c).arrAt 6 cfg3.N
      = Cert.Spec.convK 200000 (V c main_v49) (V c main_v29) (V c main_v1) (V c main_arg11) (fun j => V c main_v59 (ix2 0 j)) (V c main_v66) := by
  exact (dat3 V c).arrAt_eq_of_cover 6 _ (fun t _ => flushed_eq V c t) cover

end Cert.KernelIdeal.Reg3

end
-- ==== Proof.Reg4.lean ====
/-
  Pallas call 4 read as one whole-array function: every grid point writes back one tile of rows, the tiles
  fill the output array, and a row of the output depends on the same row of the row-tiled operands and on
  the whole weight and bias operands.
-/
import proofs.«413055_j9929964388947_3_alg».proof.Proof.Gen.KernelIdeal.Frame
import proofs.«413055_j9929964388947_3_alg».proof.Proof.Pay
import proofs.«413055_j9929964388947_3_alg».proof.Proof.Spec
import Idealize.ShloMosaic.Lib.Pipeline.Value

set_option maxRecDepth 16384

noncomputable section

namespace Cert.KernelIdeal.Reg4

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-- The zero offset pair is the constant zero offset. -/
private theorem hz : (![0, 0] : Fin 2 → Nat) = fun _ => 0 := funext fun a => by fin_cases a <;> rfl

/-- The block index of every window at every grid point: a row-tiled window sits at row block `t`, a weight
    or bias window at block `(0, 0)`. -/
private theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = t.val ∧ win4_8.index t (1 : Fin 2) = 0 :=
  (by decide +kernel : ∀ t : Fin grid4.N, _)

/-- The operand arrays of pallas call 4 as the call finds them, as arrays of extended reals. -/
private abbrev aMs (c : Dev nD) : Cert.Spec.A2 100000 64 := V c main_v77
private abbrev aInv (c : Dev nD) : Cert.Spec.A2 100000 1 := V c main_v24
private abbrev aXd (c : Dev nD) : Cert.Spec.A2 100000 64 := V c main_v58
private abbrev aWrel (c : Dev nD) : Cert.Spec.A2 64 64 := V c main_arg14
private abbrev aBrel (c : Dev nD) : Cert.Spec.A2 1 64 := V c main_v88
private abbrev aWra (c : Dev nD) : Cert.Spec.A2 64 64 := V c main_v96
private abbrev aPw (c : Dev nD) : Cert.Spec.A2 32 64 := V c main_arg22
private abbrev aPb (c : Dev nD) : Cert.Spec.A2 1 32 := V c main_v89

/-- Row `p` of tile `t` is a row of the array. -/
private theorem rowlt4 (t : Fin cfg4.N) (p : Fin 5000) : t.val * 5000 + p.val < 100000 := by
  have h1 : t.val < grid4.N := t.isLt
  rw [N_4] at h1
  have h2 : p.val < 5000 := p.isLt
  omega

/-- Window 0's block at point `t` is rows `5000 t … 5000 t + 4999` of its array. -/
private theorem iblk4_0_apply (c : Dev nD) (t : Fin cfg4.N) (p : Fin 5000) (k : Fin 64) :
    (iblk4 V c 0 t : Vec Ideal S5000x64 .f32) (ix2 p k)
      = aMs V c (ix2 ⟨t.val * 5000 + p.val, rowlt4 t p⟩ k) := by
  have e0 : win4_0.index t (0 : Fin 2) = t.val := (idx4 t).1
  have e1 : win4_0.index t (1 : Fin 2) = 0 := (idx4 t).2.1
  unfold iblk4
  rw [View.read_apply]
  show (V c main_v77 : Cert.Spec.A2 100000 64) _ = _
  congr 1
  funext a
  apply Fin.ext
  match a with
  | ⟨0, _⟩ => show win4_0.index t 0 * 5000 + 1 * p.val = t.val * 5000 + p.val; rw [e0]; omega
  | ⟨1, _⟩ => show win4_0.index t 1 * 64 + 1 * k.val = k.val; rw [e1]; omega

/-- Window 1's block at point `t` is rows `5000 t … 5000 t + 4999` of its array. -/
private theorem iblk4_1_apply (c : Dev nD) (t : Fin cfg4.N) (p : Fin 5000) (k : Fin 1) :
    (iblk4 V c 1 t : Vec Ideal S5000x1 .f32) (ix2 p k)
      = aInv V c (ix2 ⟨t.val * 5000 + p.val, rowlt4 t p⟩ k) := by
  have e0 : win4_1.index t (0 : Fin 2) = t.val := (idx4 t).2.2.1
  have e1 : win4_1.index t (1 : Fin 2) = 0 := (idx4 t).2.2.2.1
  unfold iblk4
  rw [View.read_apply]
  show (V c main_v24 : Cert.Spec.A2 100000 1) _ = _
  congr 1
  funext a
  apply Fin.ext
  match a with
  | ⟨0, _⟩ => show win4_1.index t 0 * 5000 + 1 * p.val = t.val * 5000 + p.val; rw [e0]; omega
  | ⟨1, _⟩ => show win4_1.index t 1 * 1 + 1 * k.val = k.val; rw [e1]; omega

/-- Window 2's block at point `t` is rows `5000 t … 5000 t + 4999` of its array. -/
private theorem iblk4_2_apply (c : Dev nD) (t : Fin cfg4.N) (p : Fin 5000) (k : Fin 64) :
    (iblk4 V c 2 t : Vec Ideal S5000x64 .f32) (ix2 p k)
      = aXd V c (ix2 ⟨t.val * 5000 + p.val, rowlt4 t p⟩ k) := by
  have e0 : win4_2.index t (0 : Fin 2) = t.val := (idx4 t).2.2.2.2.1
  have e1 : win4_2.index t (1 : Fin 2) = 0 := (idx4 t).2.2.2.2.2.1
  unfold iblk4
  rw [View.read_apply]
  show (V c main_v58 : Cert.Spec.A2 100000 64) _ = _
  congr 1
  funext a
  apply Fin.ext
  match a with
  | ⟨0, _⟩ => show win4_2.index t 0 * 5000 + 1 * p.val = t.val * 5000 + p.val; rw [e0]; omega
  | ⟨1, _⟩ => show win4_2.index t 1 * 64 + 1 * k.val = k.val; rw [e1]; omega

/-- Window 3's block at every point is its whole array. -/
private theorem iblk4_3_apply (c : Dev nD) (t : Fin cfg4.N) (p : Fin 64) (k : Fin 64) :
    (iblk4 V c 3 t : Vec Ideal S64x64 .f32) (ix2 p k) = aWrel V c (ix2 p k) := by
  have e0 : win4_3.index t (0 : Fin 2) = 0 := (idx4 t).2.2.2.2.2.2.1
  have e1 : win4_3.index t (1 : Fin 2) = 0 := (idx4 t).2.2.2.2.2.2.2.1
  unfold iblk4
  rw [View.read_apply]
  show (V c main_arg14 : Cert.Spec.A2 64 64) _ = _
  congr 1
  funext a
  apply Fin.ext
  match a with
  | ⟨0, _⟩ => show win4_3.index t 0 * 64 + 1 * p.val = p.val; rw [e0]; omega
  | ⟨1, _⟩ => show win4_3.index t 1 * 64 + 1 * k.val = k.val; rw [e1]; omega

/-- Window 4's block at every point is its whole array. -/
private theorem iblk4_4_apply (c : Dev nD) (t : Fin cfg4.N) (p : Fin 1) (k : Fin 64) :
    (iblk4 V c 4 t : Vec Ideal S1x64 .f32) (ix2 p k) = aBrel V c (ix2 p k) := by
  have e0 : win4_4.index t (0 : Fin 2) = 0 := (idx4 t).2.2.2.2.2.2.2.2.1
  have e1 : win4_4.index t (1 : Fin 2) = 0 := (idx4 t).2.2.2.2.2.2.2.2.2.1
  unfold iblk4
  rw [View.read_apply]
  show (V c main_v88 : Cert.Spec.A2 1 64) _ = _
  congr 1
  funext a
  apply Fin.ext
  match a with
  | ⟨0, _⟩ => show win4_4.index t 0 * 1 + 1 * p.val = p.val; rw [e0]; omega
  | ⟨1, _⟩ => show win4_4.index t 1 * 64 + 1 * k.val = k.val; rw [e1]; omega

/-- Window 5's block at every point is its whole array. -/
private theorem iblk4_5_apply (c : Dev nD) (t : Fin cfg4.N) (p : Fin 64) (k : Fin 64) :
    (iblk4 V c 5 t : Vec Ideal S64x64 .f32) (ix2 p k) = aWra V c (ix2 p k) := by
  have e0 : win4_5.index t (0 : Fin 2) = 0 := (idx4 t).2.2.2.2.2.2.2.2.2.2.1
  have e1 : win4_5.index t (1 : Fin 2) = 0 := (idx4 t).2.2.2.2.2.2.2.2.2.2.2.1
  unfold iblk4
  rw [View.read_apply]
  show (V c main_v96 : Cert.Spec.A2 64 64) _ = _
  congr 1
  funext a
  apply Fin.ext
  match a with
  | ⟨0, _⟩ => show win4_5.index t 0 * 64 + 1 * p.val = p.val; rw [e0]; omega
  | ⟨1, _⟩ => show win4_5.index t 1 * 64 + 1 * k.val = k.val; rw [e1]; omega

/-- Window 6's block at every point is its whole array. -/
private theorem iblk4_6_apply (c : Dev nD) (t : Fin cfg4.N) (p : Fin 32) (k : Fin 64) :
    (iblk4 V c 6 t : Vec Ideal S32x64 .f32) (ix2 p k) = aPw V c (ix2 p k) := by
  have e0 : win4_6.index t (0 : Fin 2) = 0 := (idx4 t).2.2.2.2.2.2.2.2.2.2.2.2.1
  have e1 : win4_6.index t (1 : Fin 2) = 0 := (idx4 t).2.2.2.2.2.2.2.2.2.2.2.2.2.1
  unfold iblk4
  rw [View.read_apply]
  show (V c main_arg22 : Cert.Spec.A2 32 64) _ = _
  congr 1
  funext a
  apply Fin.ext
  match a with
  | ⟨0, _⟩ => show win4_6.index t 0 * 32 + 1 * p.val = p.val; rw [e0]; omega
  | ⟨1, _⟩ => show win4_6.index t 1 * 64 + 1 * k.val = k.val; rw [e1]; omega

/-- Window 7's block at every point is its whole array. -/
private theorem iblk4_7_apply (c : Dev nD) (t : Fin cfg4.N) (p : Fin 1) (k : Fin 32) :
    (iblk4 V c 7 t : Vec Ideal S1x32 .f32) (ix2 p k) = aPb V c (ix2 p k) := by
  have e0 : win4_7.index t (0 : Fin 2) = 0 := (idx4 t).2.2.2.2.2.2.2.2.2.2.2.2.2.2.1
  have e1 : win4_7.index t (1 : Fin 2) = 0 := (idx4 t).2.2.2.2.2.2.2.2.2.2.2.2.2.2.2.1
  unfold iblk4
  rw [View.read_apply]
  show (V c main_v89 : Cert.Spec.A2 1 32) _ = _
  congr 1
  funext a
  apply Fin.ext
  match a with
  | ⟨0, _⟩ => show win4_7.index t 0 * 1 + 1 * p.val = p.val; rw [e0]; omega
  | ⟨1, _⟩ => show win4_7.index t 1 * 32 + 1 * k.val = k.val; rw [e1]; omega

/-- The whole-array function the output of pallas call 4 ends holding. -/
private abbrev G4 (c : Dev nD) : Cert.Spec.A2 100000 32 :=
  Cert.Spec.lin 100000 32 (Cert.Spec.convK 100000 (V c main_v77) (V c main_v24) (V c main_v58) (V c main_arg14) (fun j => V c main_v88 (ix2 0 j)) (V c main_v96)) (V c main_arg22) (fun j => V c main_v89 (ix2 0 j))

/-- Element `(p, q)` of the output's block at point `t` is element `(5000 t + p, q)` of the output array. -/
private theorem emb4_8 (t : Fin cfg4.N) (p : Fin 5000) (q : Fin 32) :
    ((cfg4.win 8).blk t).view.emb (ix2 p q) = (ix2 ⟨t.val * 5000 + p.val, rowlt4 t p⟩ q : (⟨2, ![100000, 32]⟩ : Shape).Idx) := by
  have e0 : win4_8.index t (0 : Fin 2) = t.val := (idx4 t).2.2.2.2.2.2.2.2.2.2.2.2.2.2.2.2.1
  have e1 : win4_8.index t (1 : Fin 2) = 0 := (idx4 t).2.2.2.2.2.2.2.2.2.2.2.2.2.2.2.2.2
  funext a
  apply Fin.ext
  match a with
  | ⟨0, _⟩ => show win4_8.index t 0 * 5000 + 1 * p.val = t.val * 5000 + p.val; rw [e0]; omega
  | ⟨1, _⟩ => show win4_8.index t 1 * 32 + 1 * q.val = q.val; rw [e1]; omega

/-- What point `t` writes back is block `t` of the whole-array function of the operand arrays. -/
private theorem flushed4_eq (c : Dev nD) (t : Fin cfg4.N) :
    (dat4 V c).flushed 8 t = ((cfg4.win 8).blk t).view.read (Elt Ideal) (G4 V c) := by
  show (cfg4.win 8).cut (grid4.coords t) ((dat4 V c).after 8 t) = _
  rw [after4_8]
  unfold out4_8
  rw [View.canon_unit_zero hz]
  simp only [View.ld_unit_zero (S := S5000x64) hz, View.ld_unit_zero (S := S5000x1) hz, View.ld_unit_zero (S := S64x64) hz,
    View.ld_unit_zero (S := S1x64) hz, View.ld_unit_zero (S := S32x64) hz, View.ld_unit_zero (S := S1x32) hz]
  funext j
  obtain ⟨p, q, rfl⟩ : ∃ (p : Fin 5000) (q : Fin 32), j = ix2 p q := ⟨j 0, j 1, eq_ix2 j⟩
  show k4_pay1 (F := Ideal) (iblk4 V c 0 t) (iblk4 V c 1 t) (iblk4 V c 3 t) (iblk4 V c 4 t) (iblk4 V c 2 t) (iblk4 V c 5 t)
      (iblk4 V c 6 t) (iblk4 V c 7 t) (ix2 p q) = G4 V c (((cfg4.win 8).blk t).view.emb (ix2 p q))
  rw [emb4_8]
  refine (Pay.pay_post4 _ _ _ _ _ _ _ _ p q).trans ?_
  show _ = (∑ l : Fin 64, max (((∑ k : Fin 64, (aMs V c (ix2 ⟨t.val * 5000 + p.val, rowlt4 t p⟩ k)
        * aInv V c (ix2 ⟨t.val * 5000 + p.val, rowlt4 t p⟩ 0)) * aWrel V c (ix2 l k))
        + aBrel V c (ix2 0 l))
      + ∑ k : Fin 64, aXd V c (ix2 ⟨t.val * 5000 + p.val, rowlt4 t p⟩ k) * aWra V c (ix2 l k)) 0
      * aPw V c (ix2 q l)) + aPb V c (ix2 0 q)
  simp only [iblk4_0_apply V c t, iblk4_1_apply V c t, iblk4_2_apply V c t, iblk4_3_apply V c t, iblk4_4_apply V c t,
    iblk4_5_apply V c t, iblk4_6_apply V c t, iblk4_7_apply V c t]

/-- An index of the output array is in point `t`'s block iff each coordinate is in the block's range on its axis. -/
private theorem mem_blk4 (t : Fin cfg4.N) (i : S100000x32.Idx) :
    i ∈ ((cfg4.win 8).blk t).view.set ↔ ∀ a : Fin 2, win4_8.index t a * S5000x32.size a ≤ (i a).val ∧ (i a).val < win4_8.index t a * S5000x32.size a + S5000x32.size a := by
  show i ∈ ((View.whole main_v97).slice (win4_8.rect t)).set ↔ _
  rw [View.set_slice_whole, Rect.mem_set_unit]
  exact Iff.rfl

/-- Row `r` of the output array lies in the block of point `⌊r / 5000⌋`: the tiles fill the array. -/
private theorem cover4 (i : S100000x32.Idx) :
    ∃ t : Fin cfg4.N, (cfg4.win 8).flush t = true ∧ i ∈ ((cfg4.win 8).blk t).view.set := by
  have hi0 : (i 0).val < 100000 := (i 0).isLt
  have hi1 : (i 1).val < 32 := (i 1).isLt
  have hN : grid4.N = 20 := N_4
  have ht : (i 0).val / 5000 < cfg4.N := by show (i 0).val / 5000 < grid4.N; rw [hN]; omega
  refine ⟨⟨(i 0).val / 5000, ht⟩, flush4_8 _, ?_⟩
  have e0 : win4_8.index ⟨(i 0).val / 5000, ht⟩ (0 : Fin 2) = (i 0).val / 5000 := (idx4 ⟨(i 0).val / 5000, ht⟩).2.2.2.2.2.2.2.2.2.2.2.2.2.2.2.2.1
  have e1 : win4_8.index ⟨(i 0).val / 5000, ht⟩ (1 : Fin 2) = 0 := (idx4 ⟨(i 0).val / 5000, ht⟩).2.2.2.2.2.2.2.2.2.2.2.2.2.2.2.2.2
  rw [mem_blk4]
  intro a
  match a with
  | ⟨0, _⟩ =>
    show win4_8.index ⟨(i 0).val / 5000, ht⟩ (0 : Fin 2) * 5000 ≤ (i 0).val ∧ (i 0).val < win4_8.index ⟨(i 0).val / 5000, ht⟩ (0 : Fin 2) * 5000 + 5000
    rw [e0]; omega
  | ⟨1, _⟩ =>
    show win4_8.index ⟨(i 0).val / 5000, ht⟩ (1 : Fin 2) * 32 ≤ (i 1).val ∧ (i 1).val < win4_8.index ⟨(i 0).val / 5000, ht⟩ (1 : Fin 2) * 32 + 32
    rw [e1]; omega

/-- After the last grid point the output array of pallas call 4 holds the whole-array function of the
    operand arrays as the call found them. -/
theorem final4 (c : Dev nD) :
    (dat4 V c).arrAt 8 cfg4.N
      = Cert.Spec.lin 100000 32 (Cert.Spec.convK 100000 (V c main_v77) (V c main_v24) (V c main_v58) (V c main_arg14) (fun j => V c main_v88 (ix2 0 j)) (V c main_v96)) (V c main_arg22) (fun j => V c main_v89 (ix2 0 j)) :=
  (dat4 V c).arrAt_eq_of_cover 8 (G4 V c) (fun t _ => flushed4_eq V c t) cover4

end Cert.KernelIdeal.Reg4

end
-- ==== Proof.Reg5.lean ====
/-
  Pallas call 5 read as one whole-array function: every grid point writes back one tile of rows, the tiles
  fill the output array, and a row of the output depends on the same row of the row-tiled operands and on
  the whole weight and bias operands.
-/
import proofs.«413055_j9929964388947_3_alg».proof.Proof.Gen.KernelIdeal.Frame
import proofs.«413055_j9929964388947_3_alg».proof.Proof.Pay
import proofs.«413055_j9929964388947_3_alg».proof.Proof.Spec
import Idealize.ShloMosaic.Lib.Pipeline.Value

set_option maxRecDepth 16384

noncomputable section

namespace Cert.KernelIdeal.Reg5

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-- The zero offset pair is the constant zero offset. -/
private theorem hz : (![0, 0] : Fin 2 → Nat) = fun _ => 0 := funext fun a => by fin_cases a <;> rfl

/-- The block index of every window at every grid point: a row-tiled window sits at row block `t`, a weight
    or bias window at block `(0, 0)`. -/
private theorem idx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = t.val ∧ win5_8.index t (1 : Fin 2) = 0 :=
  (by decide +kernel : ∀ t : Fin grid5.N, _)

/-- The operand arrays of pallas call 5 as the call finds them, as arrays of extended reals. -/
private abbrev aMs (c : Dev nD) : Cert.Spec.A2 200000 64 := V c main_v87
private abbrev aInv (c : Dev nD) : Cert.Spec.A2 200000 1 := V c main_v29
private abbrev aXd (c : Dev nD) : Cert.Spec.A2 200000 64 := V c main_v67
private abbrev aWrel (c : Dev nD) : Cert.Spec.A2 64 64 := V c main_arg17
private abbrev aBrel (c : Dev nD) : Cert.Spec.A2 1 64 := V c main_v98
private abbrev aWra (c : Dev nD) : Cert.Spec.A2 64 64 := V c main_v106
private abbrev aPw (c : Dev nD) : Cert.Spec.A2 32 64 := V c main_arg20
private abbrev aPb (c : Dev nD) : Cert.Spec.A2 1 32 := V c main_v99

/-- Row `p` of tile `t` is a row of the array. -/
private theorem rowlt5 (t : Fin cfg5.N) (p : Fin 5000) : t.val * 5000 + p.val < 200000 := by
  have h1 : t.val < grid5.N := t.isLt
  rw [N_5] at h1
  have h2 : p.val < 5000 := p.isLt
  omega

/-- Window 0's block at point `t` is rows `5000 t … 5000 t + 4999` of its array. -/
private theorem iblk5_0_apply (c : Dev nD) (t : Fin cfg5.N) (p : Fin 5000) (k : Fin 64) :
    (iblk5 V c 0 t : Vec Ideal S5000x64 .f32) (ix2 p k)
      = aMs V c (ix2 ⟨t.val * 5000 + p.val, rowlt5 t p⟩ k) := by
  have e0 : win5_0.index t (0 : Fin 2) = t.val := (idx5 t).1
  have e1 : win5_0.index t (1 : Fin 2) = 0 := (idx5 t).2.1
  unfold iblk5
  rw [View.read_apply]
  show (V c main_v87 : Cert.Spec.A2 200000 64) _ = _
  congr 1
  funext a
  apply Fin.ext
  match a with
  | ⟨0, _⟩ => show win5_0.index t 0 * 5000 + 1 * p.val = t.val * 5000 + p.val; rw [e0]; omega
  | ⟨1, _⟩ => show win5_0.index t 1 * 64 + 1 * k.val = k.val; rw [e1]; omega

/-- Window 1's block at point `t` is rows `5000 t … 5000 t + 4999` of its array. -/
private theorem iblk5_1_apply (c : Dev nD) (t : Fin cfg5.N) (p : Fin 5000) (k : Fin 1) :
    (iblk5 V c 1 t : Vec Ideal S5000x1 .f32) (ix2 p k)
      = aInv V c (ix2 ⟨t.val * 5000 + p.val, rowlt5 t p⟩ k) := by
  have e0 : win5_1.index t (0 : Fin 2) = t.val := (idx5 t).2.2.1
  have e1 : win5_1.index t (1 : Fin 2) = 0 := (idx5 t).2.2.2.1
  unfold iblk5
  rw [View.read_apply]
  show (V c main_v29 : Cert.Spec.A2 200000 1) _ = _
  congr 1
  funext a
  apply Fin.ext
  match a with
  | ⟨0, _⟩ => show win5_1.index t 0 * 5000 + 1 * p.val = t.val * 5000 + p.val; rw [e0]; omega
  | ⟨1, _⟩ => show win5_1.index t 1 * 1 + 1 * k.val = k.val; rw [e1]; omega

/-- Window 2's block at point `t` is rows `5000 t … 5000 t + 4999` of its array. -/
private theorem iblk5_2_apply (c : Dev nD) (t : Fin cfg5.N) (p : Fin 5000) (k : Fin 64) :
    (iblk5 V c 2 t : Vec Ideal S5000x64 .f32) (ix2 p k)
      = aXd V c (ix2 ⟨t.val * 5000 + p.val, rowlt5 t p⟩ k) := by
  have e0 : win5_2.index t (0 : Fin 2) = t.val := (idx5 t).2.2.2.2.1
  have e1 : win5_2.index t (1 : Fin 2) = 0 := (idx5 t).2.2.2.2.2.1
  unfold iblk5
  rw [View.read_apply]
  show (V c main_v67 : Cert.Spec.A2 200000 64) _ = _
  congr 1
  funext a
  apply Fin.ext
  match a with
  | ⟨0, _⟩ => show win5_2.index t 0 * 5000 + 1 * p.val = t.val * 5000 + p.val; rw [e0]; omega
  | ⟨1, _⟩ => show win5_2.index t 1 * 64 + 1 * k.val = k.val; rw [e1]; omega

/-- Window 3's block at every point is its whole array. -/
private theorem iblk5_3_apply (c : Dev nD) (t : Fin cfg5.N) (p : Fin 64) (k : Fin 64) :
    (iblk5 V c 3 t : Vec Ideal S64x64 .f32) (ix2 p k) = aWrel V c (ix2 p k) := by
  have e0 : win5_3.index t (0 : Fin 2) = 0 := (idx5 t).2.2.2.2.2.2.1
  have e1 : win5_3.index t (1 : Fin 2) = 0 := (idx5 t).2.2.2.2.2.2.2.1
  unfold iblk5
  rw [View.read_apply]
  show (V c main_arg17 : Cert.Spec.A2 64 64) _ = _
  congr 1
  funext a
  apply Fin.ext
  match a with
  | ⟨0, _⟩ => show win5_3.index t 0 * 64 + 1 * p.val = p.val; rw [e0]; omega
  | ⟨1, _⟩ => show win5_3.index t 1 * 64 + 1 * k.val = k.val; rw [e1]; omega

/-- Window 4's block at every point is its whole array. -/
private theorem iblk5_4_apply (c : Dev nD) (t : Fin cfg5.N) (p : Fin 1) (k : Fin 64) :
    (iblk5 V c 4 t : Vec Ideal S1x64 .f32) (ix2 p k) = aBrel V c (ix2 p k) := by
  have e0 : win5_4.index t (0 : Fin 2) = 0 := (idx5 t).2.2.2.2.2.2.2.2.1
  have e1 : win5_4.index t (1 : Fin 2) = 0 := (idx5 t).2.2.2.2.2.2.2.2.2.1
  unfold iblk5
  rw [View.read_apply]
  show (V c main_v98 : Cert.Spec.A2 1 64) _ = _
  congr 1
  funext a
  apply Fin.ext
  match a with
  | ⟨0, _⟩ => show win5_4.index t 0 * 1 + 1 * p.val = p.val; rw [e0]; omega
  | ⟨1, _⟩ => show win5_4.index t 1 * 64 + 1 * k.val = k.val; rw [e1]; omega

/-- Window 5's block at every point is its whole array. -/
private theorem iblk5_5_apply (c : Dev nD) (t : Fin cfg5.N) (p : Fin 64) (k : Fin 64) :
    (iblk5 V c 5 t : Vec Ideal S64x64 .f32) (ix2 p k) = aWra V c (ix2 p k) := by
  have e0 : win5_5.index t (0 : Fin 2) = 0 := (idx5 t).2.2.2.2.2.2.2.2.2.2.1
  have e1 : win5_5.index t (1 : Fin 2) = 0 := (idx5 t).2.2.2.2.2.2.2.2.2.2.2.1
  unfold iblk5
  rw [View.read_apply]
  show (V c main_v106 : Cert.Spec.A2 64 64) _ = _
  congr 1
  funext a
  apply Fin.ext
  match a with
  | ⟨0, _⟩ => show win5_5.index t 0 * 64 + 1 * p.val = p.val; rw [e0]; omega
  | ⟨1, _⟩ => show win5_5.index t 1 * 64 + 1 * k.val = k.val; rw [e1]; omega

/-- Window 6's block at every point is its whole array. -/
private theorem iblk5_6_apply (c : Dev nD) (t : Fin cfg5.N) (p : Fin 32) (k : Fin 64) :
    (iblk5 V c 6 t : Vec Ideal S32x64 .f32) (ix2 p k) = aPw V c (ix2 p k) := by
  have e0 : win5_6.index t (0 : Fin 2) = 0 := (idx5 t).2.2.2.2.2.2.2.2.2.2.2.2.1
  have e1 : win5_6.index t (1 : Fin 2) = 0 := (idx5 t).2.2.2.2.2.2.2.2.2.2.2.2.2.1
  unfold iblk5
  rw [View.read_apply]
  show (V c main_arg20 : Cert.Spec.A2 32 64) _ = _
  congr 1
  funext a
  apply Fin.ext
  match a with
  | ⟨0, _⟩ => show win5_6.index t 0 * 32 + 1 * p.val = p.val; rw [e0]; omega
  | ⟨1, _⟩ => show win5_6.index t 1 * 64 + 1 * k.val = k.val; rw [e1]; omega

/-- Window 7's block at every point is its whole array. -/
private theorem iblk5_7_apply (c : Dev nD) (t : Fin cfg5.N) (p : Fin 1) (k : Fin 32) :
    (iblk5 V c 7 t : Vec Ideal S1x32 .f32) (ix2 p k) = aPb V c (ix2 p k) := by
  have e0 : win5_7.index t (0 : Fin 2) = 0 := (idx5 t).2.2.2.2.2.2.2.2.2.2.2.2.2.2.1
  have e1 : win5_7.index t (1 : Fin 2) = 0 := (idx5 t).2.2.2.2.2.2.2.2.2.2.2.2.2.2.2.1
  unfold iblk5
  rw [View.read_apply]
  show (V c main_v99 : Cert.Spec.A2 1 32) _ = _
  congr 1
  funext a
  apply Fin.ext
  match a with
  | ⟨0, _⟩ => show win5_7.index t 0 * 1 + 1 * p.val = p.val; rw [e0]; omega
  | ⟨1, _⟩ => show win5_7.index t 1 * 32 + 1 * k.val = k.val; rw [e1]; omega

/-- The whole-array function the output of pallas call 5 ends holding. -/
private abbrev G5 (c : Dev nD) : Cert.Spec.A2 200000 32 :=
  Cert.Spec.lin 200000 32 (Cert.Spec.convK 200000 (V c main_v87) (V c main_v29) (V c main_v67) (V c main_arg17) (fun j => V c main_v98 (ix2 0 j)) (V c main_v106)) (V c main_arg20) (fun j => V c main_v99 (ix2 0 j))

/-- Element `(p, q)` of the output's block at point `t` is element `(5000 t + p, q)` of the output array. -/
private theorem emb5_8 (t : Fin cfg5.N) (p : Fin 5000) (q : Fin 32) :
    ((cfg5.win 8).blk t).view.emb (ix2 p q) = (ix2 ⟨t.val * 5000 + p.val, rowlt5 t p⟩ q : (⟨2, ![200000, 32]⟩ : Shape).Idx) := by
  have e0 : win5_8.index t (0 : Fin 2) = t.val := (idx5 t).2.2.2.2.2.2.2.2.2.2.2.2.2.2.2.2.1
  have e1 : win5_8.index t (1 : Fin 2) = 0 := (idx5 t).2.2.2.2.2.2.2.2.2.2.2.2.2.2.2.2.2
  funext a
  apply Fin.ext
  match a with
  | ⟨0, _⟩ => show win5_8.index t 0 * 5000 + 1 * p.val = t.val * 5000 + p.val; rw [e0]; omega
  | ⟨1, _⟩ => show win5_8.index t 1 * 32 + 1 * q.val = q.val; rw [e1]; omega

/-- What point `t` writes back is block `t` of the whole-array function of the operand arrays. -/
private theorem flushed5_eq (c : Dev nD) (t : Fin cfg5.N) :
    (dat5 V c).flushed 8 t = ((cfg5.win 8).blk t).view.read (Elt Ideal) (G5 V c) := by
  show (cfg5.win 8).cut (grid5.coords t) ((dat5 V c).after 8 t) = _
  rw [after5_8]
  unfold out5_8
  rw [View.canon_unit_zero hz]
  simp only [View.ld_unit_zero (S := S5000x64) hz, View.ld_unit_zero (S := S5000x1) hz, View.ld_unit_zero (S := S64x64) hz,
    View.ld_unit_zero (S := S1x64) hz, View.ld_unit_zero (S := S32x64) hz, View.ld_unit_zero (S := S1x32) hz]
  funext j
  obtain ⟨p, q, rfl⟩ : ∃ (p : Fin 5000) (q : Fin 32), j = ix2 p q := ⟨j 0, j 1, eq_ix2 j⟩
  show k5_pay1 (F := Ideal) (iblk5 V c 0 t) (iblk5 V c 1 t) (iblk5 V c 3 t) (iblk5 V c 4 t) (iblk5 V c 2 t) (iblk5 V c 5 t)
      (iblk5 V c 6 t) (iblk5 V c 7 t) (ix2 p q) = G5 V c (((cfg5.win 8).blk t).view.emb (ix2 p q))
  rw [emb5_8]
  refine (Pay.pay_post5 _ _ _ _ _ _ _ _ p q).trans ?_
  show _ = (∑ l : Fin 64, max (((∑ k : Fin 64, (aMs V c (ix2 ⟨t.val * 5000 + p.val, rowlt5 t p⟩ k)
        * aInv V c (ix2 ⟨t.val * 5000 + p.val, rowlt5 t p⟩ 0)) * aWrel V c (ix2 l k))
        + aBrel V c (ix2 0 l))
      + ∑ k : Fin 64, aXd V c (ix2 ⟨t.val * 5000 + p.val, rowlt5 t p⟩ k) * aWra V c (ix2 l k)) 0
      * aPw V c (ix2 q l)) + aPb V c (ix2 0 q)
  simp only [iblk5_0_apply V c t, iblk5_1_apply V c t, iblk5_2_apply V c t, iblk5_3_apply V c t, iblk5_4_apply V c t,
    iblk5_5_apply V c t, iblk5_6_apply V c t, iblk5_7_apply V c t]

/-- An index of the output array is in point `t`'s block iff each coordinate is in the block's range on its axis. -/
private theorem mem_blk5 (t : Fin cfg5.N) (i : S200000x32.Idx) :
    i ∈ ((cfg5.win 8).blk t).view.set ↔ ∀ a : Fin 2, win5_8.index t a * S5000x32.size a ≤ (i a).val ∧ (i a).val < win5_8.index t a * S5000x32.size a + S5000x32.size a := by
  show i ∈ ((View.whole main_v107).slice (win5_8.rect t)).set ↔ _
  rw [View.set_slice_whole, Rect.mem_set_unit]
  exact Iff.rfl

/-- Row `r` of the output array lies in the block of point `⌊r / 5000⌋`: the tiles fill the array. -/
private theorem cover5 (i : S200000x32.Idx) :
    ∃ t : Fin cfg5.N, (cfg5.win 8).flush t = true ∧ i ∈ ((cfg5.win 8).blk t).view.set := by
  have hi0 : (i 0).val < 200000 := (i 0).isLt
  have hi1 : (i 1).val < 32 := (i 1).isLt
  have hN : grid5.N = 40 := N_5
  have ht : (i 0).val / 5000 < cfg5.N := by show (i 0).val / 5000 < grid5.N; rw [hN]; omega
  refine ⟨⟨(i 0).val / 5000, ht⟩, flush5_8 _, ?_⟩
  have e0 : win5_8.index ⟨(i 0).val / 5000, ht⟩ (0 : Fin 2) = (i 0).val / 5000 := (idx5 ⟨(i 0).val / 5000, ht⟩).2.2.2.2.2.2.2.2.2.2.2.2.2.2.2.2.1
  have e1 : win5_8.index ⟨(i 0).val / 5000, ht⟩ (1 : Fin 2) = 0 := (idx5 ⟨(i 0).val / 5000, ht⟩).2.2.2.2.2.2.2.2.2.2.2.2.2.2.2.2.2
  rw [mem_blk5]
  intro a
  match a with
  | ⟨0, _⟩ =>
    show win5_8.index ⟨(i 0).val / 5000, ht⟩ (0 : Fin 2) * 5000 ≤ (i 0).val ∧ (i 0).val < win5_8.index ⟨(i 0).val / 5000, ht⟩ (0 : Fin 2) * 5000 + 5000
    rw [e0]; omega
  | ⟨1, _⟩ =>
    show win5_8.index ⟨(i 0).val / 5000, ht⟩ (1 : Fin 2) * 32 ≤ (i 1).val ∧ (i 1).val < win5_8.index ⟨(i 0).val / 5000, ht⟩ (1 : Fin 2) * 32 + 32
    rw [e1]; omega

/-- After the last grid point the output array of pallas call 5 holds the whole-array function of the
    operand arrays as the call found them. -/
theorem final5 (c : Dev nD) :
    (dat5 V c).arrAt 8 cfg5.N
      = Cert.Spec.lin 200000 32 (Cert.Spec.convK 200000 (V c main_v87) (V c main_v29) (V c main_v67) (V c main_arg17) (fun j => V c main_v98 (ix2 0 j)) (V c main_v106)) (V c main_arg20) (fun j => V c main_v99 (ix2 0 j)) :=
  (dat5 V c).arrAt_eq_of_cover 8 (G5 V c) (fun t _ => flushed5_eq V c t) cover5

end Cert.KernelIdeal.Reg5

end
-- ==== Proof.HostK.lean ====
/-
  The host-side stages of the kernel's program as named functions of whole arrays: the rows of an edge list,
  a gather of feature rows at the edges' sources followed by a sum at the edges' destinations, the in-degree
  count, the reciprocal column `1 / max(deg, 1)`, the root weights with the identity added, a bias as a
  one-row matrix — and the program's two results as compositions of these stages with the six kernels'
  whole-array functions. The facts the comparison with the reference needs are proved here: the reciprocal
  column and the augmented weights read at an index, and that gathering, summing at destinations and
  counting degrees keep finite reals finite.
-/
import proofs.«413055_j9929964388947_3_alg».proof.KernelIdeal
import proofs.«413055_j9929964388947_3_alg».proof.Proof.Gen.KernelIdeal
import proofs.«413055_j9929964388947_3_alg».proof.Proof.Spec
import Idealize.ShloMosaic.Lib.ValueIdx
import Idealize.ShloMosaic.Lib.ValueLayout
import Idealize.ShloMosaic.Lib.Pipeline.Value
import Idealize.ShloMosaic.Lib.IdealHost

noncomputable section

namespace Cert.KernelIdeal.HostFn

open Cert.KernelIdeal Cert.KernelIdeal.Gen Idealize.ShloMosaic Idealize.ShloMosaic.ValueIdx Cert.Spec Cert.LibReal
open scoped BigOperators

/-- Row 0 of an edge list (the source ends) as a flat vector of indices. -/
def edgeRow0 (ei : IVec S2x1000000 32) : IVec S1000000 32 :=
  shapeCast S1000000 (extractStridedSlice S1x1000000 ![0, 0] ei slices_S2x1000000_S1x1000000_0_0) shapeCasts_S1x1000000_S1000000

/-- Row 1 of an edge list (the destination ends) as a flat vector of indices. -/
def edgeRow1 (ei : IVec S2x1000000 32) : IVec S1000000 32 :=
  shapeCast S1000000 (extractStridedSlice S1x1000000 ![1, 0] ei slices_S2x1000000_S1x1000000_1_0) shapeCasts_S1x1000000_S1000000

/-- A flat index vector as a column of one-component index vectors. -/
def col (d : IVec S1000000 32) : IVec S1000000x1 32 :=
  broadcastInDim S1000000x1 ![0] bcast_S1000000_S1000000x1_0 d

/-- Source indices into the 200000 users, a negative one wrapped once by the extent, as a column. -/
def wrapU (s : IVec S1000000 32) : IVec S1000000x1 32 :=
  col (select (cmpi .slt s (broadcastInDim S1000000 ![] bcast_S_S1000000 (constantI S_ 32 0#32)))
    (addi s (broadcastInDim S1000000 ![] bcast_S_S1000000 (constantI S_ 32 200000#32))) s)

/-- Source indices into the 100000 items, a negative one wrapped once by the extent, as a column. -/
def wrapI (s : IVec S1000000 32) : IVec S1000000x1 32 :=
  col (select (cmpi .slt s (broadcastInDim S1000000 ![] bcast_S_S1000000 (constantI S_ 32 0#32)))
    (addi s (broadcastInDim S1000000 ![] bcast_S_S1000000 (constantI S_ 32 100000#32))) s)

/-- Messages into the items: the user rows gathered at the sources of the user-to-item edges, summed at
    the destinations. -/
def gsI (h : FVec Ideal S200000x64 .f32) (ei : IVec S2x1000000 32) : FVec Ideal S100000x64 .f32 :=
  Host.scatterAdd scatter_S100000x64_S1000000x1_S1000000x64_1_0_0_1
    (broadcastInDim S100000x64 ![] bcast_S_S100000x64 (constant (F := Ideal) S_ .f32 0x00000000#32))
    (col (edgeRow1 ei))
    (Host.gather gather_S200000x64_S1000000x1_S1000000x64_1_0_n_n_0_1_164 h (wrapU (edgeRow0 ei)))

/-- Messages into the users: the item rows gathered at the sources of the item-to-user edges, summed at
    the destinations. -/
def gsU (h : FVec Ideal S100000x64 .f32) (ei : IVec S2x1000000 32) : FVec Ideal S200000x64 .f32 :=
  Host.scatterAdd scatter_S200000x64_S1000000x1_S1000000x64_1_0_0_1
    (broadcastInDim S200000x64 ![] bcast_S_S200000x64 (constant (F := Ideal) S_ .f32 0x00000000#32))
    (col (edgeRow1 ei))
    (Host.gather gather_S100000x64_S1000000x1_S1000000x64_1_0_n_n_0_1_164 h (wrapI (edgeRow0 ei)))

/-- In-degrees of the items: ones summed at the destinations of the user-to-item edges. -/
def degI (ei : IVec S2x1000000 32) : FVec Ideal S100000 .f32 :=
  Host.scatterAdd scatter_S100000_S1000000x1_S1000000_n_0_0_1
    (broadcastInDim S100000 ![] bcast_S_S100000 (constant (F := Ideal) S_ .f32 0x00000000#32))
    (col (edgeRow1 ei))
    (broadcastInDim S1000000 ![] bcast_S_S1000000 (constant (F := Ideal) S_ .f32 0x3F800000#32))

/-- In-degrees of the users: ones summed at the destinations of the item-to-user edges. -/
def degU (ei : IVec S2x1000000 32) : FVec Ideal S200000 .f32 :=
  Host.scatterAdd scatter_S200000_S1000000x1_S1000000_n_0_0_1
    (broadcastInDim S200000 ![] bcast_S_S200000 (constant (F := Ideal) S_ .f32 0x00000000#32))
    (col (edgeRow1 ei))
    (broadcastInDim S1000000 ![] bcast_S_S1000000 (constant (F := Ideal) S_ .f32 0x3F800000#32))

/-! ## Stages only the kernel's program has -/

/-- The reciprocal column of the item degrees, `1 / max(deg, 1)`, as a [100000, 1] array. -/
def invColI (d : FVec Ideal S100000 .f32) : FVec Ideal S100000x1 .f32 :=
  broadcastInDim S100000x1 ![0] bcast_S100000_S100000x1_0
    (Host.divf (broadcastInDim S100000 ![] bcast_S_S100000 (constant (F := Ideal) S_ .f32 0x3F800000#32))
      (maximumf d (broadcastInDim S100000 ![] bcast_S_S100000 (constant (F := Ideal) S_ .f32 0x3F800000#32))))

/-- The reciprocal column of the user degrees, as a [200000, 1] array. -/
def invColU (d : FVec Ideal S200000 .f32) : FVec Ideal S200000x1 .f32 :=
  broadcastInDim S200000x1 ![0] bcast_S200000_S200000x1_0
    (Host.divf (broadcastInDim S200000 ![] bcast_S_S200000 (constant (F := Ideal) S_ .f32 0x3F800000#32))
      (maximumf d (broadcastInDim S200000 ![] bcast_S_S200000 (constant (F := Ideal) S_ .f32 0x3F800000#32))))

/-- Root weights with the identity matrix added (the residual folded into the weights). -/
def aug (w : FVec Ideal S64x64 .f32) : FVec Ideal S64x64 .f32 :=
  addf w (uitofp (F := Ideal) .f32 (cmpi .eq (addi (iotaInDim S64x64 32 0) (broadcastInDim S64x64 ![] bcast_S_S64x64 (constantI S_ 32 0#32)))
    (iotaInDim S64x64 32 1)))

/-- A 64-vector as a one-row matrix. -/
def row64 (b : FVec Ideal S64 .f32) : FVec Ideal S1x64 .f32 := shapeCast S1x64 b shapeCasts_S64_S1x64

/-- A 32-vector as a one-row matrix. -/
def row32 (b : FVec Ideal S32 .f32) : FVec Ideal S1x32 .f32 := shapeCast S1x32 b shapeCasts_S32_S1x32

/-! ## The facts about these stages -/

theorem row64_apply (b : FVec Ideal S64 .f32) (j : Fin 64) : row64 b (ix2 0 j) = b (ix1 j) := by
  unfold row64
  refine shapeCast_apply b _ (ix2 0 j) (ix1 j) ?_
  rw [Shape.rowMajor_val_one, Shape.rowMajor_val_two]
  show j.val = 0 * 64 + j.val
  omega

theorem row32_apply (b : FVec Ideal S32 .f32) (j : Fin 32) : row32 b (ix2 0 j) = b (ix1 j) := by
  unfold row32
  refine shapeCast_apply b _ (ix2 0 j) (ix1 j) ?_
  rw [Shape.rowMajor_val_one, Shape.rowMajor_val_two]
  show j.val = 0 * 32 + j.val
  omega

/-- The words of two naturals below 64 are equal exactly when the naturals are; adding the zero word changes nothing. -/
private theorem eqWord_toNat (j k : Fin 64) :
    (IntOp.cmpi .eq (BitVec.ofNat 32 j.val + 0#32) (BitVec.ofNat 32 k.val)).toNat = if j = k then 1 else 0 := by
  have hj := j.isLt
  have hk := k.isLt
  by_cases hjk : j = k
  · subst hjk
    rw [if_pos rfl]
    simp [IntOp.cmpi]
  · rw [if_neg hjk]
    have hne : ¬ (BitVec.ofNat 32 j.val = BitVec.ofNat 32 k.val) := by
      intro h
      apply hjk
      apply Fin.ext
      have h2 := congrArg BitVec.toNat h
      rw [BitVec.toNat_ofNat, BitVec.toNat_ofNat] at h2
      omega
    simp [IntOp.cmpi, hne]

/-- The augmented weights at an index: the weight plus one on the diagonal. -/
theorem aug_apply (w : FVec Ideal S64x64 .f32) (j k : Fin 64) :
    aug w (ix2 j k) = w (ix2 j k) + (if j = k then (1 : EReal) else 0) := by
  unfold aug
  rw [addf_apply]
  congr 1
  show (((IntOp.cmpi .eq (BitVec.ofNat 32 j.val + 0#32) (BitVec.ofNat 32 k.val)).toNat : ℝ) : EReal) = _
  rw [eqWord_toNat j k]
  by_cases hjk : j = k
  · rw [if_pos hjk, if_pos hjk, Nat.cast_one, EReal.coe_one]
  · rw [if_neg hjk, if_neg hjk, Nat.cast_zero, EReal.coe_zero]

/-- The reciprocal column at a row. -/
theorem invColI_apply (d : FVec Ideal S100000 .f32) (r : Fin 100000) :
    invColI d (ix2 r 0) = Ideal.div 1 (max (d (ix1 r)) 1) := by
  unfold invColI
  rw [broadcastInDim_apply _ _ _ (ix2 r 0) (ix1 r) (fun a => match a with | ⟨0, _⟩ => rfl)]
  show Ideal.div (Ideal.ofBits .f32 0x3F800000#32) (max (d (ix1 r)) (Ideal.ofBits .f32 0x3F800000#32)) = _
  rw [Ideal.ofBits_one_f32]

theorem invColU_apply (d : FVec Ideal S200000 .f32) (r : Fin 200000) :
    invColU d (ix2 r 0) = Ideal.div 1 (max (d (ix1 r)) 1) := by
  unfold invColU
  rw [broadcastInDim_apply _ _ _ (ix2 r 0) (ix1 r) (fun a => match a with | ⟨0, _⟩ => rfl)]
  show Ideal.div (Ideal.ofBits .f32 0x3F800000#32) (max (d (ix1 r)) (Ideal.ofBits .f32 0x3F800000#32)) = _
  rw [Ideal.ofBits_one_f32]

/-- The f32 word `0x3F800000` denotes a finite real (the real one). -/
private theorem isReal_ofBits_one : IsReal (Ideal.ofBits .f32 0x3F800000#32) := by
  rw [Ideal.ofBits_one_f32]; exact isReal_one

/-- A scalar constant that is a finite real, broadcast to any shape, is a finite real everywhere. -/
private theorem bcastConst_allReal {T : Shape} (hT : (⟨0, ![]⟩ : Shape).BroadcastsInDim T ![]) (b : BitVec 32)
    (hb : IsReal (Ideal.ofBits .f32 b)) :
    AllReal (broadcastInDim T ![] hT (constant (F := Ideal) (⟨0, ![]⟩ : Shape) .f32 b)) := by
  intro j
  rw [broadcastInDim_scalar_apply, constant_apply]
  exact hb

/-- A gather reads the operand at some index, so it keeps finite reals finite. -/
private theorem gather_allReal {s si t : Shape} {w : ℕ} (d : GatherDims s si t) (x : s.Idx → EReal) (idx : IVec si w)
    (hx : AllReal x) : AllReal (Host.gather d x idx) := by
  intro j
  unfold Host.gather
  exact hx _

/-- A scatter with an add body yields, at each index, the operand's entry plus a finite sum of update entries,
    so it keeps finite reals finite. -/
private theorem scatterAdd_allReal {s si su : Shape} {w : ℕ} (d : ScatterDims s si su) (x : FVec Ideal s .f32)
    (idx : IVec si w) (upd : FVec Ideal su .f32) (hx : AllReal x) (hu : AllReal upd) :
    AllReal (Host.scatterAdd d x idx upd) := by
  intro i
  unfold Host.scatterAdd
  rw [Ideal.hostScatterAdd_def]
  unfold Ideal.hostScatterAdd
  exact (hx i).add (IsReal.sum _ _ fun j _ => hu j)

/-- Gathering rows and summing them at destinations keeps finite reals finite. -/
theorem gsI_allReal {h : FVec Ideal S200000x64 .f32} (hh : AllReal h) (ei : IVec S2x1000000 32) : AllReal (gsI h ei) := by
  unfold gsI
  exact scatterAdd_allReal _ _ _ _ (bcastConst_allReal _ _ isReal_ofBits_zero) (gather_allReal _ _ _ hh)

theorem gsU_allReal {h : FVec Ideal S100000x64 .f32} (hh : AllReal h) (ei : IVec S2x1000000 32) : AllReal (gsU h ei) := by
  unfold gsU
  exact scatterAdd_allReal _ _ _ _ (bcastConst_allReal _ _ isReal_ofBits_zero) (gather_allReal _ _ _ hh)

/-- A degree count is a finite real. -/
theorem degI_allReal (ei : IVec S2x1000000 32) : AllReal (degI ei) := by
  unfold degI
  exact scatterAdd_allReal _ _ _ _ (bcastConst_allReal _ _ isReal_ofBits_zero) (bcastConst_allReal _ _ isReal_ofBits_one)

theorem degU_allReal (ei : IVec S2x1000000 32) : AllReal (degU ei) := by
  unfold degU
  exact scatterAdd_allReal _ _ _ _ (bcastConst_allReal _ _ isReal_ofBits_zero) (bcastConst_allReal _ _ isReal_ofBits_one)

/-! ## The kernel program's values as compositions -/

/-- A one-row matrix read as a function of its column. -/
abbrev rowFn {D : ℕ} (r : (⟨2, ![1, D]⟩ : Shape).Idx → EReal) : Fin D → EReal := fun j => r (ix2 0 j)

/-- User features after the input layer. -/
def hU (a0 : FVec Ideal S200000x64 .f32) (a4 : FVec Ideal S64x64 .f32) (a5 : FVec Ideal S64 .f32) : FVec Ideal S200000x64 .f32 := lin 200000 64 a0 a4 (rowFn (row64 a5))
/-- Item features after the input layer. -/
def hI (a1 : FVec Ideal S100000x64 .f32) (a6 : FVec Ideal S64x64 .f32) (a7 : FVec Ideal S64 .f32) : FVec Ideal S100000x64 .f32 := lin 100000 64 a1 a6 (rowFn (row64 a7))
/-- Item features after the first convolution. -/
def x1I (a0 : FVec Ideal S200000x64 .f32) (a1 : FVec Ideal S100000x64 .f32) (a2 : IVec S2x1000000 32) (a4 : FVec Ideal S64x64 .f32) (a5 : FVec Ideal S64 .f32) (a6 : FVec Ideal S64x64 .f32) (a7 : FVec Ideal S64 .f32) (a8 : FVec Ideal S64x64 .f32) (a9 : FVec Ideal S64 .f32) (a10 : FVec Ideal S64x64 .f32) : FVec Ideal S100000x64 .f32 :=
  convK 100000 (gsI (hU a0 a4 a5) a2) (invColI (degI a2)) (hI a1 a6 a7) a8 (rowFn (row64 a9)) (aug a10)
/-- User features after the first convolution. -/
def x1U (a0 : FVec Ideal S200000x64 .f32) (a1 : FVec Ideal S100000x64 .f32) (a3 : IVec S2x1000000 32) (a4 : FVec Ideal S64x64 .f32) (a5 : FVec Ideal S64 .f32) (a6 : FVec Ideal S64x64 .f32) (a7 : FVec Ideal S64 .f32) (a11 : FVec Ideal S64x64 .f32) (a12 : FVec Ideal S64 .f32) (a13 : FVec Ideal S64x64 .f32) : FVec Ideal S200000x64 .f32 :=
  convK 200000 (gsU (hI a1 a6 a7) a3) (invColU (degU a3)) (hU a0 a4 a5) a11 (rowFn (row64 a12)) (aug a13)
/-- The item result, of all twenty-four arguments in the program's order. -/
def outI (a0 : FVec Ideal S200000x64 .f32) (a1 : FVec Ideal S100000x64 .f32) (a2 : IVec S2x1000000 32) (a3 : IVec S2x1000000 32) (a4 : FVec Ideal S64x64 .f32) (a5 : FVec Ideal S64 .f32) (a6 : FVec Ideal S64x64 .f32) (a7 : FVec Ideal S64 .f32) (a8 : FVec Ideal S64x64 .f32) (a9 : FVec Ideal S64 .f32) (a10 : FVec Ideal S64x64 .f32) (a11 : FVec Ideal S64x64 .f32) (a12 : FVec Ideal S64 .f32) (a13 : FVec Ideal S64x64 .f32) (a14 : FVec Ideal S64x64 .f32) (a15 : FVec Ideal S64 .f32) (a16 : FVec Ideal S64x64 .f32) (a17 : FVec Ideal S64x64 .f32) (a18 : FVec Ideal S64 .f32) (a19 : FVec Ideal S64x64 .f32) (a20 : FVec Ideal S32x64 .f32) (a21 : FVec Ideal S32 .f32) (a22 : FVec Ideal S32x64 .f32) (a23 : FVec Ideal S32 .f32) : FVec Ideal S100000x32 .f32 :=
  lin 100000 32 (convK 100000 (gsI (x1U a0 a1 a3 a4 a5 a6 a7 a11 a12 a13) a2) (invColI (degI a2)) (x1I a0 a1 a2 a4 a5 a6 a7 a8 a9 a10) a14 (rowFn (row64 a15)) (aug a16))
    a22 (rowFn (row32 a23))
/-- The user result, of all twenty-four arguments in the program's order. -/
def outU (a0 : FVec Ideal S200000x64 .f32) (a1 : FVec Ideal S100000x64 .f32) (a2 : IVec S2x1000000 32) (a3 : IVec S2x1000000 32) (a4 : FVec Ideal S64x64 .f32) (a5 : FVec Ideal S64 .f32) (a6 : FVec Ideal S64x64 .f32) (a7 : FVec Ideal S64 .f32) (a8 : FVec Ideal S64x64 .f32) (a9 : FVec Ideal S64 .f32) (a10 : FVec Ideal S64x64 .f32) (a11 : FVec Ideal S64x64 .f32) (a12 : FVec Ideal S64 .f32) (a13 : FVec Ideal S64x64 .f32) (a14 : FVec Ideal S64x64 .f32) (a15 : FVec Ideal S64 .f32) (a16 : FVec Ideal S64x64 .f32) (a17 : FVec Ideal S64x64 .f32) (a18 : FVec Ideal S64 .f32) (a19 : FVec Ideal S64x64 .f32) (a20 : FVec Ideal S32x64 .f32) (a21 : FVec Ideal S32 .f32) (a22 : FVec Ideal S32x64 .f32) (a23 : FVec Ideal S32 .f32) : FVec Ideal S200000x32 .f32 :=
  lin 200000 32 (convK 200000 (gsU (x1I a0 a1 a2 a4 a5 a6 a7 a8 a9 a10) a3) (invColU (degU a3)) (x1U a0 a1 a3 a4 a5 a6 a7 a11 a12 a13) a17 (rowFn (row64 a18)) (aug a19))
    a20 (rowFn (row32 a21))

end Cert.KernelIdeal.HostFn

end
-- ==== Proof.KKeep.lean ====
/-
  What each segment of the program leaves alone. A stretch of host operations changes only the buffers its
  operations name as results, so any other buffer holds after the stretch what it held before; a pallas call
  changes only its output arrays, so a buffer that is none of its arrays, or an array it only reads, holds after
  the call what it held before.
-/
import proofs.«413055_j9929964388947_3_alg».proof.Proof.Gen.KernelIdeal.Frame
import Idealize.ShloMosaic.Lib.StableHlo.Run
import Idealize.ShloMosaic.PureOps.Ideal

set_option maxRecDepth 16384

noncomputable section

namespace Cert.KernelIdeal.Keep

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## Stretch 0 and call 0 -/

/-- The result buffers of the operations of stretch 0, in order. -/
abbrev wr0 : List (Ref sig .tc) := [main_v0]

/-- Each operation of stretch 0 writes only a buffer of that list. -/
theorem wr0_sub : (hostOps0 : List (HloOp τ sig (Elt Ideal))).Forall fun op => op.writes ⊆ (wr0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer outside that list holds after stretch 0 what it held before. -/
theorem keepH0 (c : Dev nD) (r : Ref sig .tc) (h : r ∉ wr0) :
    W1 m ρ c (Proc.devRef .tc r) = W0 m ρ c (Proc.devRef .tc r) :=
  StableHlo.after_of_writes_sub hostOps0 _ wr0_sub h

/-- A buffer that is no output array of call 0 holds after the call what it held before: an array the call
    only reads is left as entered, and a buffer that is none of its arrays is not touched. -/
theorem keepR0 (c : Dev nD) (r : Ref sig .tc)
    (h : ∀ w : Fin cfg0.W, Pipeline.arrRef spec0 w = r → (cfg0.win w).isOut = false) :
    W2 m ρ c (Proc.devRef .tc r) = W1 m ρ c (Proc.devRef .tc r) := by
  by_cases hr : ∃ w, Pipeline.arrRef spec0 w = r
  · obtain ⟨w, rfl⟩ := hr
    exact (W2_arr m ρ c w).trans (((dat0 (V1 m ρ) c).arrAt_in w (h w rfl) _).trans (A_eq0 (V1 m ρ) c w))
  · exact W2_of_ne m ρ c r fun w e => hr ⟨w, e⟩

/-! ## Stretch 1 and call 1 -/

/-- The result buffers of the operations of stretch 1, in order. -/
abbrev wr1 : List (Ref sig .tc) := [main_v2]

/-- Each operation of stretch 1 writes only a buffer of that list. -/
theorem wr1_sub : (hostOps1 : List (HloOp τ sig (Elt Ideal))).Forall fun op => op.writes ⊆ (wr1.map (Proc.devRef (τ := τ) .tc)).toFinset := by
  simp only [hostOps1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer outside that list holds after stretch 1 what it held before. -/
theorem keepH1 (c : Dev nD) (r : Ref sig .tc) (h : r ∉ wr1) :
    W3 m ρ c (Proc.devRef .tc r) = W2 m ρ c (Proc.devRef .tc r) :=
  StableHlo.after_of_writes_sub hostOps1 _ wr1_sub h

/-- A buffer that is no output array of call 1 holds after the call what it held before: an array the call
    only reads is left as entered, and a buffer that is none of its arrays is not touched. -/
theorem keepR1 (c : Dev nD) (r : Ref sig .tc)
    (h : ∀ w : Fin cfg1.W, Pipeline.arrRef spec1 w = r → (cfg1.win w).isOut = false) :
    W4 m ρ c (Proc.devRef .tc r) = W3 m ρ c (Proc.devRef .tc r) := by
  by_cases hr : ∃ w, Pipeline.arrRef spec1 w = r
  · obtain ⟨w, rfl⟩ := hr
    exact (W4_arr m ρ c w).trans (((dat1 (V3 m ρ) c).arrAt_in w (h w rfl) _).trans (A_eq1 (V3 m ρ) c w))
  · exact W4_of_ne m ρ c r fun w e => hr ⟨w, e⟩

/-! ## Stretch 2 and call 2 -/

/-- The result buffers of the operations of stretch 2, in order. -/
abbrev wr2 : List (Ref sig .tc) := [main_v4, main_v5, main_v6, main_v7, main_v8, main_v9, main_v10, main_v11, main_cst, main_v12, main_cst_0, main_v13, main_cst_1, main_v14, main_v15, main_v16, main_cst_2, main_v17, main_v18, main_v19, main_cst_3, main_v20, main_v21, main_cst_4, main_v22, main_v23, main_v24, main_cst_5, main_v25, main_v26, main_cst_6, main_v27, main_v28, main_v29, main_c, main_v30, main_v31, main_c_7, main_v32, main_v33, main_v34, main_v35, main_v36, main_cst_8, main_v37, main_v38, main_v39, main_c_9, main_v40, main_v41, main_c_10, main_v42, main_v43, main_v44, main_v45, main_v46, main_cst_11, main_v47, main_v48, main_v49, main_v50, main_v51, main_v52, main_c_12, main_v53, main_v54, main_v55, main_v56, main_v57]

/-- Each operation of stretch 2 writes only a buffer of that list. -/
theorem wr2_sub : (hostOps2 : List (HloOp τ sig (Elt Ideal))).Forall fun op => op.writes ⊆ (wr2.map (Proc.devRef (τ := τ) .tc)).toFinset := by
  simp only [hostOps2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer outside that list holds after stretch 2 what it held before. -/
theorem keepH2 (c : Dev nD) (r : Ref sig .tc) (h : r ∉ wr2) :
    W5 m ρ c (Proc.devRef .tc r) = W4 m ρ c (Proc.devRef .tc r) :=
  StableHlo.after_of_writes_sub hostOps2 _ wr2_sub h

/-- A buffer that is no output array of call 2 holds after the call what it held before: an array the call
    only reads is left as entered, and a buffer that is none of its arrays is not touched. -/
theorem keepR2 (c : Dev nD) (r : Ref sig .tc)
    (h : ∀ w : Fin cfg2.W, Pipeline.arrRef spec2 w = r → (cfg2.win w).isOut = false) :
    W6 m ρ c (Proc.devRef .tc r) = W5 m ρ c (Proc.devRef .tc r) := by
  by_cases hr : ∃ w, Pipeline.arrRef spec2 w = r
  · obtain ⟨w, rfl⟩ := hr
    exact (W6_arr m ρ c w).trans (((dat2 (V5 m ρ) c).arrAt_in w (h w rfl) _).trans (A_eq2 (V5 m ρ) c w))
  · exact W6_of_ne m ρ c r fun w e => hr ⟨w, e⟩

/-! ## Stretch 3 and call 3 -/

/-- The result buffers of the operations of stretch 3, in order. -/
abbrev wr3 : List (Ref sig .tc) := [main_v59, main_v60, main_v61, main_c_13, main_v62, main_v63, main_v64, main_v65, main_v66]

/-- Each operation of stretch 3 writes only a buffer of that list. -/
theorem wr3_sub : (hostOps3 : List (HloOp τ sig (Elt Ideal))).Forall fun op => op.writes ⊆ (wr3.map (Proc.devRef (τ := τ) .tc)).toFinset := by
  simp only [hostOps3, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer outside that list holds after stretch 3 what it held before. -/
theorem keepH3 (c : Dev nD) (r : Ref sig .tc) (h : r ∉ wr3) :
    W7 m ρ c (Proc.devRef .tc r) = W6 m ρ c (Proc.devRef .tc r) :=
  StableHlo.after_of_writes_sub hostOps3 _ wr3_sub h

/-- A buffer that is no output array of call 3 holds after the call what it held before: an array the call
    only reads is left as entered, and a buffer that is none of its arrays is not touched. -/
theorem keepR3 (c : Dev nD) (r : Ref sig .tc)
    (h : ∀ w : Fin cfg3.W, Pipeline.arrRef spec3 w = r → (cfg3.win w).isOut = false) :
    W8 m ρ c (Proc.devRef .tc r) = W7 m ρ c (Proc.devRef .tc r) := by
  by_cases hr : ∃ w, Pipeline.arrRef spec3 w = r
  · obtain ⟨w, rfl⟩ := hr
    exact (W8_arr m ρ c w).trans (((dat3 (V7 m ρ) c).arrAt_in w (h w rfl) _).trans (A_eq3 (V7 m ρ) c w))
  · exact W8_of_ne m ρ c r fun w e => hr ⟨w, e⟩

/-! ## Stretch 4 and call 4 -/

/-- The result buffers of the operations of stretch 4, in order. -/
abbrev wr4 : List (Ref sig .tc) := [main_c_14, main_v68, main_v69, main_c_15, main_v70, main_v71, main_v72, main_v73, main_v74, main_cst_16, main_v75, main_v76, main_v77, main_c_17, main_v78, main_v79, main_c_18, main_v80, main_v81, main_v82, main_v83, main_v84, main_cst_19, main_v85, main_v86, main_v87, main_v88, main_v89, main_v90, main_v91, main_c_20, main_v92, main_v93, main_v94, main_v95, main_v96]

/-- Each operation of stretch 4 writes only a buffer of that list. -/
theorem wr4_sub : (hostOps4 : List (HloOp τ sig (Elt Ideal))).Forall fun op => op.writes ⊆ (wr4.map (Proc.devRef (τ := τ) .tc)).toFinset := by
  simp only [hostOps4, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer outside that list holds after stretch 4 what it held before. -/
theorem keepH4 (c : Dev nD) (r : Ref sig .tc) (h : r ∉ wr4) :
    W9 m ρ c (Proc.devRef .tc r) = W8 m ρ c (Proc.devRef .tc r) :=
  StableHlo.after_of_writes_sub hostOps4 _ wr4_sub h

/-- A buffer that is no output array of call 4 holds after the call what it held before: an array the call
    only reads is left as entered, and a buffer that is none of its arrays is not touched. -/
theorem keepR4 (c : Dev nD) (r : Ref sig .tc)
    (h : ∀ w : Fin cfg4.W, Pipeline.arrRef spec4 w = r → (cfg4.win w).isOut = false) :
    W10 m ρ c (Proc.devRef .tc r) = W9 m ρ c (Proc.devRef .tc r) := by
  by_cases hr : ∃ w, Pipeline.arrRef spec4 w = r
  · obtain ⟨w, rfl⟩ := hr
    exact (W10_arr m ρ c w).trans (((dat4 (V9 m ρ) c).arrAt_in w (h w rfl) _).trans (A_eq4 (V9 m ρ) c w))
  · exact W10_of_ne m ρ c r fun w e => hr ⟨w, e⟩

/-! ## Stretch 5 and call 5 -/

/-- The result buffers of the operations of stretch 5, in order. -/
abbrev wr5 : List (Ref sig .tc) := [main_v98, main_v99, main_v100, main_v101, main_c_21, main_v102, main_v103, main_v104, main_v105, main_v106]

/-- Each operation of stretch 5 writes only a buffer of that list. -/
theorem wr5_sub : (hostOps5 : List (HloOp τ sig (Elt Ideal))).Forall fun op => op.writes ⊆ (wr5.map (Proc.devRef (τ := τ) .tc)).toFinset := by
  simp only [hostOps5, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer outside that list holds after stretch 5 what it held before. -/
theorem keepH5 (c : Dev nD) (r : Ref sig .tc) (h : r ∉ wr5) :
    W11 m ρ c (Proc.devRef .tc r) = W10 m ρ c (Proc.devRef .tc r) :=
  StableHlo.after_of_writes_sub hostOps5 _ wr5_sub h

/-- A buffer that is no output array of call 5 holds after the call what it held before: an array the call
    only reads is left as entered, and a buffer that is none of its arrays is not touched. -/
theorem keepR5 (c : Dev nD) (r : Ref sig .tc)
    (h : ∀ w : Fin cfg5.W, Pipeline.arrRef spec5 w = r → (cfg5.win w).isOut = false) :
    W12 m ρ c (Proc.devRef .tc r) = W11 m ρ c (Proc.devRef .tc r) := by
  by_cases hr : ∃ w, Pipeline.arrRef spec5 w = r
  · obtain ⟨w, rfl⟩ := hr
    exact (W12_arr m ρ c w).trans (((dat5 (V11 m ρ) c).arrAt_in w (h w rfl) _).trans (A_eq5 (V11 m ρ) c w))
  · exact W12_of_ne m ρ c r fun w e => hr ⟨w, e⟩

end Cert.KernelIdeal.Keep

end
-- ==== Proof.KChain.lean ====
/-
  The kernel program's two result buffers after the run, followed back through the program: six stretches of
  host operations alternate with six pallas calls; each call leaves in its output array the whole-array function
  of its operands, each host stretch leaves in each buffer it writes the printed operation of earlier buffers,
  and a buffer nobody writes keeps its contents. Composed, the results are the compositions `HostFn.outU` and
  `HostFn.outI` of the launch contents of the twenty-four arguments.
-/
import proofs.«413055_j9929964388947_3_alg».proof.Proof.Gen.KernelIdeal.Frame
import proofs.«413055_j9929964388947_3_alg».proof.Proof.Reg0
import proofs.«413055_j9929964388947_3_alg».proof.Proof.Reg1
import proofs.«413055_j9929964388947_3_alg».proof.Proof.Reg2
import proofs.«413055_j9929964388947_3_alg».proof.Proof.Reg3
import proofs.«413055_j9929964388947_3_alg».proof.Proof.Reg4
import proofs.«413055_j9929964388947_3_alg».proof.Proof.Reg5
import proofs.«413055_j9929964388947_3_alg».proof.Proof.HostK
import proofs.«413055_j9929964388947_3_alg».proof.Proof.KKeep
import Idealize.ShloMosaic.Lib.StableHlo.Run

set_option maxRecDepth 16384

noncomputable section

namespace Cert.KernelIdeal.Chain

open Cert.KernelIdeal Cert.KernelIdeal.Gen Cert.KernelIdeal.Keep Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-! ## Buffers no segment changes

The twenty-four arguments are written by no host operation and are outputs of no call, so each holds at every
boundary what it held at launch. -/

/-- No stretch writes the buffer and no call has it as an output array. -/
abbrev Kept (r : Ref sig .tc) : Prop :=
  (r ∉ wr0 ∧ ∀ w : Fin cfg0.W, Pipeline.arrRef spec0 w = r → (cfg0.win w).isOut = false)
  ∧ (r ∉ wr1 ∧ ∀ w : Fin cfg1.W, Pipeline.arrRef spec1 w = r → (cfg1.win w).isOut = false)
  ∧ (r ∉ wr2 ∧ ∀ w : Fin cfg2.W, Pipeline.arrRef spec2 w = r → (cfg2.win w).isOut = false)
  ∧ (r ∉ wr3 ∧ ∀ w : Fin cfg3.W, Pipeline.arrRef spec3 w = r → (cfg3.win w).isOut = false)
  ∧ (r ∉ wr4 ∧ ∀ w : Fin cfg4.W, Pipeline.arrRef spec4 w = r → (cfg4.win w).isOut = false)
  ∧ (r ∉ wr5 ∧ ∀ w : Fin cfg5.W, Pipeline.arrRef spec5 w = r → (cfg5.win w).isOut = false)

theorem kept_W1 (c : Dev nD) (r : Ref sig .tc) (h : Kept r) : W1 m ρ c (Proc.devRef .tc r) = m ((c : Thread nD τ).loc r) :=
  keepH0 m ρ c r h.1.1
theorem kept_W2 (c : Dev nD) (r : Ref sig .tc) (h : Kept r) : W2 m ρ c (Proc.devRef .tc r) = m ((c : Thread nD τ).loc r) :=
  (keepR0 m ρ c r h.1.2).trans (kept_W1 m ρ c r h)
theorem kept_W3 (c : Dev nD) (r : Ref sig .tc) (h : Kept r) : W3 m ρ c (Proc.devRef .tc r) = m ((c : Thread nD τ).loc r) :=
  (keepH1 m ρ c r h.2.1.1).trans (kept_W2 m ρ c r h)
theorem kept_W4 (c : Dev nD) (r : Ref sig .tc) (h : Kept r) : W4 m ρ c (Proc.devRef .tc r) = m ((c : Thread nD τ).loc r) :=
  (keepR1 m ρ c r h.2.1.2).trans (kept_W3 m ρ c r h)
theorem kept_W5 (c : Dev nD) (r : Ref sig .tc) (h : Kept r) : W5 m ρ c (Proc.devRef .tc r) = m ((c : Thread nD τ).loc r) :=
  (keepH2 m ρ c r h.2.2.1.1).trans (kept_W4 m ρ c r h)
theorem kept_W6 (c : Dev nD) (r : Ref sig .tc) (h : Kept r) : W6 m ρ c (Proc.devRef .tc r) = m ((c : Thread nD τ).loc r) :=
  (keepR2 m ρ c r h.2.2.1.2).trans (kept_W5 m ρ c r h)
theorem kept_W7 (c : Dev nD) (r : Ref sig .tc) (h : Kept r) : W7 m ρ c (Proc.devRef .tc r) = m ((c : Thread nD τ).loc r) :=
  (keepH3 m ρ c r h.2.2.2.1.1).trans (kept_W6 m ρ c r h)
theorem kept_W8 (c : Dev nD) (r : Ref sig .tc) (h : Kept r) : W8 m ρ c (Proc.devRef .tc r) = m ((c : Thread nD τ).loc r) :=
  (keepR3 m ρ c r h.2.2.2.1.2).trans (kept_W7 m ρ c r h)
theorem kept_W9 (c : Dev nD) (r : Ref sig .tc) (h : Kept r) : W9 m ρ c (Proc.devRef .tc r) = m ((c : Thread nD τ).loc r) :=
  (keepH4 m ρ c r h.2.2.2.2.1.1).trans (kept_W8 m ρ c r h)
theorem kept_W10 (c : Dev nD) (r : Ref sig .tc) (h : Kept r) : W10 m ρ c (Proc.devRef .tc r) = m ((c : Thread nD τ).loc r) :=
  (keepR4 m ρ c r h.2.2.2.2.1.2).trans (kept_W9 m ρ c r h)
theorem kept_W11 (c : Dev nD) (r : Ref sig .tc) (h : Kept r) : W11 m ρ c (Proc.devRef .tc r) = m ((c : Thread nD τ).loc r) :=
  (keepH5 m ρ c r h.2.2.2.2.2.1).trans (kept_W10 m ρ c r h)

/-! ## What a host stretch leaves in a buffer it writes

Each stretch is a straight line of operations; read back from the buffer in question, the line is the printed
operation of the contents, before the stretch, of the buffers it reads. -/

/-- Messages into the items from the two rows of an edge list given separately. -/
def gsI2 (h : FVec Ideal S200000x64 .f32) (s d : IVec S1000000 32) : FVec Ideal S100000x64 .f32 :=
  Host.scatterAdd scatter_S100000x64_S1000000x1_S1000000x64_1_0_0_1
    (broadcastInDim S100000x64 ![] bcast_S_S100000x64 (constant (F := Ideal) S_ .f32 0x00000000#32))
    (HostFn.col d)
    (Host.gather gather_S200000x64_S1000000x1_S1000000x64_1_0_n_n_0_1_164 h (HostFn.wrapU s))

/-- Messages into the users from the two rows of an edge list given separately. -/
def gsU2 (h : FVec Ideal S100000x64 .f32) (s d : IVec S1000000 32) : FVec Ideal S200000x64 .f32 :=
  Host.scatterAdd scatter_S200000x64_S1000000x1_S1000000x64_1_0_0_1
    (broadcastInDim S200000x64 ![] bcast_S_S200000x64 (constant (F := Ideal) S_ .f32 0x00000000#32))
    (HostFn.col d)
    (Host.gather gather_S100000x64_S1000000x1_S1000000x64_1_0_n_n_0_1_164 h (HostFn.wrapI s))

theorem gsI2_rows (h : FVec Ideal S200000x64 .f32) (ei : IVec S2x1000000 32) :
    gsI2 h (HostFn.edgeRow0 ei) (HostFn.edgeRow1 ei) = HostFn.gsI h ei := rfl
theorem gsU2_rows (h : FVec Ideal S100000x64 .f32) (ei : IVec S2x1000000 32) :
    gsU2 h (HostFn.edgeRow0 ei) (HostFn.edgeRow1 ei) = HostFn.gsU h ei := rfl

section Stretch

variable (W : Valuation τ sig (Elt Ideal))

theorem host0_v0 : StableHlo.after hostOps0 W (Proc.devRef .tc main_v0) = HostFn.row64 (W (Proc.devRef .tc main_arg5)) := by
  after_results; rfl
theorem host1_v2 : StableHlo.after hostOps1 W (Proc.devRef .tc main_v2) = HostFn.row64 (W (Proc.devRef .tc main_arg7)) := by
  after_results; rfl

theorem host2_v5 : StableHlo.after hostOps2 W (Proc.devRef .tc main_v5) = HostFn.edgeRow0 (W (Proc.devRef .tc main_arg2)) := by
  after_results_simp; rfl
theorem host2_v7 : StableHlo.after hostOps2 W (Proc.devRef .tc main_v7) = HostFn.edgeRow1 (W (Proc.devRef .tc main_arg2)) := by
  after_results_simp; rfl
theorem host2_v9 : StableHlo.after hostOps2 W (Proc.devRef .tc main_v9) = HostFn.edgeRow0 (W (Proc.devRef .tc main_arg3)) := by
  after_results_simp; rfl
theorem host2_v11 : StableHlo.after hostOps2 W (Proc.devRef .tc main_v11) = HostFn.edgeRow1 (W (Proc.devRef .tc main_arg3)) := by
  after_results_simp; rfl
theorem host2_v24 : StableHlo.after hostOps2 W (Proc.devRef .tc main_v24) = HostFn.invColI (HostFn.degI (W (Proc.devRef .tc main_arg2))) := by
  after_results_simp; rfl
theorem host2_v29 : StableHlo.after hostOps2 W (Proc.devRef .tc main_v29) = HostFn.invColU (HostFn.degU (W (Proc.devRef .tc main_arg3))) := by
  after_results_simp; rfl
theorem host2_v39 : StableHlo.after hostOps2 W (Proc.devRef .tc main_v39)
    = HostFn.gsI (W (Proc.devRef .tc main_v1)) (W (Proc.devRef .tc main_arg2)) := by
  after_results_simp; rfl
theorem host2_v49 : StableHlo.after hostOps2 W (Proc.devRef .tc main_v49)
    = HostFn.gsU (W (Proc.devRef .tc main_v3)) (W (Proc.devRef .tc main_arg3)) := by
  after_results_simp; rfl
theorem host2_v50 : StableHlo.after hostOps2 W (Proc.devRef .tc main_v50) = HostFn.row64 (W (Proc.devRef .tc main_arg9)) := by
  after_results_simp; rfl
theorem host2_v57 : StableHlo.after hostOps2 W (Proc.devRef .tc main_v57) = HostFn.aug (W (Proc.devRef .tc main_arg10)) := by
  after_results_simp; rfl

theorem host3_v59 : StableHlo.after hostOps3 W (Proc.devRef .tc main_v59) = HostFn.row64 (W (Proc.devRef .tc main_arg12)) := by
  after_results_simp; rfl
theorem host3_v66 : StableHlo.after hostOps3 W (Proc.devRef .tc main_v66) = HostFn.aug (W (Proc.devRef .tc main_arg13)) := by
  after_results_simp; rfl

theorem host4_v77 : StableHlo.after hostOps4 W (Proc.devRef .tc main_v77)
    = gsI2 (W (Proc.devRef .tc main_v67)) (W (Proc.devRef .tc main_v5)) (W (Proc.devRef .tc main_v7)) := by
  after_results_simp; rfl
theorem host4_v87 : StableHlo.after hostOps4 W (Proc.devRef .tc main_v87)
    = gsU2 (W (Proc.devRef .tc main_v58)) (W (Proc.devRef .tc main_v9)) (W (Proc.devRef .tc main_v11)) := by
  after_results_simp; rfl
theorem host4_v88 : StableHlo.after hostOps4 W (Proc.devRef .tc main_v88) = HostFn.row64 (W (Proc.devRef .tc main_arg15)) := by
  after_results_simp; rfl
theorem host4_v89 : StableHlo.after hostOps4 W (Proc.devRef .tc main_v89) = HostFn.row32 (W (Proc.devRef .tc main_arg23)) := by
  after_results_simp; rfl
theorem host4_v96 : StableHlo.after hostOps4 W (Proc.devRef .tc main_v96) = HostFn.aug (W (Proc.devRef .tc main_arg16)) := by
  after_results_simp; rfl

theorem host5_v98 : StableHlo.after hostOps5 W (Proc.devRef .tc main_v98) = HostFn.row64 (W (Proc.devRef .tc main_arg18)) := by
  after_results_simp; rfl
theorem host5_v99 : StableHlo.after hostOps5 W (Proc.devRef .tc main_v99) = HostFn.row32 (W (Proc.devRef .tc main_arg21)) := by
  after_results_simp; rfl
theorem host5_v106 : StableHlo.after hostOps5 W (Proc.devRef .tc main_v106) = HostFn.aug (W (Proc.devRef .tc main_arg19)) := by
  after_results_simp; rfl

end Stretch

/-! ## Equal operands, equal layers -/

theorem lin_congr {N D : ℕ} {x x' : Cert.Spec.A2 N 64} {w w' : Cert.Spec.A2 D 64} {b b' : Fin D → EReal}
    (hx : x = x') (hw : w = w') (hb : b = b') : Cert.Spec.lin N D x w b = Cert.Spec.lin N D x' w' b' := by
  rw [hx, hw, hb]

theorem convK_congr {N : ℕ} {ms ms' : Cert.Spec.A2 N 64} {inv inv' : Cert.Spec.A2 N 1} {xd xd' : Cert.Spec.A2 N 64}
    {wrel wrel' : Cert.Spec.A2 64 64} {brel brel' : Fin 64 → EReal} {wra wra' : Cert.Spec.A2 64 64}
    (h1 : ms = ms') (h2 : inv = inv') (h3 : xd = xd') (h4 : wrel = wrel') (h5 : brel = brel') (h6 : wra = wra') :
    Cert.Spec.convK N ms inv xd wrel brel wra = Cert.Spec.convK N ms' inv' xd' wrel' brel' wra' := by
  rw [h1, h2, h3, h4, h5, h6]

/-! ## The run, boundary by boundary

The values met on the way are named: the launch contents of an argument, the two feature arrays after the input
layer and the two after the first convolution. -/

/-- The launch contents of a buffer. -/
abbrev L (c : Dev nD) (r : Ref sig .tc) : Buf (Elt Ideal) ((c : Thread nD τ).loc r) := m ((c : Thread nD τ).loc r)

/-- User features after the input layer, of the launch contents. -/
abbrev hU' (c : Dev nD) : FVec Ideal S200000x64 .f32 := HostFn.hU (L m c main_arg0) (L m c main_arg4) (L m c main_arg5)
/-- Item features after the input layer, of the launch contents. -/
abbrev hI' (c : Dev nD) : FVec Ideal S100000x64 .f32 := HostFn.hI (L m c main_arg1) (L m c main_arg6) (L m c main_arg7)
/-- Item features after the first convolution, of the launch contents. -/
abbrev x1I' (c : Dev nD) : FVec Ideal S100000x64 .f32 :=
  HostFn.x1I (L m c main_arg0) (L m c main_arg1) (L m c main_arg2) (L m c main_arg4) (L m c main_arg5) (L m c main_arg6)
    (L m c main_arg7) (L m c main_arg8) (L m c main_arg9) (L m c main_arg10)
/-- User features after the first convolution, of the launch contents. -/
abbrev x1U' (c : Dev nD) : FVec Ideal S200000x64 .f32 :=
  HostFn.x1U (L m c main_arg0) (L m c main_arg1) (L m c main_arg3) (L m c main_arg4) (L m c main_arg5) (L m c main_arg6)
    (L m c main_arg7) (L m c main_arg11) (L m c main_arg12) (L m c main_arg13)

/-! ### The input layers (calls 0 and 1) -/

theorem W1_v0 (c : Dev nD) : W1 m ρ c (Proc.devRef .tc main_v0) = HostFn.row64 (L m c main_arg5) :=
  host0_v0 (W0 m ρ c)

theorem W2_v1 (c : Dev nD) : W2 m ρ c (Proc.devRef .tc main_v1) = hU' m c :=
  (W2_arr m ρ c 3).trans ((Cert.KernelIdeal.Reg0.final0 (V1 m ρ) c).trans
    (lin_congr (kept_W1 m ρ c main_arg0 (by decide)) (kept_W1 m ρ c main_arg4 (by decide))
      (funext fun j => congrFun (W1_v0 m ρ c) (ix2 0 j))))

theorem W3_v2 (c : Dev nD) : W3 m ρ c (Proc.devRef .tc main_v2) = HostFn.row64 (L m c main_arg7) :=
  (host1_v2 (W2 m ρ c)).trans (congrArg HostFn.row64 (kept_W2 m ρ c main_arg7 (by decide)))

theorem W4_v3 (c : Dev nD) : W4 m ρ c (Proc.devRef .tc main_v3) = hI' m c :=
  (W4_arr m ρ c 3).trans ((Cert.KernelIdeal.Reg1.final1 (V3 m ρ) c).trans
    (lin_congr (kept_W3 m ρ c main_arg1 (by decide)) (kept_W3 m ρ c main_arg6 (by decide))
      (funext fun j => congrFun (W3_v2 m ρ c) (ix2 0 j))))

theorem W4_v1 (c : Dev nD) : W4 m ρ c (Proc.devRef .tc main_v1) = hU' m c :=
  (keepR1 m ρ c main_v1 (by decide)).trans ((keepH1 m ρ c main_v1 (by decide)).trans (W2_v1 m ρ c))

/-! ### The stretch before the first convolution -/

theorem W5_v39 (c : Dev nD) : W5 m ρ c (Proc.devRef .tc main_v39) = HostFn.gsI (hU' m c) (L m c main_arg2) :=
  (host2_v39 (W4 m ρ c)).trans (congrArg₂ HostFn.gsI (W4_v1 m ρ c) (kept_W4 m ρ c main_arg2 (by decide)))
theorem W5_v49 (c : Dev nD) : W5 m ρ c (Proc.devRef .tc main_v49) = HostFn.gsU (hI' m c) (L m c main_arg3) :=
  (host2_v49 (W4 m ρ c)).trans (congrArg₂ HostFn.gsU (W4_v3 m ρ c) (kept_W4 m ρ c main_arg3 (by decide)))
theorem W5_v24 (c : Dev nD) : W5 m ρ c (Proc.devRef .tc main_v24) = HostFn.invColI (HostFn.degI (L m c main_arg2)) :=
  (host2_v24 (W4 m ρ c)).trans (congrArg (fun e => HostFn.invColI (HostFn.degI e)) (kept_W4 m ρ c main_arg2 (by decide)))
theorem W5_v29 (c : Dev nD) : W5 m ρ c (Proc.devRef .tc main_v29) = HostFn.invColU (HostFn.degU (L m c main_arg3)) :=
  (host2_v29 (W4 m ρ c)).trans (congrArg (fun e => HostFn.invColU (HostFn.degU e)) (kept_W4 m ρ c main_arg3 (by decide)))
theorem W5_v50 (c : Dev nD) : W5 m ρ c (Proc.devRef .tc main_v50) = HostFn.row64 (L m c main_arg9) :=
  (host2_v50 (W4 m ρ c)).trans (congrArg HostFn.row64 (kept_W4 m ρ c main_arg9 (by decide)))
theorem W5_v57 (c : Dev nD) : W5 m ρ c (Proc.devRef .tc main_v57) = HostFn.aug (L m c main_arg10) :=
  (host2_v57 (W4 m ρ c)).trans (congrArg HostFn.aug (kept_W4 m ρ c main_arg10 (by decide)))
theorem W5_v5 (c : Dev nD) : W5 m ρ c (Proc.devRef .tc main_v5) = HostFn.edgeRow0 (L m c main_arg2) :=
  (host2_v5 (W4 m ρ c)).trans (congrArg HostFn.edgeRow0 (kept_W4 m ρ c main_arg2 (by decide)))
theorem W5_v7 (c : Dev nD) : W5 m ρ c (Proc.devRef .tc main_v7) = HostFn.edgeRow1 (L m c main_arg2) :=
  (host2_v7 (W4 m ρ c)).trans (congrArg HostFn.edgeRow1 (kept_W4 m ρ c main_arg2 (by decide)))
theorem W5_v9 (c : Dev nD) : W5 m ρ c (Proc.devRef .tc main_v9) = HostFn.edgeRow0 (L m c main_arg3) :=
  (host2_v9 (W4 m ρ c)).trans (congrArg HostFn.edgeRow0 (kept_W4 m ρ c main_arg3 (by decide)))
theorem W5_v11 (c : Dev nD) : W5 m ρ c (Proc.devRef .tc main_v11) = HostFn.edgeRow1 (L m c main_arg3) :=
  (host2_v11 (W4 m ρ c)).trans (congrArg HostFn.edgeRow1 (kept_W4 m ρ c main_arg3 (by decide)))
theorem W5_v3 (c : Dev nD) : W5 m ρ c (Proc.devRef .tc main_v3) = hI' m c :=
  (keepH2 m ρ c main_v3 (by decide)).trans (W4_v3 m ρ c)
theorem W5_v1 (c : Dev nD) : W5 m ρ c (Proc.devRef .tc main_v1) = hU' m c :=
  (keepH2 m ρ c main_v1 (by decide)).trans (W4_v1 m ρ c)

/-! ### The first convolution (calls 2 and 3) -/

theorem W6_v58 (c : Dev nD) : W6 m ρ c (Proc.devRef .tc main_v58) = x1I' m c :=
  (W6_arr m ρ c 6).trans ((Cert.KernelIdeal.Reg2.final2 (V5 m ρ) c).trans
    (convK_congr (W5_v39 m ρ c) (W5_v24 m ρ c) (W5_v3 m ρ c) (kept_W5 m ρ c main_arg8 (by decide))
      (funext fun j => congrFun (W5_v50 m ρ c) (ix2 0 j)) (W5_v57 m ρ c)))

theorem W7_v49 (c : Dev nD) : W7 m ρ c (Proc.devRef .tc main_v49) = HostFn.gsU (hI' m c) (L m c main_arg3) :=
  (keepH3 m ρ c main_v49 (by decide)).trans ((keepR2 m ρ c main_v49 (by decide)).trans (W5_v49 m ρ c))
theorem W7_v29 (c : Dev nD) : W7 m ρ c (Proc.devRef .tc main_v29) = HostFn.invColU (HostFn.degU (L m c main_arg3)) :=
  (keepH3 m ρ c main_v29 (by decide)).trans ((keepR2 m ρ c main_v29 (by decide)).trans (W5_v29 m ρ c))
theorem W7_v1 (c : Dev nD) : W7 m ρ c (Proc.devRef .tc main_v1) = hU' m c :=
  (keepH3 m ρ c main_v1 (by decide)).trans ((keepR2 m ρ c main_v1 (by decide)).trans (W5_v1 m ρ c))
theorem W7_v59 (c : Dev nD) : W7 m ρ c (Proc.devRef .tc main_v59) = HostFn.row64 (L m c main_arg12) :=
  (host3_v59 (W6 m ρ c)).trans (congrArg HostFn.row64 (kept_W6 m ρ c main_arg12 (by decide)))
theorem W7_v66 (c : Dev nD) : W7 m ρ c (Proc.devRef .tc main_v66) = HostFn.aug (L m c main_arg13) :=
  (host3_v66 (W6 m ρ c)).trans (congrArg HostFn.aug (kept_W6 m ρ c main_arg13 (by decide)))

theorem W8_v67 (c : Dev nD) : W8 m ρ c (Proc.devRef .tc main_v67) = x1U' m c :=
  (W8_arr m ρ c 6).trans ((Cert.KernelIdeal.Reg3.final3 (V7 m ρ) c).trans
    (convK_congr (W7_v49 m ρ c) (W7_v29 m ρ c) (W7_v1 m ρ c) (kept_W7 m ρ c main_arg11 (by decide))
      (funext fun j => congrFun (W7_v59 m ρ c) (ix2 0 j)) (W7_v66 m ρ c)))

/-! ### What the second convolution reads from before: carried across calls 2 and 3 -/

theorem W8_v58 (c : Dev nD) : W8 m ρ c (Proc.devRef .tc main_v58) = x1I' m c :=
  (keepR3 m ρ c main_v58 (by decide)).trans ((keepH3 m ρ c main_v58 (by decide)).trans (W6_v58 m ρ c))
theorem W8_v5 (c : Dev nD) : W8 m ρ c (Proc.devRef .tc main_v5) = HostFn.edgeRow0 (L m c main_arg2) :=
  (keepR3 m ρ c main_v5 (by decide)).trans ((keepH3 m ρ c main_v5 (by decide)).trans
    ((keepR2 m ρ c main_v5 (by decide)).trans (W5_v5 m ρ c)))
theorem W8_v7 (c : Dev nD) : W8 m ρ c (Proc.devRef .tc main_v7) = HostFn.edgeRow1 (L m c main_arg2) :=
  (keepR3 m ρ c main_v7 (by decide)).trans ((keepH3 m ρ c main_v7 (by decide)).trans
    ((keepR2 m ρ c main_v7 (by decide)).trans (W5_v7 m ρ c)))
theorem W8_v9 (c : Dev nD) : W8 m ρ c (Proc.devRef .tc main_v9) = HostFn.edgeRow0 (L m c main_arg3) :=
  (keepR3 m ρ c main_v9 (by decide)).trans ((keepH3 m ρ c main_v9 (by decide)).trans
    ((keepR2 m ρ c main_v9 (by decide)).trans (W5_v9 m ρ c)))
theorem W8_v11 (c : Dev nD) : W8 m ρ c (Proc.devRef .tc main_v11) = HostFn.edgeRow1 (L m c main_arg3) :=
  (keepR3 m ρ c main_v11 (by decide)).trans ((keepH3 m ρ c main_v11 (by decide)).trans
    ((keepR2 m ρ c main_v11 (by decide)).trans (W5_v11 m ρ c)))
theorem W9_v24 (c : Dev nD) : W9 m ρ c (Proc.devRef .tc main_v24) = HostFn.invColI (HostFn.degI (L m c main_arg2)) :=
  (keepH4 m ρ c main_v24 (by decide)).trans ((keepR3 m ρ c main_v24 (by decide)).trans
    ((keepH3 m ρ c main_v24 (by decide)).trans ((keepR2 m ρ c main_v24 (by decide)).trans (W5_v24 m ρ c))))
theorem W9_v29 (c : Dev nD) : W9 m ρ c (Proc.devRef .tc main_v29) = HostFn.invColU (HostFn.degU (L m c main_arg3)) :=
  (keepH4 m ρ c main_v29 (by decide)).trans ((keepR3 m ρ c main_v29 (by decide)).trans (W7_v29 m ρ c))

/-! ### The stretch before the second convolution -/

theorem W9_v77 (c : Dev nD) : W9 m ρ c (Proc.devRef .tc main_v77) = HostFn.gsI (x1U' m c) (L m c main_arg2) :=
  (host4_v77 (W8 m ρ c)).trans
    ((congr (congr (congrArg gsI2 (W8_v67 m ρ c)) (W8_v5 m ρ c)) (W8_v7 m ρ c)).trans (gsI2_rows _ _))
theorem W9_v87 (c : Dev nD) : W9 m ρ c (Proc.devRef .tc main_v87) = HostFn.gsU (x1I' m c) (L m c main_arg3) :=
  (host4_v87 (W8 m ρ c)).trans
    ((congr (congr (congrArg gsU2 (W8_v58 m ρ c)) (W8_v9 m ρ c)) (W8_v11 m ρ c)).trans (gsU2_rows _ _))
theorem W9_v88 (c : Dev nD) : W9 m ρ c (Proc.devRef .tc main_v88) = HostFn.row64 (L m c main_arg15) :=
  (host4_v88 (W8 m ρ c)).trans (congrArg HostFn.row64 (kept_W8 m ρ c main_arg15 (by decide)))
theorem W9_v89 (c : Dev nD) : W9 m ρ c (Proc.devRef .tc main_v89) = HostFn.row32 (L m c main_arg23) :=
  (host4_v89 (W8 m ρ c)).trans (congrArg HostFn.row32 (kept_W8 m ρ c main_arg23 (by decide)))
theorem W9_v96 (c : Dev nD) : W9 m ρ c (Proc.devRef .tc main_v96) = HostFn.aug (L m c main_arg16) :=
  (host4_v96 (W8 m ρ c)).trans (congrArg HostFn.aug (kept_W8 m ρ c main_arg16 (by decide)))
theorem W9_v58 (c : Dev nD) : W9 m ρ c (Proc.devRef .tc main_v58) = x1I' m c :=
  (keepH4 m ρ c main_v58 (by decide)).trans (W8_v58 m ρ c)
theorem W9_v67 (c : Dev nD) : W9 m ρ c (Proc.devRef .tc main_v67) = x1U' m c :=
  (keepH4 m ρ c main_v67 (by decide)).trans (W8_v67 m ρ c)

/-! ### The second convolution and the output layer (calls 4 and 5) -/

theorem W11_v87 (c : Dev nD) : W11 m ρ c (Proc.devRef .tc main_v87) = HostFn.gsU (x1I' m c) (L m c main_arg3) :=
  (keepH5 m ρ c main_v87 (by decide)).trans ((keepR4 m ρ c main_v87 (by decide)).trans (W9_v87 m ρ c))
theorem W11_v29 (c : Dev nD) : W11 m ρ c (Proc.devRef .tc main_v29) = HostFn.invColU (HostFn.degU (L m c main_arg3)) :=
  (keepH5 m ρ c main_v29 (by decide)).trans ((keepR4 m ρ c main_v29 (by decide)).trans (W9_v29 m ρ c))
theorem W11_v67 (c : Dev nD) : W11 m ρ c (Proc.devRef .tc main_v67) = x1U' m c :=
  (keepH5 m ρ c main_v67 (by decide)).trans ((keepR4 m ρ c main_v67 (by decide)).trans (W9_v67 m ρ c))
theorem W11_v98 (c : Dev nD) : W11 m ρ c (Proc.devRef .tc main_v98) = HostFn.row64 (L m c main_arg18) :=
  (host5_v98 (W10 m ρ c)).trans (congrArg HostFn.row64 (kept_W10 m ρ c main_arg18 (by decide)))
theorem W11_v99 (c : Dev nD) : W11 m ρ c (Proc.devRef .tc main_v99) = HostFn.row32 (L m c main_arg21) :=
  (host5_v99 (W10 m ρ c)).trans (congrArg HostFn.row32 (kept_W10 m ρ c main_arg21 (by decide)))
theorem W11_v106 (c : Dev nD) : W11 m ρ c (Proc.devRef .tc main_v106) = HostFn.aug (L m c main_arg19) :=
  (host5_v106 (W10 m ρ c)).trans (congrArg HostFn.aug (kept_W10 m ρ c main_arg19 (by decide)))

/-- What the user result's buffer holds at the last boundary. -/
theorem val_outU (c : Dev nD) :
    W12 m ρ c (Proc.devRef .tc main_v107)
      = HostFn.outU (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) := by
  exact (W12_arr m ρ c 8).trans ((Cert.KernelIdeal.Reg5.final5 (V11 m ρ) c).trans
    (lin_congr (convK_congr (W11_v87 m ρ c) (W11_v29 m ρ c) (W11_v67 m ρ c) (kept_W11 m ρ c main_arg17 (by decide))
      (funext fun j => congrFun (W11_v98 m ρ c) (ix2 0 j)) (W11_v106 m ρ c)) (kept_W11 m ρ c main_arg20 (by decide))
      (funext fun j => congrFun (W11_v99 m ρ c) (ix2 0 j))))

/-- What the item result's buffer holds at the last boundary. -/
theorem val_outI (c : Dev nD) :
    W12 m ρ c (Proc.devRef .tc main_v97)
      = HostFn.outI (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) := by
  exact (keepR5 m ρ c main_v97 (by decide)).trans ((keepH5 m ρ c main_v97 (by decide)).trans
    ((W10_arr m ρ c 8).trans ((Cert.KernelIdeal.Reg4.final4 (V9 m ρ) c).trans
      (lin_congr (convK_congr (W9_v77 m ρ c) (W9_v24 m ρ c) (W9_v58 m ρ c) (kept_W9 m ρ c main_arg14 (by decide))
        (funext fun j => congrFun (W9_v88 m ρ c) (ix2 0 j)) (W9_v96 m ρ c)) (kept_W9 m ρ c main_arg22 (by decide))
        (funext fun j => congrFun (W9_v89 m ρ c) (ix2 0 j))))))

end Cert.KernelIdeal.Chain

end
-- ==== Proof.HostR.lean ====
/-
  The host-side stages the reference shares with the kernel's program — the rows of an edge list, a gather of
  feature rows at the edges' sources followed by a sum at the edges' destinations, the in-degree count — as named
  functions of whole arrays, and the reference's two results as compositions of these stages with the linear
  layer and the reference's spelling of the convolution step.
-/
import proofs.«413055_j9929964388947_3_alg».proof.ReferenceIdeal
import proofs.«413055_j9929964388947_3_alg».proof.Proof.Gen.ReferenceIdeal
import proofs.«413055_j9929964388947_3_alg».proof.Proof.Spec
import Idealize.ShloMosaic.Lib.ValueIdx

noncomputable section

namespace Cert.ReferenceIdeal.HostFn

open Cert.ReferenceIdeal Cert.ReferenceIdeal.Gen Idealize.ShloMosaic Idealize.ShloMosaic.ValueIdx Cert.Spec Cert.LibReal
open scoped BigOperators

/-- Row 0 of an edge list (the source ends) as a flat vector of indices. -/
def edgeRow0 (ei : IVec S2x1000000 32) : IVec S1000000 32 :=
  shapeCast S1000000 (extractStridedSlice S1x1000000 ![0, 0] ei slices_S2x1000000_S1x1000000_0_0) shapeCasts_S1x1000000_S1000000

/-- Row 1 of an edge list (the destination ends) as a flat vector of indices. -/
def edgeRow1 (ei : IVec S2x1000000 32) : IVec S1000000 32 :=
  shapeCast S1000000 (extractStridedSlice S1x1000000 ![1, 0] ei slices_S2x1000000_S1x1000000_1_0) shapeCasts_S1x1000000_S1000000

/-- A flat index vector as a column of one-component index vectors. -/
def col (d : IVec S1000000 32) : IVec S1000000x1 32 :=
  broadcastInDim S1000000x1 ![0] bcast_S1000000_S1000000x1_0 d

/-- Source indices into the 200000 users, a negative one wrapped once by the extent, as a column. -/
def wrapU (s : IVec S1000000 32) : IVec S1000000x1 32 :=
  col (select (cmpi .slt s (broadcastInDim S1000000 ![] bcast_S_S1000000 (constantI S_ 32 0#32)))
    (addi s (broadcastInDim S1000000 ![] bcast_S_S1000000 (constantI S_ 32 200000#32))) s)

/-- Source indices into the 100000 items, a negative one wrapped once by the extent, as a column. -/
def wrapI (s : IVec S1000000 32) : IVec S1000000x1 32 :=
  col (select (cmpi .slt s (broadcastInDim S1000000 ![] bcast_S_S1000000 (constantI S_ 32 0#32)))
    (addi s (broadcastInDim S1000000 ![] bcast_S_S1000000 (constantI S_ 32 100000#32))) s)

/-- Messages into the items: the user rows gathered at the sources of the user-to-item edges, summed at
    the destinations. -/
def gsI (h : FVec Ideal S200000x64 .f32) (ei : IVec S2x1000000 32) : FVec Ideal S100000x64 .f32 :=
  Host.scatterAdd scatter_S100000x64_S1000000x1_S1000000x64_1_0_0_1
    (broadcastInDim S100000x64 ![] bcast_S_S100000x64 (constant (F := Ideal) S_ .f32 0x00000000#32))
    (col (edgeRow1 ei))
    (Host.gather gather_S200000x64_S1000000x1_S1000000x64_1_0_n_n_0_1_164 h (wrapU (edgeRow0 ei)))

/-- Messages into the users: the item rows gathered at the sources of the item-to-user edges, summed at
    the destinations. -/
def gsU (h : FVec Ideal S100000x64 .f32) (ei : IVec S2x1000000 32) : FVec Ideal S200000x64 .f32 :=
  Host.scatterAdd scatter_S200000x64_S1000000x1_S1000000x64_1_0_0_1
    (broadcastInDim S200000x64 ![] bcast_S_S200000x64 (constant (F := Ideal) S_ .f32 0x00000000#32))
    (col (edgeRow1 ei))
    (Host.gather gather_S100000x64_S1000000x1_S1000000x64_1_0_n_n_0_1_164 h (wrapI (edgeRow0 ei)))

/-- In-degrees of the items: ones summed at the destinations of the user-to-item edges. -/
def degI (ei : IVec S2x1000000 32) : FVec Ideal S100000 .f32 :=
  Host.scatterAdd scatter_S100000_S1000000x1_S1000000_n_0_0_1
    (broadcastInDim S100000 ![] bcast_S_S100000 (constant (F := Ideal) S_ .f32 0x00000000#32))
    (col (edgeRow1 ei))
    (broadcastInDim S1000000 ![] bcast_S_S1000000 (constant (F := Ideal) S_ .f32 0x3F800000#32))

/-- In-degrees of the users: ones summed at the destinations of the item-to-user edges. -/
def degU (ei : IVec S2x1000000 32) : FVec Ideal S200000 .f32 :=
  Host.scatterAdd scatter_S200000_S1000000x1_S1000000_n_0_0_1
    (broadcastInDim S200000 ![] bcast_S_S200000 (constant (F := Ideal) S_ .f32 0x00000000#32))
    (col (edgeRow1 ei))
    (broadcastInDim S1000000 ![] bcast_S_S1000000 (constant (F := Ideal) S_ .f32 0x3F800000#32))

/-! ## The reference's values as compositions -/

/-- A vector read as a function of its one coordinate. -/
abbrev vecFn {D : ℕ} (b : (⟨1, ![D]⟩ : Shape).Idx → EReal) : Fin D → EReal := fun j => b (ix1 j)

/-- User features after the input layer. -/
def hU (a0 : FVec Ideal S200000x64 .f32) (a4 : FVec Ideal S64x64 .f32) (a5 : FVec Ideal S64 .f32) : FVec Ideal S200000x64 .f32 := lin 200000 64 a0 a4 (vecFn a5)
/-- Item features after the input layer. -/
def hI (a1 : FVec Ideal S100000x64 .f32) (a6 : FVec Ideal S64x64 .f32) (a7 : FVec Ideal S64 .f32) : FVec Ideal S100000x64 .f32 := lin 100000 64 a1 a6 (vecFn a7)
/-- Item features after the first convolution. -/
def x1I (a0 : FVec Ideal S200000x64 .f32) (a1 : FVec Ideal S100000x64 .f32) (a2 : IVec S2x1000000 32) (a4 : FVec Ideal S64x64 .f32) (a5 : FVec Ideal S64 .f32) (a6 : FVec Ideal S64x64 .f32) (a7 : FVec Ideal S64 .f32) (a8 : FVec Ideal S64x64 .f32) (a9 : FVec Ideal S64 .f32) (a10 : FVec Ideal S64x64 .f32) : FVec Ideal S100000x64 .f32 :=
  convR 100000 (gsI (hU a0 a4 a5) a2) (degI a2) (hI a1 a6 a7) a8 (vecFn a9) a10
/-- User features after the first convolution. -/
def x1U (a0 : FVec Ideal S200000x64 .f32) (a1 : FVec Ideal S100000x64 .f32) (a3 : IVec S2x1000000 32) (a4 : FVec Ideal S64x64 .f32) (a5 : FVec Ideal S64 .f32) (a6 : FVec Ideal S64x64 .f32) (a7 : FVec Ideal S64 .f32) (a11 : FVec Ideal S64x64 .f32) (a12 : FVec Ideal S64 .f32) (a13 : FVec Ideal S64x64 .f32) : FVec Ideal S200000x64 .f32 :=
  convR 200000 (gsU (hI a1 a6 a7) a3) (degU a3) (hU a0 a4 a5) a11 (vecFn a12) a13
/-- The item result, of all twenty-four arguments in the program's order. -/
def outI (a0 : FVec Ideal S200000x64 .f32) (a1 : FVec Ideal S100000x64 .f32) (a2 : IVec S2x1000000 32) (a3 : IVec S2x1000000 32) (a4 : FVec Ideal S64x64 .f32) (a5 : FVec Ideal S64 .f32) (a6 : FVec Ideal S64x64 .f32) (a7 : FVec Ideal S64 .f32) (a8 : FVec Ideal S64x64 .f32) (a9 : FVec Ideal S64 .f32) (a10 : FVec Ideal S64x64 .f32) (a11 : FVec Ideal S64x64 .f32) (a12 : FVec Ideal S64 .f32) (a13 : FVec Ideal S64x64 .f32) (a14 : FVec Ideal S64x64 .f32) (a15 : FVec Ideal S64 .f32) (a16 : FVec Ideal S64x64 .f32) (a17 : FVec Ideal S64x64 .f32) (a18 : FVec Ideal S64 .f32) (a19 : FVec Ideal S64x64 .f32) (a20 : FVec Ideal S32x64 .f32) (a21 : FVec Ideal S32 .f32) (a22 : FVec Ideal S32x64 .f32) (a23 : FVec Ideal S32 .f32) : FVec Ideal S100000x32 .f32 :=
  lin 100000 32 (convR 100000 (gsI (x1U a0 a1 a3 a4 a5 a6 a7 a11 a12 a13) a2) (degI a2) (x1I a0 a1 a2 a4 a5 a6 a7 a8 a9 a10) a14 (vecFn a15) a16)
    a22 (vecFn a23)
/-- The user result, of all twenty-four arguments in the program's order. -/
def outU (a0 : FVec Ideal S200000x64 .f32) (a1 : FVec Ideal S100000x64 .f32) (a2 : IVec S2x1000000 32) (a3 : IVec S2x1000000 32) (a4 : FVec Ideal S64x64 .f32) (a5 : FVec Ideal S64 .f32) (a6 : FVec Ideal S64x64 .f32) (a7 : FVec Ideal S64 .f32) (a8 : FVec Ideal S64x64 .f32) (a9 : FVec Ideal S64 .f32) (a10 : FVec Ideal S64x64 .f32) (a11 : FVec Ideal S64x64 .f32) (a12 : FVec Ideal S64 .f32) (a13 : FVec Ideal S64x64 .f32) (a14 : FVec Ideal S64x64 .f32) (a15 : FVec Ideal S64 .f32) (a16 : FVec Ideal S64x64 .f32) (a17 : FVec Ideal S64x64 .f32) (a18 : FVec Ideal S64 .f32) (a19 : FVec Ideal S64x64 .f32) (a20 : FVec Ideal S32x64 .f32) (a21 : FVec Ideal S32 .f32) (a22 : FVec Ideal S32x64 .f32) (a23 : FVec Ideal S32 .f32) : FVec Ideal S200000x32 .f32 :=
  lin 200000 32 (convR 200000 (gsU (x1I a0 a1 a2 a4 a5 a6 a7 a8 a9 a10) a3) (degU a3) (x1U a0 a1 a3 a4 a5 a6 a7 a11 a12 a13) a17 (vecFn a18) a19)
    a20 (vecFn a21)

end Cert.ReferenceIdeal.HostFn

end
-- ==== Proof.RefHost.lean ====
/-
  The reference's gathers, destination sums and degree counts are the shared host stages, literally: each of its
  message arrays is `gsI` / `gsU` of the features it gathers from and the edge list, each of its degree arrays is
  `degI` / `degU` of the edge list. Beside them, three small facts for reading a stage at an index: two indices
  with equal coordinates are equal, and the linear layer and the reference's convolution step at an index from
  their parts.
-/
import proofs.«413055_j9929964388947_3_alg».proof.Proof.Gen.ReferenceIdeal.Read
import proofs.«413055_j9929964388947_3_alg».proof.Proof.HostR
import proofs.«413055_j9929964388947_3_alg».proof.Proof.Spec
import Idealize.ShloMosaic.Lib.IdealHost

noncomputable section

namespace Cert.ReferenceIdeal.RefHost

open Cert.ReferenceIdeal Cert.ReferenceIdeal.Gen Cert.ReferenceIdeal.Read Idealize.ShloMosaic
open Idealize.ShloMosaic.ValueIdx Cert.Spec
open scoped BigOperators

/-! ## Indices and the two row-wise maps at an index -/

/-- Two rank-2 indices with equal coordinates are equal. -/
theorem ix2_ext {n0 n1 : ℕ} (p q : (⟨2, ![n0, n1]⟩ : Shape).Idx) (h0 : p 0 = q 0) (h1 : p 1 = q 1) : p = q := by
  funext a; match a with | ⟨0, _⟩ => exact h0 | ⟨1, _⟩ => exact h1

/-- Two rank-1 indices with equal coordinates are equal. -/
theorem ix1_ext {n : ℕ} (p q : (⟨1, ![n]⟩ : Shape).Idx) (h0 : p 0 = q 0) : p = q := by
  funext a; match a with | ⟨0, _⟩ => exact h0

/-- The linear layer at an index, from a sum and a bias that are its parts. -/
theorem lin_point {N D : ℕ} (x : A2 N 64) (w : A2 D 64) (b : Fin D → EReal) (i : (⟨2, ![N, D]⟩ : Shape).Idx)
    (S c : EReal) (hS : S = ∑ k : Fin 64, x (ix2 (i 0) k) * w (ix2 (i 1) k)) (hc : c = b (i 1)) :
    S + c = lin N D x w b i := by
  subst hS hc; rfl

/-- The reference's convolution step at an index, from the two sums, the bias and the residual that are its parts. -/
theorem convR_point {N : ℕ} (ms : A2 N 64) (dg : A1 N) (xd : A2 N 64) (wrel : A2 64 64) (brel : Fin 64 → EReal)
    (wroot : A2 64 64) (i : (⟨2, ![N, 64]⟩ : Shape).Idx) (S1 b S2 x : EReal)
    (h1 : S1 = ∑ k : Fin 64, Ideal.div (ms (ix2 (i 0) k)) (max (dg (ix1 (i 0))) 1) * wrel (ix2 (i 1) k))
    (hb : b = brel (i 1))
    (h2 : S2 = ∑ k : Fin 64, xd (ix2 (i 0) k) * wroot (ix2 (i 1) k))
    (hx : x = xd (ix2 (i 0) (i 1))) :
    max (((S1 + b) + S2) + x) 0 = convR N ms dg xd wrel brel wroot i := by
  subst h1 hb h2 hx; rfl

/-! ## First layer -/

/-- The first layer's messages into the items. -/
theorem gs23 (x0 : FVec Ideal S200000x64 .f32) (x2 : IVec S2x1000000 32) (x4 : FVec Ideal S64x64 .f32) (x5 : FVec Ideal S64 .f32) :
    val_main_v23 (F := Ideal) x0 x2 x4 x5 = HostFn.gsI (val_main_v4 (F := Ideal) x0 x4 x5) x2 := by
  unfold val_main_v23 val_main_v21 val_main_cst val_main_v22 val_main_v20 val_main_v19 val_main_v18 val_main_v17 val_main_v16 val_main_v13 val_main_v11 val_main_v10 val_main_v12 val_main_c val_main_v15 val_main_v14 val_main_c_0
  generalize val_main_v4 (F := Ideal) x0 x4 x5 = h
  unfold HostFn.gsI HostFn.wrapU HostFn.col HostFn.edgeRow0 HostFn.edgeRow1
  rfl

/-- The first layer's item degrees. -/
theorem dg29 (x2 : IVec S2x1000000 32) :
    val_main_v29 (F := Ideal) x2 = HostFn.degI x2 := by
  unfold val_main_v29 val_main_v27 val_main_cst_2 val_main_v28 val_main_v26 val_main_v25 val_main_v24 val_main_cst_1 HostFn.degI HostFn.col HostFn.edgeRow1
  rfl

/-- The first layer's messages into the users. -/
theorem gs56 (x1 : FVec Ideal S100000x64 .f32) (x3 : IVec S2x1000000 32) (x6 : FVec Ideal S64x64 .f32) (x7 : FVec Ideal S64 .f32) :
    val_main_v56 (F := Ideal) x1 x3 x6 x7 = HostFn.gsU (val_main_v9 (F := Ideal) x1 x6 x7) x3 := by
  unfold val_main_v56 val_main_v54 val_main_cst_6 val_main_v55 val_main_v53 val_main_v52 val_main_v51 val_main_v50 val_main_v49 val_main_v46 val_main_v44 val_main_v43 val_main_v45 val_main_c_4 val_main_v48 val_main_v47 val_main_c_5
  generalize val_main_v9 (F := Ideal) x1 x6 x7 = h
  unfold HostFn.gsU HostFn.wrapI HostFn.col HostFn.edgeRow0 HostFn.edgeRow1
  rfl

/-- The first layer's user degrees. -/
theorem dg62 (x3 : IVec S2x1000000 32) :
    val_main_v62 (F := Ideal) x3 = HostFn.degU x3 := by
  unfold val_main_v62 val_main_v60 val_main_cst_8 val_main_v61 val_main_v59 val_main_v58 val_main_v57 val_main_cst_7 HostFn.degU HostFn.col HostFn.edgeRow1
  rfl

/-! ## Second layer -/

/-- The second layer's messages into the items. -/
theorem gs93 (x0 : FVec Ideal S200000x64 .f32) (x1 : FVec Ideal S100000x64 .f32) (x2 : IVec S2x1000000 32) (x3 : IVec S2x1000000 32) (x4 : FVec Ideal S64x64 .f32) (x5 : FVec Ideal S64 .f32) (x6 : FVec Ideal S64x64 .f32) (x7 : FVec Ideal S64 .f32) (x11 : FVec Ideal S64x64 .f32) (x12 : FVec Ideal S64 .f32) (x13 : FVec Ideal S64x64 .f32) :
    val_main_v93 (F := Ideal) x0 x1 x2 x3 x4 x5 x6 x7 x11 x12 x13 = HostFn.gsI (val_main_v77 (F := Ideal) x0 x1 x3 x4 x5 x6 x7 x11 x12 x13) x2 := by
  unfold val_main_v93 val_main_v91 val_main_cst_12 val_main_v92 val_main_v90 val_main_v89 val_main_v88 val_main_v87 val_main_v86 val_main_v83 val_main_v81 val_main_v80 val_main_v82 val_main_c_10 val_main_v85 val_main_v84 val_main_c_11
  generalize val_main_v77 (F := Ideal) x0 x1 x3 x4 x5 x6 x7 x11 x12 x13 = h
  unfold HostFn.gsI HostFn.wrapU HostFn.col HostFn.edgeRow0 HostFn.edgeRow1
  rfl

/-- The second layer's item degrees. -/
theorem dg99 (x2 : IVec S2x1000000 32) :
    val_main_v99 (F := Ideal) x2 = HostFn.degI x2 := by
  unfold val_main_v99 val_main_v97 val_main_cst_14 val_main_v98 val_main_v96 val_main_v95 val_main_v94 val_main_cst_13 HostFn.degI HostFn.col HostFn.edgeRow1
  rfl

/-- The second layer's messages into the users. -/
theorem gs126 (x0 : FVec Ideal S200000x64 .f32) (x1 : FVec Ideal S100000x64 .f32) (x2 : IVec S2x1000000 32) (x3 : IVec S2x1000000 32) (x4 : FVec Ideal S64x64 .f32) (x5 : FVec Ideal S64 .f32) (x6 : FVec Ideal S64x64 .f32) (x7 : FVec Ideal S64 .f32) (x8 : FVec Ideal S64x64 .f32) (x9 : FVec Ideal S64 .f32) (x10 : FVec Ideal S64x64 .f32) :
    val_main_v126 (F := Ideal) x0 x1 x2 x3 x4 x5 x6 x7 x8 x9 x10 = HostFn.gsU (val_main_v79 (F := Ideal) x0 x1 x2 x4 x5 x6 x7 x8 x9 x10) x3 := by
  unfold val_main_v126 val_main_v124 val_main_cst_18 val_main_v125 val_main_v123 val_main_v122 val_main_v121 val_main_v120 val_main_v119 val_main_v116 val_main_v114 val_main_v113 val_main_v115 val_main_c_16 val_main_v118 val_main_v117 val_main_c_17
  generalize val_main_v79 (F := Ideal) x0 x1 x2 x4 x5 x6 x7 x8 x9 x10 = h
  unfold HostFn.gsU HostFn.wrapI HostFn.col HostFn.edgeRow0 HostFn.edgeRow1
  rfl

/-- The second layer's user degrees. -/
theorem dg132 (x3 : IVec S2x1000000 32) :
    val_main_v132 (F := Ideal) x3 = HostFn.degU x3 := by
  unfold val_main_v132 val_main_v130 val_main_cst_20 val_main_v131 val_main_v129 val_main_v128 val_main_v127 val_main_cst_19 HostFn.degU HostFn.col HostFn.edgeRow1
  rfl

end Cert.ReferenceIdeal.RefHost

end
-- ==== Proof.RefStage.lean ====
/-
  The reference's first layer read as compositions: its two input layers are the linear layer `lin` of the
  features, weights and bias, and its two first convolutions are the reference's spelling `convR` of the step on
  the shared host stages' messages and degrees. Each stage is read at an index from the operations' index
  lemmas and met with the map's value at that index.
-/
import proofs.«413055_j9929964388947_3_alg».proof.Proof.RefHost

noncomputable section

namespace Cert.ReferenceIdeal.RefStage

open Cert.ReferenceIdeal Cert.ReferenceIdeal.Gen Cert.ReferenceIdeal.Read Cert.ReferenceIdeal.RefHost Idealize.ShloMosaic
open Idealize.ShloMosaic.ValueIdx Cert.Spec
open scoped BigOperators

/-- The users' input layer. -/
theorem l4 (x0 : FVec Ideal S200000x64 .f32) (x4 : FVec Ideal S64x64 .f32) (x5 : FVec Ideal S64 .f32) :
    val_main_v4 (F := Ideal) x0 x4 x5 = lin 200000 64 x0 x4 (HostFn.vecFn x5) := by
  funext i
  rw [val_main_v4_apply, val_main_v1_apply, val_main_v3_apply, val_main_v2_apply, Ideal.addf_def]
  have el : ∀ k : Fin 64, lidx_main_v1 i k = ix2 (i 0) k := fun k => ix2_ext _ _ rfl rfl
  have er : ∀ k : Fin 64, idx_main_v0 (ridx_main_v1 i k) = ix2 (i 1) k := fun k => ix2_ext _ _ rfl rfl
  refine lin_point _ _ _ i _ _ (Finset.sum_congr rfl fun k _ => ?_) ?_
  · rewrite [val_main_v0_apply, el k, er k]
    rfl
  · exact congrArg x5 (ix1_ext _ _ rfl)

/-- The items' input layer. -/
theorem l9 (x1 : FVec Ideal S100000x64 .f32) (x6 : FVec Ideal S64x64 .f32) (x7 : FVec Ideal S64 .f32) :
    val_main_v9 (F := Ideal) x1 x6 x7 = lin 100000 64 x1 x6 (HostFn.vecFn x7) := by
  funext i
  rw [val_main_v9_apply, val_main_v6_apply, val_main_v8_apply, val_main_v7_apply, Ideal.addf_def]
  have el : ∀ k : Fin 64, lidx_main_v6 i k = ix2 (i 0) k := fun k => ix2_ext _ _ rfl rfl
  have er : ∀ k : Fin 64, idx_main_v5 (ridx_main_v6 i k) = ix2 (i 1) k := fun k => ix2_ext _ _ rfl rfl
  refine lin_point _ _ _ i _ _ (Finset.sum_congr rfl fun k _ => ?_) ?_
  · rewrite [val_main_v5_apply, el k, er k]
    rfl
  · exact congrArg x7 (ix1_ext _ _ rfl)

/-- The users' input layer is the named one. -/
theorem hU_eq (x0 : FVec Ideal S200000x64 .f32) (x4 : FVec Ideal S64x64 .f32) (x5 : FVec Ideal S64 .f32) : val_main_v4 (F := Ideal) x0 x4 x5 = HostFn.hU x0 x4 x5 := l4 x0 x4 x5
/-- The items' input layer is the named one. -/
theorem hI_eq (x1 : FVec Ideal S100000x64 .f32) (x6 : FVec Ideal S64x64 .f32) (x7 : FVec Ideal S64 .f32) : val_main_v9 (F := Ideal) x1 x6 x7 = HostFn.hI x1 x6 x7 := l9 x1 x6 x7
/-- The first convolution for the items is the reference's spelling of the step. -/
theorem c79 (x0 : FVec Ideal S200000x64 .f32) (x1 : FVec Ideal S100000x64 .f32) (x2 : IVec S2x1000000 32) (x4 : FVec Ideal S64x64 .f32) (x5 : FVec Ideal S64 .f32) (x6 : FVec Ideal S64x64 .f32) (x7 : FVec Ideal S64 .f32) (x8 : FVec Ideal S64x64 .f32) (x9 : FVec Ideal S64 .f32) (x10 : FVec Ideal S64x64 .f32) :
    val_main_v79 (F := Ideal) x0 x1 x2 x4 x5 x6 x7 x8 x9 x10 = convR 100000 (val_main_v23 (F := Ideal) x0 x2 x4 x5) (val_main_v29 (F := Ideal) x2) (val_main_v9 (F := Ideal) x1 x6 x7) x8 (HostFn.vecFn x9) x10 := by
  funext i
  rw [val_main_v79_apply, val_main_v78_apply, val_main_v42_apply, val_main_v39_apply, val_main_v36_apply, val_main_v41_apply, val_main_v38_apply, val_main_v37_apply, val_main_call1_v0_apply, val_main_call1_cst_apply]
  rw [Ideal.maximumf_def, Ideal.addf_def, Ideal.addf_def, Ideal.addf_def, Ideal.ofBits_def, Ideal.ofBits_zero_f32]
  have el1 : ∀ k : Fin 64, lidx_main_v36 i k = ix2 (i 0) k := fun k => ix2_ext _ _ rfl rfl
  have ed1 : ∀ k : Fin 64, idx_main_v32 (idx_main_v33 (lidx_main_v36 i k)) = ix1 (i 0) := fun k => ix1_ext _ _ rfl
  have er1 : ∀ k : Fin 64, idx_main_v35 (ridx_main_v36 i k) = ix2 (i 1) k := fun k => ix2_ext _ _ rfl rfl
  have el2 : ∀ k : Fin 64, lidx_main_v41 i k = ix2 (i 0) k := fun k => ix2_ext _ _ rfl rfl
  have er2 : ∀ k : Fin 64, idx_main_v40 (ridx_main_v41 i k) = ix2 (i 1) k := fun k => ix2_ext _ _ rfl rfl
  refine convR_point _ _ _ _ _ _ i _ _ _ _ (Finset.sum_congr rfl fun k _ => ?_) ?_ (Finset.sum_congr rfl fun k _ => ?_) ?_
  · rewrite [val_main_v34_apply, val_main_v33_apply, val_main_v32_apply, val_main_v31_apply, val_main_v30_apply, val_main_cst_3_apply, val_main_v35_apply, Ideal.hostDivf_def, Ideal.maximumf_def, Ideal.ofBits_def,
      Ideal.ofBits_one_f32, ed1 k, el1 k, er1 k]
    rfl
  · exact congrArg x9 (ix1_ext _ _ rfl)
  · rewrite [val_main_v40_apply, el2 k, er2 k]
    rfl
  · exact congrArg (val_main_v9 (F := Ideal) x1 x6 x7) (eq_ix2 i)

/-- The first convolution for the users is the reference's spelling of the step. -/
theorem c77 (x0 : FVec Ideal S200000x64 .f32) (x1 : FVec Ideal S100000x64 .f32) (x3 : IVec S2x1000000 32) (x4 : FVec Ideal S64x64 .f32) (x5 : FVec Ideal S64 .f32) (x6 : FVec Ideal S64x64 .f32) (x7 : FVec Ideal S64 .f32) (x11 : FVec Ideal S64x64 .f32) (x12 : FVec Ideal S64 .f32) (x13 : FVec Ideal S64x64 .f32) :
    val_main_v77 (F := Ideal) x0 x1 x3 x4 x5 x6 x7 x11 x12 x13 = convR 200000 (val_main_v56 (F := Ideal) x1 x3 x6 x7) (val_main_v62 (F := Ideal) x3) (val_main_v4 (F := Ideal) x0 x4 x5) x11 (HostFn.vecFn x12) x13 := by
  funext i
  rw [val_main_v77_apply, val_main_v76_apply, val_main_v75_apply, val_main_v72_apply, val_main_v69_apply, val_main_v74_apply, val_main_v71_apply, val_main_v70_apply, val_main_call0_v0_apply, val_main_call0_cst_apply]
  rw [Ideal.maximumf_def, Ideal.addf_def, Ideal.addf_def, Ideal.addf_def, Ideal.ofBits_def, Ideal.ofBits_zero_f32]
  have el1 : ∀ k : Fin 64, lidx_main_v69 i k = ix2 (i 0) k := fun k => ix2_ext _ _ rfl rfl
  have ed1 : ∀ k : Fin 64, idx_main_v65 (idx_main_v66 (lidx_main_v69 i k)) = ix1 (i 0) := fun k => ix1_ext _ _ rfl
  have er1 : ∀ k : Fin 64, idx_main_v68 (ridx_main_v69 i k) = ix2 (i 1) k := fun k => ix2_ext _ _ rfl rfl
  have el2 : ∀ k : Fin 64, lidx_main_v74 i k = ix2 (i 0) k := fun k => ix2_ext _ _ rfl rfl
  have er2 : ∀ k : Fin 64, idx_main_v73 (ridx_main_v74 i k) = ix2 (i 1) k := fun k => ix2_ext _ _ rfl rfl
  refine convR_point _ _ _ _ _ _ i _ _ _ _ (Finset.sum_congr rfl fun k _ => ?_) ?_ (Finset.sum_congr rfl fun k _ => ?_) ?_
  · rewrite [val_main_v67_apply, val_main_v66_apply, val_main_v65_apply, val_main_v64_apply, val_main_v63_apply, val_main_cst_9_apply, val_main_v68_apply, Ideal.hostDivf_def, Ideal.maximumf_def, Ideal.ofBits_def,
      Ideal.ofBits_one_f32, ed1 k, el1 k, er1 k]
    rfl
  · exact congrArg x12 (ix1_ext _ _ rfl)
  · rewrite [val_main_v73_apply, el2 k, er2 k]
    rfl
  · exact congrArg (val_main_v4 (F := Ideal) x0 x4 x5) (eq_ix2 i)

/-- Item features after the first convolution. -/
theorem x1I_eq (x0 : FVec Ideal S200000x64 .f32) (x1 : FVec Ideal S100000x64 .f32) (x2 : IVec S2x1000000 32) (x4 : FVec Ideal S64x64 .f32) (x5 : FVec Ideal S64 .f32) (x6 : FVec Ideal S64x64 .f32) (x7 : FVec Ideal S64 .f32) (x8 : FVec Ideal S64x64 .f32) (x9 : FVec Ideal S64 .f32) (x10 : FVec Ideal S64x64 .f32) : val_main_v79 (F := Ideal) x0 x1 x2 x4 x5 x6 x7 x8 x9 x10 = HostFn.x1I x0 x1 x2 x4 x5 x6 x7 x8 x9 x10 := by
  unfold HostFn.x1I
  rw [c79, gs23, dg29, hU_eq, hI_eq]
/-- User features after the first convolution. -/
theorem x1U_eq (x0 : FVec Ideal S200000x64 .f32) (x1 : FVec Ideal S100000x64 .f32) (x3 : IVec S2x1000000 32) (x4 : FVec Ideal S64x64 .f32) (x5 : FVec Ideal S64 .f32) (x6 : FVec Ideal S64x64 .f32) (x7 : FVec Ideal S64 .f32) (x11 : FVec Ideal S64x64 .f32) (x12 : FVec Ideal S64 .f32) (x13 : FVec Ideal S64x64 .f32) : val_main_v77 (F := Ideal) x0 x1 x3 x4 x5 x6 x7 x11 x12 x13 = HostFn.x1U x0 x1 x3 x4 x5 x6 x7 x11 x12 x13 := by
  unfold HostFn.x1U
  rw [c77, gs56, dg62, hI_eq, hU_eq]

end Cert.ReferenceIdeal.RefStage

end
-- ==== Proof.RefOutI.lean ====
/-
  The reference's item result read as a composition of whole-array functions: the item features after the second
  convolution are the reference's convolution step of the second layer's messages, degrees and first-layer
  features, and the result is the output linear layer of them.
-/
import proofs.«413055_j9929964388947_3_alg».proof.Proof.RefHost
import proofs.«413055_j9929964388947_3_alg».proof.Proof.RefStage

noncomputable section

namespace Cert.ReferenceIdeal.RefOutI

open Cert.ReferenceIdeal Cert.ReferenceIdeal.Gen Cert.ReferenceIdeal.Read Cert.ReferenceIdeal.RefHost Cert.ReferenceIdeal.RefStage Idealize.ShloMosaic
open Idealize.ShloMosaic.ValueIdx Cert.Spec
open scoped BigOperators

/-! ## Indices: a stage's operand index is the result index's row or column paired with the summed feature -/

theorem lidx106 (i : S100000x64.Idx) (k : Fin 64) : lidx_main_v106 i k = ix2 (i 0) k := ix2_ext _ _ rfl rfl
theorem ridx106 (i : S100000x64.Idx) (k : Fin 64) : idx_main_v105 (ridx_main_v106 i k) = ix2 (i 1) k := ix2_ext _ _ rfl rfl
theorem didx106 (i : S100000x64.Idx) (k : Fin 64) : idx_main_v102 (idx_main_v103 (lidx_main_v106 i k)) = ix1 (i 0) := ix1_ext _ _ rfl
theorem bidx108 (i : S100000x64.Idx) : idx_main_v107 (idx_main_v108 i) = ix1 (i 1) := ix1_ext _ _ rfl
theorem lidx111 (i : S100000x64.Idx) (k : Fin 64) : lidx_main_v111 i k = ix2 (i 0) k := ix2_ext _ _ rfl rfl
theorem ridx111 (i : S100000x64.Idx) (k : Fin 64) : idx_main_v110 (ridx_main_v111 i k) = ix2 (i 1) k := ix2_ext _ _ rfl rfl
theorem lidx156 (i : S100000x32.Idx) (k : Fin 64) : lidx_main_v156 i k = ix2 (i 0) k := ix2_ext _ _ rfl rfl
theorem ridx156 (i : S100000x32.Idx) (k : Fin 64) : idx_main_v155 (ridx_main_v156 i k) = ix2 (i 1) k := ix2_ext _ _ rfl rfl
theorem bidx158 (i : S100000x32.Idx) : idx_main_v157 (idx_main_v158 i) = ix1 (i 1) := ix1_ext _ _ rfl

/-! ## The second convolution step for the items -/

/-- Item features after the second convolution: the reference's convolution step of the second layer's messages
    into the items, the item degrees and the item features after the first convolution. -/
theorem x2I_eq (x0 : FVec Ideal S200000x64 .f32) (x1 : FVec Ideal S100000x64 .f32) (x2 x3 : IVec S2x1000000 32) (x4 : FVec Ideal S64x64 .f32) (x5 : FVec Ideal S64 .f32) (x6 : FVec Ideal S64x64 .f32) (x7 : FVec Ideal S64 .f32) (x8 : FVec Ideal S64x64 .f32) (x9 : FVec Ideal S64 .f32) (x10 x11 : FVec Ideal S64x64 .f32) (x12 : FVec Ideal S64 .f32) (x13 x14 : FVec Ideal S64x64 .f32) (x15 : FVec Ideal S64 .f32) (x16 : FVec Ideal S64x64 .f32) :
    val_main_v149 (F := Ideal) x0 x1 x2 x3 x4 x5 x6 x7 x8 x9 x10 x11 x12 x13 x14 x15 x16
      = convR 100000 (HostFn.gsI (HostFn.x1U x0 x1 x3 x4 x5 x6 x7 x11 x12 x13) x2) (HostFn.degI x2)
          (HostFn.x1I x0 x1 x2 x4 x5 x6 x7 x8 x9 x10) x14 (HostFn.vecFn x15) x16 := by
  funext i
  rw [val_main_v149_apply, val_main_v148_apply, val_main_call3_v0_apply, val_main_call3_cst_apply, Ideal.ofBits_def,
    Ideal.ofBits_zero_f32, Ideal.maximumf_def, Ideal.addf_def, val_main_v112_apply, Ideal.addf_def, val_main_v109_apply,
    Ideal.addf_def, val_main_v106_apply, val_main_v111_apply, val_main_v108_apply, val_main_v107_apply, x1I_eq]
  refine convR_point _ _ _ _ _ _ i _ _ _ _ (Finset.sum_congr rfl fun k _ => ?_) ?_ (Finset.sum_congr rfl fun k _ => ?_) ?_
  · rw [val_main_v104_apply, Ideal.hostDivf_def, val_main_v103_apply, val_main_v102_apply, val_main_v101_apply,
      Ideal.maximumf_def, val_main_v100_apply, val_main_cst_15_apply, Ideal.ofBits_def, Ideal.ofBits_one_f32,
      val_main_v105_apply, gs93, dg99, x1U_eq]
    rewrite [didx106, lidx106, ridx106]
    generalize HostFn.gsI (HostFn.x1U x0 x1 x3 x4 x5 x6 x7 x11 x12 x13) x2 = ms
    generalize HostFn.degI x2 = dg
    rfl
  · rewrite [bidx108]; rfl
  · rw [val_main_v110_apply]
    rewrite [lidx111, ridx111]
    generalize HostFn.x1I x0 x1 x2 x4 x5 x6 x7 x8 x9 x10 = xd
    rfl
  · exact congrArg (HostFn.x1I x0 x1 x2 x4 x5 x6 x7 x8 x9 x10) (eq_ix2 i)

/-! ## The item result -/

/-- The output layer for the items, over the item features after the second convolution. -/
theorem l159 (x0 : FVec Ideal S200000x64 .f32) (x1 : FVec Ideal S100000x64 .f32) (x2 x3 : IVec S2x1000000 32) (x4 : FVec Ideal S64x64 .f32) (x5 : FVec Ideal S64 .f32) (x6 : FVec Ideal S64x64 .f32) (x7 : FVec Ideal S64 .f32) (x8 : FVec Ideal S64x64 .f32) (x9 : FVec Ideal S64 .f32) (x10 x11 : FVec Ideal S64x64 .f32) (x12 : FVec Ideal S64 .f32) (x13 x14 : FVec Ideal S64x64 .f32) (x15 : FVec Ideal S64 .f32) (x16 : FVec Ideal S64x64 .f32) (x22 : FVec Ideal S32x64 .f32) (x23 : FVec Ideal S32 .f32) :
    val_main_v159 (F := Ideal) x0 x1 x2 x3 x4 x5 x6 x7 x8 x9 x10 x11 x12 x13 x14 x15 x16 x22 x23
      = lin 100000 32 (val_main_v149 (F := Ideal) x0 x1 x2 x3 x4 x5 x6 x7 x8 x9 x10 x11 x12 x13 x14 x15 x16) x22 (HostFn.vecFn x23) := by
  funext i
  rw [val_main_v159_apply, Ideal.addf_def, val_main_v156_apply, val_main_v158_apply, val_main_v157_apply]
  generalize val_main_v149 (F := Ideal) x0 x1 x2 x3 x4 x5 x6 x7 x8 x9 x10 x11 x12 x13 x14 x15 x16 = C
  refine lin_point _ _ _ i _ _ (Finset.sum_congr rfl fun k _ => ?_) ?_
  · rw [val_main_v155_apply]
    rewrite [lidx156, ridx156]
    rfl
  · rewrite [bidx158]; rfl

/-- The reference's item result is the output layer of the item features after the second convolution. -/
theorem outI_eq (x0 : FVec Ideal S200000x64 .f32) (x1 : FVec Ideal S100000x64 .f32) (x2 x3 : IVec S2x1000000 32) (x4 : FVec Ideal S64x64 .f32) (x5 : FVec Ideal S64 .f32) (x6 : FVec Ideal S64x64 .f32) (x7 : FVec Ideal S64 .f32) (x8 : FVec Ideal S64x64 .f32) (x9 : FVec Ideal S64 .f32) (x10 x11 : FVec Ideal S64x64 .f32) (x12 : FVec Ideal S64 .f32) (x13 x14 : FVec Ideal S64x64 .f32) (x15 : FVec Ideal S64 .f32) (x16 x17 : FVec Ideal S64x64 .f32) (x18 : FVec Ideal S64 .f32) (x19 : FVec Ideal S64x64 .f32) (x20 : FVec Ideal S32x64 .f32) (x21 : FVec Ideal S32 .f32) (x22 : FVec Ideal S32x64 .f32) (x23 : FVec Ideal S32 .f32) :
    val_main_v159 (F := Ideal) x0 x1 x2 x3 x4 x5 x6 x7 x8 x9 x10 x11 x12 x13 x14 x15 x16 x22 x23
      = HostFn.outI x0 x1 x2 x3 x4 x5 x6 x7 x8 x9 x10 x11 x12 x13 x14 x15 x16 x17 x18 x19 x20 x21 x22 x23 :=
  (l159 x0 x1 x2 x3 x4 x5 x6 x7 x8 x9 x10 x11 x12 x13 x14 x15 x16 x22 x23).trans
    (congrArg (fun C => lin 100000 32 C x22 (HostFn.vecFn x23)) (x2I_eq x0 x1 x2 x3 x4 x5 x6 x7 x8 x9 x10 x11 x12 x13 x14 x15 x16))

end Cert.ReferenceIdeal.RefOutI

end
-- ==== Proof.RefOutU.lean ====
/-
  The reference's user result read as a composition of whole-array functions: the users' features after the
  second convolution step are the reference's spelling of the step on the messages gathered from the items'
  first-step features and summed at the users, the users' in-degrees and the users' first-step features; the
  result is the output layer on those features.
-/
import proofs.«413055_j9929964388947_3_alg».proof.Proof.RefHost
import proofs.«413055_j9929964388947_3_alg».proof.Proof.RefStage

noncomputable section

namespace Cert.ReferenceIdeal.RefOutU

open Cert.ReferenceIdeal Cert.ReferenceIdeal.Gen Cert.ReferenceIdeal.Read Idealize.ShloMosaic
open Idealize.ShloMosaic.ValueIdx Cert.Spec Cert.ReferenceIdeal.RefHost
open scoped BigOperators

/-- The users' features after the second convolution step: the reference's spelling of the step on the messages
    from the items' first-step features, the users' in-degrees and the users' first-step features. -/
theorem x2U_eq (x0 : FVec Ideal S200000x64 .f32) (x1 : FVec Ideal S100000x64 .f32) (x2 x3 : IVec S2x1000000 32)
    (x4 : FVec Ideal S64x64 .f32) (x5 : FVec Ideal S64 .f32) (x6 : FVec Ideal S64x64 .f32) (x7 : FVec Ideal S64 .f32)
    (x8 : FVec Ideal S64x64 .f32) (x9 : FVec Ideal S64 .f32) (x10 x11 : FVec Ideal S64x64 .f32) (x12 : FVec Ideal S64 .f32)
    (x13 x17 : FVec Ideal S64x64 .f32) (x18 : FVec Ideal S64 .f32) (x19 : FVec Ideal S64x64 .f32) :
    val_main_v147 (F := Ideal) x0 x1 x2 x3 x4 x5 x6 x7 x8 x9 x10 x11 x12 x13 x17 x18 x19
      = convR 200000 (HostFn.gsU (HostFn.x1I x0 x1 x2 x4 x5 x6 x7 x8 x9 x10) x3) (HostFn.degU x3)
          (HostFn.x1U x0 x1 x3 x4 x5 x6 x7 x11 x12 x13) x17 (HostFn.vecFn x18) x19 := by
  rw [← RefStage.x1I_eq, ← RefStage.x1U_eq, ← gs126, ← dg132]
  funext i
  obtain ⟨p, q, rfl⟩ : ∃ (p : Fin 200000) (q : Fin 64), i = ix2 p q := ⟨i 0, i 1, eq_ix2 i⟩
  rw [convR_apply]
  rw [val_main_v147_apply, val_main_v146_apply, val_main_v145_apply, val_main_v142_apply, val_main_v139_apply,
    val_main_v144_apply, val_main_v141_apply, val_main_v140_apply, val_main_call2_v0_apply, val_main_call2_cst_apply,
    Ideal.maximumf_def, Ideal.addf_def, Ideal.addf_def, Ideal.addf_def, Ideal.ofBits_def, Ideal.ofBits_zero_f32]
  refine congrArg₂ max (congrArg₂ (· + ·) (congrArg₂ (· + ·) (congrArg₂ (· + ·)
    (Finset.sum_congr rfl fun k _ => ?_) ?_) (Finset.sum_congr rfl fun k _ => ?_)) rfl) rfl
  · rw [val_main_v137_apply, val_main_v138_apply, val_main_v136_apply, val_main_v135_apply, val_main_v134_apply,
      val_main_v133_apply, val_main_cst_21_apply, Ideal.hostDivf_def, Ideal.maximumf_def, Ideal.ofBits_def,
      Ideal.ofBits_one_f32,
      show lidx_main_v139 (ix2 p q) k = ix2 p k from ix2_ext _ _ rfl rfl,
      show idx_main_v135 (idx_main_v136 (ix2 p k)) = ix1 p from ix1_ext _ _ rfl,
      show idx_main_v138 (ridx_main_v139 (ix2 p q) k) = ix2 q k from ix2_ext _ _ rfl rfl]
  · show x18 _ = x18 (ix1 q)
    rw [show idx_main_v140 (idx_main_v141 (ix2 p q)) = ix1 q from ix1_ext _ _ rfl]
  · rw [val_main_v143_apply,
      show lidx_main_v144 (ix2 p q) k = ix2 p k from ix2_ext _ _ rfl rfl,
      show idx_main_v143 (ridx_main_v144 (ix2 p q) k) = ix2 q k from ix2_ext _ _ rfl rfl]

/-- The reference's user result is the output layer on the users' features after the second convolution step. -/
theorem outU_eq (x0 : FVec Ideal S200000x64 .f32) (x1 : FVec Ideal S100000x64 .f32) (x2 x3 : IVec S2x1000000 32)
    (x4 : FVec Ideal S64x64 .f32) (x5 : FVec Ideal S64 .f32) (x6 : FVec Ideal S64x64 .f32) (x7 : FVec Ideal S64 .f32)
    (x8 : FVec Ideal S64x64 .f32) (x9 : FVec Ideal S64 .f32) (x10 x11 : FVec Ideal S64x64 .f32) (x12 : FVec Ideal S64 .f32)
    (x13 x14 : FVec Ideal S64x64 .f32) (x15 : FVec Ideal S64 .f32) (x16 x17 : FVec Ideal S64x64 .f32) (x18 : FVec Ideal S64 .f32)
    (x19 : FVec Ideal S64x64 .f32) (x20 : FVec Ideal S32x64 .f32) (x21 : FVec Ideal S32 .f32) (x22 : FVec Ideal S32x64 .f32)
    (x23 : FVec Ideal S32 .f32) :
    val_main_v154 (F := Ideal) x0 x1 x2 x3 x4 x5 x6 x7 x8 x9 x10 x11 x12 x13 x17 x18 x19 x20 x21
      = HostFn.outU x0 x1 x2 x3 x4 x5 x6 x7 x8 x9 x10 x11 x12 x13 x14 x15 x16 x17 x18 x19 x20 x21 x22 x23 := by
  unfold HostFn.outU
  rw [← x2U_eq x0 x1 x2 x3 x4 x5 x6 x7 x8 x9 x10 x11 x12 x13 x17 x18 x19]
  funext i
  obtain ⟨p, q, rfl⟩ : ∃ (p : Fin 200000) (q : Fin 32), i = ix2 p q := ⟨i 0, i 1, eq_ix2 i⟩
  rw [lin_apply, val_main_v154_apply, val_main_v151_apply, val_main_v153_apply, val_main_v152_apply, Ideal.addf_def]
  refine congrArg₂ (· + ·) (Finset.sum_congr rfl fun k _ => ?_) ?_
  · rw [val_main_v150_apply,
      show lidx_main_v151 (ix2 p q) k = ix2 p k from ix2_ext _ _ rfl rfl,
      show idx_main_v150 (ridx_main_v151 (ix2 p q) k) = ix2 q k from ix2_ext _ _ rfl rfl]
  · show x21 _ = x21 (ix1 q)
    rw [show idx_main_v152 (idx_main_v153 (ix2 p q)) = ix1 q from ix1_ext _ _ rfl]

end Cert.ReferenceIdeal.RefOutU

end
-- ==== Proof.RefVal.lean ====
/-
  The reference's two results read as compositions of whole-array functions: its linear layers are `lin`, its
  convolution steps `convR`, and its gathers, destination sums and degree counts the shared host stages.
-/
import proofs.«413055_j9929964388947_3_alg».proof.Proof.Gen.ReferenceIdeal.Run
import proofs.«413055_j9929964388947_3_alg».proof.Proof.Gen.ReferenceIdeal.Read
import proofs.«413055_j9929964388947_3_alg».proof.Proof.HostR
import proofs.«413055_j9929964388947_3_alg».proof.Proof.Spec
import proofs.«413055_j9929964388947_3_alg».proof.Proof.RefOutI
import proofs.«413055_j9929964388947_3_alg».proof.Proof.RefOutU

noncomputable section

namespace Cert.ReferenceIdeal.RefVal

open Cert.ReferenceIdeal Cert.ReferenceIdeal.Gen Cert.ReferenceIdeal.Read Idealize.ShloMosaic Idealize.ShloMosaic.TcCoe Idealize.SL.Sem
open Idealize.ShloMosaic.ValueIdx Cert.Spec

/-- The reference's run with its two results named: the user result `HostFn.outU` and the item result
    `HostFn.outI` of the arguments, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v154) = HostFn.outU (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))
      ∧ r.2.mem ((c.tc : Thread nD τ).loc main_v159) = HostFn.outI (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run (defs (F := Ideal)) _ _).mono (fun _ h c =>
      ⟨(h c).1.trans ((val_main_v154_eq m c).trans (RefOutU.outU_eq _ _ _ _ _ _ _ _ _ _ _ _ _ _ _ _ _ _ _ _ _ _ _ _)),
        (h c).2.1.trans ((val_main_v159_eq m c).trans (RefOutI.outI_eq _ _ _ _ _ _ _ _ _ _ _ _ _ _ _ _ _ _ _ _ _ _ _ _)),
        (h c).2.2⟩)
    (Cert.ReferenceIdeal.Value.run (F := Ideal) m ρ)

end Cert.ReferenceIdeal.RefVal

end
-- ==== Proof.Bridge.lean ====
/-
  The kernel program's compositions are the reference's, on arguments whose float entries are finite reals.
  Stage by stage: the input layers are one function; the gathers, destination sums and degree counts are the
  same host operations in both programs; each convolution step is the kernel's spelling on one side and the
  reference's on the other, equal by the law `convK_eq_convR` because the degrees, the destination features
  and the root weights are finite — and the features stay finite from stage to stage; the output layers are
  one function again.
-/
import proofs.«413055_j9929964388947_3_alg».proof.Proof.HostK
import proofs.«413055_j9929964388947_3_alg».proof.Proof.HostR
import proofs.«413055_j9929964388947_3_alg».proof.Proof.Spec

noncomputable section

namespace Cert.Bridge

open Idealize.ShloMosaic Idealize.ShloMosaic.ValueIdx Cert.Spec Cert.LibReal
open Cert.KernelIdeal (S200000x64 S100000x64 S2x1000000 S64x64 S64 S32x64 S32 S200000 S100000)

/-! ## The shared host stages are the same operations in both programs -/

theorem gsI_eq : Cert.KernelIdeal.HostFn.gsI = Cert.ReferenceIdeal.HostFn.gsI := rfl
theorem gsU_eq : Cert.KernelIdeal.HostFn.gsU = Cert.ReferenceIdeal.HostFn.gsU := rfl
theorem degI_eq : Cert.KernelIdeal.HostFn.degI = Cert.ReferenceIdeal.HostFn.degI := rfl
theorem degU_eq : Cert.KernelIdeal.HostFn.degU = Cert.ReferenceIdeal.HostFn.degU := rfl

/-- A bias as a one-row matrix, read by its column, is the bias read by its coordinate. -/
theorem row64_fn (b : FVec Ideal S64 .f32) :
    Cert.KernelIdeal.HostFn.rowFn (Cert.KernelIdeal.HostFn.row64 b) = Cert.ReferenceIdeal.HostFn.vecFn b :=
  funext fun j => Cert.KernelIdeal.HostFn.row64_apply b j

theorem row32_fn (b : FVec Ideal S32 .f32) :
    Cert.KernelIdeal.HostFn.rowFn (Cert.KernelIdeal.HostFn.row32 b) = Cert.ReferenceIdeal.HostFn.vecFn b :=
  funext fun j => Cert.KernelIdeal.HostFn.row32_apply b j

theorem vecFn_allReal {D : ℕ} {b : (⟨1, ![D]⟩ : Shape).Idx → EReal} (hb : AllReal b) :
    AllReal (Cert.ReferenceIdeal.HostFn.vecFn b) := fun j => hb _

section
variable (a0 : FVec Ideal S200000x64 .f32) (a1 : FVec Ideal S100000x64 .f32) (a2 : IVec S2x1000000 32) (a3 : IVec S2x1000000 32) (a4 : FVec Ideal S64x64 .f32) (a5 : FVec Ideal S64 .f32) (a6 : FVec Ideal S64x64 .f32) (a7 : FVec Ideal S64 .f32) (a8 : FVec Ideal S64x64 .f32) (a9 : FVec Ideal S64 .f32) (a10 : FVec Ideal S64x64 .f32) (a11 : FVec Ideal S64x64 .f32) (a12 : FVec Ideal S64 .f32) (a13 : FVec Ideal S64x64 .f32) (a14 : FVec Ideal S64x64 .f32) (a15 : FVec Ideal S64 .f32) (a16 : FVec Ideal S64x64 .f32) (a17 : FVec Ideal S64x64 .f32) (a18 : FVec Ideal S64 .f32) (a19 : FVec Ideal S64x64 .f32) (a20 : FVec Ideal S32x64 .f32) (a21 : FVec Ideal S32 .f32) (a22 : FVec Ideal S32x64 .f32) (a23 : FVec Ideal S32 .f32)

/-! ## The input layers -/

theorem hU_eq : Cert.KernelIdeal.HostFn.hU a0 a4 a5 = Cert.ReferenceIdeal.HostFn.hU a0 a4 a5 := by
  unfold Cert.KernelIdeal.HostFn.hU Cert.ReferenceIdeal.HostFn.hU
  rw [row64_fn]

theorem hI_eq : Cert.KernelIdeal.HostFn.hI a1 a6 a7 = Cert.ReferenceIdeal.HostFn.hI a1 a6 a7 := by
  unfold Cert.KernelIdeal.HostFn.hI Cert.ReferenceIdeal.HostFn.hI
  rw [row64_fn]

theorem hU_real (h0 : AllReal a0) (h4 : AllReal a4) (h5 : AllReal a5) : AllReal (Cert.ReferenceIdeal.HostFn.hU a0 a4 a5) :=
  lin_allReal h0 h4 (vecFn_allReal h5)

theorem hI_real (h1 : AllReal a1) (h6 : AllReal a6) (h7 : AllReal a7) : AllReal (Cert.ReferenceIdeal.HostFn.hI a1 a6 a7) :=
  lin_allReal h1 h6 (vecFn_allReal h7)

/-! ## The first convolution -/

theorem x1I_eq (h1 : AllReal a1) (h6 : AllReal a6) (h7 : AllReal a7) (h10 : AllReal a10) :
    Cert.KernelIdeal.HostFn.x1I a0 a1 a2 a4 a5 a6 a7 a8 a9 a10 = Cert.ReferenceIdeal.HostFn.x1I a0 a1 a2 a4 a5 a6 a7 a8 a9 a10 := by
  unfold Cert.KernelIdeal.HostFn.x1I Cert.ReferenceIdeal.HostFn.x1I
  rw [hU_eq a0 a4 a5, hI_eq a1 a6 a7, row64_fn a9]
  exact convK_eq_convR _ _ (Cert.KernelIdeal.HostFn.degI a2) _ _ _ _ a10
    (Cert.KernelIdeal.HostFn.invColI_apply _) (Cert.KernelIdeal.HostFn.aug_apply a10)
    (Cert.KernelIdeal.HostFn.degI_allReal a2) (hI_real a1 a6 a7 h1 h6 h7) h10

theorem x1U_eq (h0 : AllReal a0) (h4 : AllReal a4) (h5 : AllReal a5) (h13 : AllReal a13) :
    Cert.KernelIdeal.HostFn.x1U a0 a1 a3 a4 a5 a6 a7 a11 a12 a13 = Cert.ReferenceIdeal.HostFn.x1U a0 a1 a3 a4 a5 a6 a7 a11 a12 a13 := by
  unfold Cert.KernelIdeal.HostFn.x1U Cert.ReferenceIdeal.HostFn.x1U
  rw [hU_eq a0 a4 a5, hI_eq a1 a6 a7, row64_fn a12]
  exact convK_eq_convR _ _ (Cert.KernelIdeal.HostFn.degU a3) _ _ _ _ a13
    (Cert.KernelIdeal.HostFn.invColU_apply _) (Cert.KernelIdeal.HostFn.aug_apply a13)
    (Cert.KernelIdeal.HostFn.degU_allReal a3) (hU_real a0 a4 a5 h0 h4 h5) h13

theorem x1I_real (h0 : AllReal a0) (h1 : AllReal a1) (h4 : AllReal a4) (h5 : AllReal a5) (h6 : AllReal a6) (h7 : AllReal a7) (h8 : AllReal a8) (h9 : AllReal a9) (h10 : AllReal a10) : AllReal (Cert.ReferenceIdeal.HostFn.x1I a0 a1 a2 a4 a5 a6 a7 a8 a9 a10) := by
  unfold Cert.ReferenceIdeal.HostFn.x1I
  exact convR_allReal (Cert.KernelIdeal.HostFn.gsI_allReal (hU_real a0 a4 a5 h0 h4 h5) a2)
    (Cert.KernelIdeal.HostFn.degI_allReal a2) (hI_real a1 a6 a7 h1 h6 h7) h8 (vecFn_allReal h9) h10

theorem x1U_real (h0 : AllReal a0) (h1 : AllReal a1) (h4 : AllReal a4) (h5 : AllReal a5) (h6 : AllReal a6) (h7 : AllReal a7) (h11 : AllReal a11) (h12 : AllReal a12) (h13 : AllReal a13) : AllReal (Cert.ReferenceIdeal.HostFn.x1U a0 a1 a3 a4 a5 a6 a7 a11 a12 a13) := by
  unfold Cert.ReferenceIdeal.HostFn.x1U
  exact convR_allReal (Cert.KernelIdeal.HostFn.gsU_allReal (hI_real a1 a6 a7 h1 h6 h7) a3)
    (Cert.KernelIdeal.HostFn.degU_allReal a3) (hU_real a0 a4 a5 h0 h4 h5) h11 (vecFn_allReal h12) h13

/-! ## The second convolution and the output layers -/

/-- The item result: the kernel program's composition is the reference's. -/
theorem outI_eq (h0 : AllReal a0) (h1 : AllReal a1) (h4 : AllReal a4) (h5 : AllReal a5) (h6 : AllReal a6) (h7 : AllReal a7) (h8 : AllReal a8) (h9 : AllReal a9) (h10 : AllReal a10) (h11 : AllReal a11) (h12 : AllReal a12) (h13 : AllReal a13) (h14 : AllReal a14) (h15 : AllReal a15) (h16 : AllReal a16) (h17 : AllReal a17) (h18 : AllReal a18) (h19 : AllReal a19) (h20 : AllReal a20) (h21 : AllReal a21) (h22 : AllReal a22) (h23 : AllReal a23) :
    Cert.KernelIdeal.HostFn.outI a0 a1 a2 a3 a4 a5 a6 a7 a8 a9 a10 a11 a12 a13 a14 a15 a16 a17 a18 a19 a20 a21 a22 a23 = Cert.ReferenceIdeal.HostFn.outI a0 a1 a2 a3 a4 a5 a6 a7 a8 a9 a10 a11 a12 a13 a14 a15 a16 a17 a18 a19 a20 a21 a22 a23 := by
  unfold Cert.KernelIdeal.HostFn.outI Cert.ReferenceIdeal.HostFn.outI
  rw [x1U_eq a0 a1 a3 a4 a5 a6 a7 a11 a12 a13 h0 h4 h5 h13, x1I_eq a0 a1 a2 a4 a5 a6 a7 a8 a9 a10 h1 h6 h7 h10, row64_fn a15, row32_fn a23]
  refine congrArg (fun y => lin 100000 32 y a22 (Cert.ReferenceIdeal.HostFn.vecFn a23)) ?_
  exact convK_eq_convR _ _ (Cert.KernelIdeal.HostFn.degI a2) _ _ _ _ a16
    (Cert.KernelIdeal.HostFn.invColI_apply _) (Cert.KernelIdeal.HostFn.aug_apply a16)
    (Cert.KernelIdeal.HostFn.degI_allReal a2)
    (x1I_real a0 a1 a2 a4 a5 a6 a7 a8 a9 a10 h0 h1 h4 h5 h6 h7 h8 h9 h10) h16

/-- The user result: the kernel program's composition is the reference's. -/
theorem outU_eq (h0 : AllReal a0) (h1 : AllReal a1) (h4 : AllReal a4) (h5 : AllReal a5) (h6 : AllReal a6) (h7 : AllReal a7) (h8 : AllReal a8) (h9 : AllReal a9) (h10 : AllReal a10) (h11 : AllReal a11) (h12 : AllReal a12) (h13 : AllReal a13) (h14 : AllReal a14) (h15 : AllReal a15) (h16 : AllReal a16) (h17 : AllReal a17) (h18 : AllReal a18) (h19 : AllReal a19) (h20 : AllReal a20) (h21 : AllReal a21) (h22 : AllReal a22) (h23 : AllReal a23) :
    Cert.KernelIdeal.HostFn.outU a0 a1 a2 a3 a4 a5 a6 a7 a8 a9 a10 a11 a12 a13 a14 a15 a16 a17 a18 a19 a20 a21 a22 a23 = Cert.ReferenceIdeal.HostFn.outU a0 a1 a2 a3 a4 a5 a6 a7 a8 a9 a10 a11 a12 a13 a14 a15 a16 a17 a18 a19 a20 a21 a22 a23 := by
  unfold Cert.KernelIdeal.HostFn.outU Cert.ReferenceIdeal.HostFn.outU
  rw [x1U_eq a0 a1 a3 a4 a5 a6 a7 a11 a12 a13 h0 h4 h5 h13, x1I_eq a0 a1 a2 a4 a5 a6 a7 a8 a9 a10 h1 h6 h7 h10, row64_fn a18, row32_fn a21]
  refine congrArg (fun y => lin 200000 32 y a20 (Cert.ReferenceIdeal.HostFn.vecFn a21)) ?_
  exact convK_eq_convR _ _ (Cert.KernelIdeal.HostFn.degU a3) _ _ _ _ a19
    (Cert.KernelIdeal.HostFn.invColU_apply _) (Cert.KernelIdeal.HostFn.aug_apply a19)
    (Cert.KernelIdeal.HostFn.degU_allReal a3)
    (x1U_real a0 a1 a3 a4 a5 a6 a7 a11 a12 a13 h0 h1 h4 h5 h6 h7 h11 h12 h13) h19

/-! ## The same between arguments that agree -/

/-- The reference's item result on arguments equal to the kernel program's is the kernel program's. -/
theorem outI_agree (b0 : FVec Ideal S200000x64 .f32) (b1 : FVec Ideal S100000x64 .f32) (b2 : IVec S2x1000000 32) (b3 : IVec S2x1000000 32) (b4 : FVec Ideal S64x64 .f32) (b5 : FVec Ideal S64 .f32) (b6 : FVec Ideal S64x64 .f32) (b7 : FVec Ideal S64 .f32) (b8 : FVec Ideal S64x64 .f32) (b9 : FVec Ideal S64 .f32) (b10 : FVec Ideal S64x64 .f32) (b11 : FVec Ideal S64x64 .f32) (b12 : FVec Ideal S64 .f32) (b13 : FVec Ideal S64x64 .f32) (b14 : FVec Ideal S64x64 .f32) (b15 : FVec Ideal S64 .f32) (b16 : FVec Ideal S64x64 .f32) (b17 : FVec Ideal S64x64 .f32) (b18 : FVec Ideal S64 .f32) (b19 : FVec Ideal S64x64 .f32) (b20 : FVec Ideal S32x64 .f32) (b21 : FVec Ideal S32 .f32) (b22 : FVec Ideal S32x64 .f32) (b23 : FVec Ideal S32 .f32) (e0 : b0 = a0) (e1 : b1 = a1) (e2 : b2 = a2) (e3 : b3 = a3) (e4 : b4 = a4) (e5 : b5 = a5) (e6 : b6 = a6) (e7 : b7 = a7) (e8 : b8 = a8) (e9 : b9 = a9) (e10 : b10 = a10) (e11 : b11 = a11) (e12 : b12 = a12) (e13 : b13 = a13) (e14 : b14 = a14) (e15 : b15 = a15) (e16 : b16 = a16) (e17 : b17 = a17) (e18 : b18 = a18) (e19 : b19 = a19) (e20 : b20 = a20) (e21 : b21 = a21) (e22 : b22 = a22) (e23 : b23 = a23) (h0 : AllReal a0) (h1 : AllReal a1) (h4 : AllReal a4) (h5 : AllReal a5) (h6 : AllReal a6) (h7 : AllReal a7) (h8 : AllReal a8) (h9 : AllReal a9) (h10 : AllReal a10) (h11 : AllReal a11) (h12 : AllReal a12) (h13 : AllReal a13) (h14 : AllReal a14) (h15 : AllReal a15) (h16 : AllReal a16) (h17 : AllReal a17) (h18 : AllReal a18) (h19 : AllReal a19) (h20 : AllReal a20) (h21 : AllReal a21) (h22 : AllReal a22) (h23 : AllReal a23) :
    Cert.ReferenceIdeal.HostFn.outI b0 b1 b2 b3 b4 b5 b6 b7 b8 b9 b10 b11 b12 b13 b14 b15 b16 b17 b18 b19 b20 b21 b22 b23 = Cert.KernelIdeal.HostFn.outI a0 a1 a2 a3 a4 a5 a6 a7 a8 a9 a10 a11 a12 a13 a14 a15 a16 a17 a18 a19 a20 a21 a22 a23 := by
  subst e0 e1 e2 e3 e4 e5 e6 e7 e8 e9 e10 e11 e12 e13 e14 e15 e16 e17 e18 e19 e20 e21 e22 e23
  exact (outI_eq b0 b1 b2 b3 b4 b5 b6 b7 b8 b9 b10 b11 b12 b13 b14 b15 b16 b17 b18 b19 b20 b21 b22 b23 h0 h1 h4 h5 h6 h7 h8 h9 h10 h11 h12 h13 h14 h15 h16 h17 h18 h19 h20 h21 h22 h23).symm

/-- The reference's user result on arguments equal to the kernel program's is the kernel program's. -/
theorem outU_agree (b0 : FVec Ideal S200000x64 .f32) (b1 : FVec Ideal S100000x64 .f32) (b2 : IVec S2x1000000 32) (b3 : IVec S2x1000000 32) (b4 : FVec Ideal S64x64 .f32) (b5 : FVec Ideal S64 .f32) (b6 : FVec Ideal S64x64 .f32) (b7 : FVec Ideal S64 .f32) (b8 : FVec Ideal S64x64 .f32) (b9 : FVec Ideal S64 .f32) (b10 : FVec Ideal S64x64 .f32) (b11 : FVec Ideal S64x64 .f32) (b12 : FVec Ideal S64 .f32) (b13 : FVec Ideal S64x64 .f32) (b14 : FVec Ideal S64x64 .f32) (b15 : FVec Ideal S64 .f32) (b16 : FVec Ideal S64x64 .f32) (b17 : FVec Ideal S64x64 .f32) (b18 : FVec Ideal S64 .f32) (b19 : FVec Ideal S64x64 .f32) (b20 : FVec Ideal S32x64 .f32) (b21 : FVec Ideal S32 .f32) (b22 : FVec Ideal S32x64 .f32) (b23 : FVec Ideal S32 .f32) (e0 : b0 = a0) (e1 : b1 = a1) (e2 : b2 = a2) (e3 : b3 = a3) (e4 : b4 = a4) (e5 : b5 = a5) (e6 : b6 = a6) (e7 : b7 = a7) (e8 : b8 = a8) (e9 : b9 = a9) (e10 : b10 = a10) (e11 : b11 = a11) (e12 : b12 = a12) (e13 : b13 = a13) (e14 : b14 = a14) (e15 : b15 = a15) (e16 : b16 = a16) (e17 : b17 = a17) (e18 : b18 = a18) (e19 : b19 = a19) (e20 : b20 = a20) (e21 : b21 = a21) (e22 : b22 = a22) (e23 : b23 = a23) (h0 : AllReal a0) (h1 : AllReal a1) (h4 : AllReal a4) (h5 : AllReal a5) (h6 : AllReal a6) (h7 : AllReal a7) (h8 : AllReal a8) (h9 : AllReal a9) (h10 : AllReal a10) (h11 : AllReal a11) (h12 : AllReal a12) (h13 : AllReal a13) (h14 : AllReal a14) (h15 : AllReal a15) (h16 : AllReal a16) (h17 : AllReal a17) (h18 : AllReal a18) (h19 : AllReal a19) (h20 : AllReal a20) (h21 : AllReal a21) (h22 : AllReal a22) (h23 : AllReal a23) :
    Cert.ReferenceIdeal.HostFn.outU b0 b1 b2 b3 b4 b5 b6 b7 b8 b9 b10 b11 b12 b13 b14 b15 b16 b17 b18 b19 b20 b21 b22 b23 = Cert.KernelIdeal.HostFn.outU a0 a1 a2 a3 a4 a5 a6 a7 a8 a9 a10 a11 a12 a13 a14 a15 a16 a17 a18 a19 a20 a21 a22 a23 := by
  subst e0 e1 e2 e3 e4 e5 e6 e7 e8 e9 e10 e11 e12 e13 e14 e15 e16 e17 e18 e19 e20 e21 e22 e23
  exact (outU_eq b0 b1 b2 b3 b4 b5 b6 b7 b8 b9 b10 b11 b12 b13 b14 b15 b16 b17 b18 b19 b20 b21 b22 b23 h0 h1 h4 h5 h6 h7 h8 h9 h10 h11 h12 h13 h14 h15 h16 h17 h18 h19 h20 h21 h22 h23).symm

end

end Cert.Bridge

end
-- ==== Proof.FinPre.lean ====
/-
  The precondition says of every float argument that the absolute value of each entry is below +∞; an extended
  real whose absolute value is below +∞ is a finite real. So under the precondition every entry of every float
  argument is a finite real.
-/
import proofs.«413055_j9929964388947_3_alg».proof.Pre_finite_inputs
import proofs.«413055_j9929964388947_3_alg».proof.Proof.Gen.Pre_finite_inputs
import proofs.«413055_j9929964388947_3_alg».proof.Proof.Spec
import Idealize.ShloMosaic.Lib.ReduceAll

noncomputable section

namespace Cert.FinPre

open Cert.Pre_finite_inputs Idealize.ShloMosaic Idealize.ShloMosaic.ValueIdx Cert.LibReal

/-- The scalar shape has exactly one index. -/
private instance subsingleton_scalar_idx : Subsingleton S_.Idx := ⟨fun a b => funext fun d => d.elim0⟩

/-- A boolean whose one-bit word is one is true. -/
private theorem ofBool_eq_one {b : Bool} (h : BitVec.ofBool b = 1#1) : b = true := by
  cases b
  · exact absurd h (by decide)
  · rfl

/-- If the conjunction over all entries of the bit "|x i| < +∞" is one, every entry of x is a finite real. -/
private theorem allReal_of_all_abs_lt_top {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ix0 = 1#1) :
    Cert.Spec.AllReal x := by
  intro i
  have h1 := Host.reduce_andi_all _ _ hr hu _ e i
  have h2 : Ideal.cmp .olt (max (x i) (-(x i))) (Ideal.ofBits .f32 0x7F800000#32) = 1#1 := h1
  rw [ofBits_pos_inf] at h2
  have h3 : BitVec.ofBool (decide (max (x i) (-(x i)) < ⊤)) = 1#1 := h2
  exact isReal_of_abs_lt_top (of_decide_eq_true (ofBool_eq_one h3))

/-- A conjunction of two one-bit words is one only if both are. -/
private theorem andi_split {x y : IVec S_ 1} {i : S_.Idx} (h : andi x y i = 1#1) : x i = 1#1 ∧ y i = 1#1 :=
  IntOp.andi_eq_one.1 h

/-- Under the precondition every entry of every float argument is a finite real. -/
theorem allReal_of_pre (a0 : FVec Ideal S200000x64 .f32) (a1 : FVec Ideal S100000x64 .f32) (a2 : IVec S2x1000000 32) (a3 : IVec S2x1000000 32) (a4 : FVec Ideal S64x64 .f32) (a5 : FVec Ideal S64 .f32) (a6 : FVec Ideal S64x64 .f32) (a7 : FVec Ideal S64 .f32) (a8 : FVec Ideal S64x64 .f32) (a9 : FVec Ideal S64 .f32) (a10 : FVec Ideal S64x64 .f32) (a11 : FVec Ideal S64x64 .f32) (a12 : FVec Ideal S64 .f32) (a13 : FVec Ideal S64x64 .f32) (a14 : FVec Ideal S64x64 .f32) (a15 : FVec Ideal S64 .f32) (a16 : FVec Ideal S64x64 .f32) (a17 : FVec Ideal S64x64 .f32) (a18 : FVec Ideal S64 .f32) (a19 : FVec Ideal S64x64 .f32) (a20 : FVec Ideal S32x64 .f32) (a21 : FVec Ideal S32 .f32) (a22 : FVec Ideal S32x64 .f32) (a23 : FVec Ideal S32 .f32)
    (h : Cert.Pre_finite_inputs.fn (F := Ideal) a0 a1 a2 a3 a4 a5 a6 a7 a8 a9 a10 a11 a12 a13 a14 a15 a16 a17 a18 a19 a20 a21 a22 a23 = fun _ => 1#1) :
    Cert.Spec.AllReal a0 ∧ Cert.Spec.AllReal a1 ∧ Cert.Spec.AllReal a4 ∧ Cert.Spec.AllReal a5 ∧ Cert.Spec.AllReal a6 ∧ Cert.Spec.AllReal a7 ∧ Cert.Spec.AllReal a8 ∧ Cert.Spec.AllReal a9 ∧ Cert.Spec.AllReal a10 ∧ Cert.Spec.AllReal a11 ∧ Cert.Spec.AllReal a12 ∧ Cert.Spec.AllReal a13 ∧ Cert.Spec.AllReal a14 ∧ Cert.Spec.AllReal a15 ∧ Cert.Spec.AllReal a16 ∧ Cert.Spec.AllReal a17 ∧ Cert.Spec.AllReal a18 ∧ Cert.Spec.AllReal a19 ∧ Cert.Spec.AllReal a20 ∧ Cert.Spec.AllReal a21 ∧ Cert.Spec.AllReal a22 ∧ Cert.Spec.AllReal a23 := by
  have h0 := congrFun h ix0
  dsimp only [fn, fn_part1, fn_part2, fn_part3, fn_part4, fn_part5, fn_part6] at h0
  obtain ⟨h0, k23⟩ := andi_split h0
  obtain ⟨h0, k22⟩ := andi_split h0
  obtain ⟨h0, k21⟩ := andi_split h0
  obtain ⟨h0, k20⟩ := andi_split h0
  obtain ⟨h0, k19⟩ := andi_split h0
  obtain ⟨h0, k18⟩ := andi_split h0
  obtain ⟨h0, k17⟩ := andi_split h0
  obtain ⟨h0, k16⟩ := andi_split h0
  obtain ⟨h0, k15⟩ := andi_split h0
  obtain ⟨h0, k14⟩ := andi_split h0
  obtain ⟨h0, k13⟩ := andi_split h0
  obtain ⟨h0, k12⟩ := andi_split h0
  obtain ⟨h0, k11⟩ := andi_split h0
  obtain ⟨h0, k10⟩ := andi_split h0
  obtain ⟨h0, k9⟩ := andi_split h0
  obtain ⟨h0, k8⟩ := andi_split h0
  obtain ⟨h0, k7⟩ := andi_split h0
  obtain ⟨h0, k6⟩ := andi_split h0
  obtain ⟨h0, k5⟩ := andi_split h0
  obtain ⟨h0, k4⟩ := andi_split h0
  obtain ⟨k0, k1⟩ := andi_split h0
  exact ⟨allReal_of_all_abs_lt_top a0 _ _ _ k0,
    allReal_of_all_abs_lt_top a1 _ _ _ k1,
    allReal_of_all_abs_lt_top a4 _ _ _ k4,
    allReal_of_all_abs_lt_top a5 _ _ _ k5,
    allReal_of_all_abs_lt_top a6 _ _ _ k6,
    allReal_of_all_abs_lt_top a7 _ _ _ k7,
    allReal_of_all_abs_lt_top a8 _ _ _ k8,
    allReal_of_all_abs_lt_top a9 _ _ _ k9,
    allReal_of_all_abs_lt_top a10 _ _ _ k10,
    allReal_of_all_abs_lt_top a11 _ _ _ k11,
    allReal_of_all_abs_lt_top a12 _ _ _ k12,
    allReal_of_all_abs_lt_top a13 _ _ _ k13,
    allReal_of_all_abs_lt_top a14 _ _ _ k14,
    allReal_of_all_abs_lt_top a15 _ _ _ k15,
    allReal_of_all_abs_lt_top a16 _ _ _ k16,
    allReal_of_all_abs_lt_top a17 _ _ _ k17,
    allReal_of_all_abs_lt_top a18 _ _ _ k18,
    allReal_of_all_abs_lt_top a19 _ _ _ k19,
    allReal_of_all_abs_lt_top a20 _ _ _ k20,
    allReal_of_all_abs_lt_top a21 _ _ _ k21,
    allReal_of_all_abs_lt_top a22 _ _ _ k22,
    allReal_of_all_abs_lt_top a23 _ _ _ k23⟩

end Cert.FinPre

end
-- ==== Proof.lean ====
/-
  A two-layer heterogeneous graph convolution (users and items, mean aggregation, residual and clamp at zero,
  linear input and output layers) as six pallas calls among host gathers and scatter-adds, against the same
  network written with plain array operations.

  Frames. The word-level kernel program and its idealization run by their generated frame certificates; the
  reference runs by its generated run.

  The value claim at the exact-real instance. Followed through its twelve segments, the kernel program ends with
  its two results at compositions of three whole-array maps — the linear layer and the kernel's spelling of the
  convolution step, in which the mean is a product with the reciprocal column 1 / max(deg, 1) and the residual is
  folded into the root weights w + I — with the host stages (edge rows, gather, sum at destinations, degree
  count). The reference ends at the same compositions with its own spelling of the convolution step: a quotient by
  max(deg, 1), and the residual added after the two products. The two spellings agree where the degrees, the
  destination features and the root weights are finite reals: dividing by a real d ≥ 1 is multiplying by 1/d, and
  a finite row distributes over w + I. The precondition makes every float argument finite, degree counts are finite
  sums of ones, and every stage keeps finite reals finite, so the law applies at both layers.

  The idealization rewrote nothing, so the preservation claim is trivial.
-/
import proofs.«413055_j9929964388947_3_alg».proof.Defs
import proofs.«413055_j9929964388947_3_alg».proof.Proof.Gen.Kernel
import proofs.«413055_j9929964388947_3_alg».proof.Proof.Gen.Kernel.Frame
import proofs.«413055_j9929964388947_3_alg».proof.Proof.Gen.KernelIdeal
import proofs.«413055_j9929964388947_3_alg».proof.Proof.Gen.KernelIdeal.Frame
import proofs.«413055_j9929964388947_3_alg».proof.Proof.Gen.ReferenceIdeal
import proofs.«413055_j9929964388947_3_alg».proof.Proof.Gen.Pre_finite_inputs
import proofs.«413055_j9929964388947_3_alg».proof.Proof.KRun
import proofs.«413055_j9929964388947_3_alg».proof.Proof.KChain
import proofs.«413055_j9929964388947_3_alg».proof.Proof.RefVal
import proofs.«413055_j9929964388947_3_alg».proof.Proof.Bridge
import proofs.«413055_j9929964388947_3_alg».proof.Proof.FinPre
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.RefVal.run m ρ)

/-- Both programs end with the kernel program's compositions of the arguments: the kernel program by following its
    segments, the reference by its run and the agreement of the two spellings on finite arguments. -/
theorem algebraic : Cert.algebraic_KernelIdeal_ReferenceIdeal := by
  intro m ρ m' ρ' hpre hagree
  refine ⟨fun c => Cert.KernelIdeal.HostFn.outU (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)),
    fun c => Cert.KernelIdeal.HostFn.outI (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)), ?_, ?_⟩
  · exact (θ_run Cert.KernelIdeal.defs _ _).mono
      (fun r h c => ⟨(h c).1.trans (Cert.KernelIdeal.Chain.val_outU m ρ c),
        (h c).2.1.trans (Cert.KernelIdeal.Chain.val_outI m ρ c), (h c).2.2⟩)
      (Cert.KernelIdeal.Gen.run_results (F := Ideal) m ρ)
  · refine (θ_run Cert.ReferenceIdeal.defs _ _).mono (fun r h c => ?_) (Cert.ReferenceIdeal.RefVal.run m' ρ')
    obtain ⟨h0, h1, h4, h5, h6, h7, h8, h9, h10, h11, h12, h13, h14, h15, h16, h17, h18, h19, h20, h21, h22, h23⟩ := Cert.FinPre.allReal_of_pre _ _ _ _ _ _ _ _ _ _ _ _ _ _ _ _ _ _ _ _ _ _ _ _ (hpre c)
    obtain ⟨e0, e1, e2, e3, e4, e5, e6, e7, e8, e9, e10, e11, e12, e13, e14, e15, e16, e17, e18, e19, e20, e21, e22, e23⟩ := hagree c
    refine ⟨(h c).1.trans ?_, (h c).2.1.trans ?_, (h c).2.2⟩
    · exact Cert.Bridge.outU_agree _ _ _ _ _ _ _ _ _ _ _ _ _ _ _ _ _ _ _ _ _ _ _ _ _ _ _ _ _ _ _ _ _ _ _ _ _ _ _ _ _ _ _ _ _ _ _ _ e0 e1 e2 e3 e4 e5 e6 e7 e8 e9 e10 e11 e12 e13 e14 e15 e16 e17 e18 e19 e20 e21 e22 e23 h0 h1 h4 h5 h6 h7 h8 h9 h10 h11 h12 h13 h14 h15 h16 h17 h18 h19 h20 h21 h22 h23
    · exact Cert.Bridge.outI_agree _ _ _ _ _ _ _ _ _ _ _ _ _ _ _ _ _ _ _ _ _ _ _ _ _ _ _ _ _ _ _ _ _ _ _ _ _ _ _ _ _ _ _ _ _ _ _ _ e0 e1 e2 e3 e4 e5 e6 e7 e8 e9 e10 e11 e12 e13 e14 e15 e16 e17 e18 e19 e20 e21 e22 e23 h0 h1 h4 h5 h6 h7 h8 h9 h10 h11 h12 h13 h14 h15 h16 h17 h18 h19 h20 h21 h22 h23

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
